-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x196x384 : Shape := ⟨3, ![256, 196, 384]⟩
abbrev S1536x384 : Shape := ⟨2, ![1536, 384]⟩
abbrev S1536 : Shape := ⟨1, ![1536]⟩
abbrev S384x1536 : Shape := ⟨2, ![384, 1536]⟩
abbrev S384 : Shape := ⟨1, ![384]⟩
abbrev S1 : Shape := ⟨1, ![1]⟩
abbrev S_ : Shape := ⟨0, ![]⟩

class Facts : Prop where
  bcast_S_S256x196x384 : S_.BroadcastsInDim S256x196x384 (![] : Fin 0 → Fin S256x196x384.rank)
  reducesTo_S256x196x384_S_d0_1_2 : S256x196x384.ReducesTo [0, 1, 2] S_
  h_S_ : 0 < S_.numel
  bcast_S_S1536x384 : S_.BroadcastsInDim S1536x384 (![] : Fin 0 → Fin S1536x384.rank)
  reducesTo_S1536x384_S_d0_1 : S1536x384.ReducesTo [0, 1] S_
  bcast_S_S1536 : S_.BroadcastsInDim S1536 (![] : Fin 0 → Fin S1536.rank)
  reducesTo_S1536_S_d0 : S1536.ReducesTo [0] S_
  bcast_S_S384x1536 : S_.BroadcastsInDim S384x1536 (![] : Fin 0 → Fin S384x1536.rank)
  reducesTo_S384x1536_S_d0_1 : S384x1536.ReducesTo [0, 1] S_
  bcast_S_S384 : S_.BroadcastsInDim S384 (![] : Fin 0 → Fin S384.rank)
  reducesTo_S384_S_d0 : S384.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S384 .f32) (main_arg5 : FVec F S1 .f32) (main_v13 : IVec S_ 1) (main_v16 : IVec S384x1536 1) : IVec S_ 1 :=
  let main_c_5 : IVec S_ 1 := constantI S_ 1 1#1
  let main_v17 : IVec S_ 1 := (fun x v => Host.reduce IntOp.andi x v reducesTo_S384x1536_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S256x196x384 .f32) (main_arg1 : FVec F S1536x384 .f32) (main_arg2 : FVec F S1536 .f32) (main_arg3 : FVec F S384x1536 .f32) (main_arg4 : FVec F S384 .f32) (main_arg5 : FVec F S1 .f32) : IVec S_ 1 :=
  let main_v0 : FVec F S256x196x384 .f32 := Host.absf main_arg0
  let main_cst : FVec F S_ .f32 := constant S_ .f32 0x7F800000#32
  let main_v1 : FVec F S256x196x384 .f32 := broadcastInDim S256x196x384 ![] bcast_S_S256x196x384 main_cst
  let main_v2 : IVec S256x196x384 1 := cmpf .olt main_v0 main_v1
  let main_c : IVec S_ 1 := constantI S_ 1 1#1
  let main_v3 : IVec S_ 1 := (fun x v => Host.reduce IntOp.andi x v reducesTo_S256x196x384_S_d0_1_2 h_S_) main_v2 main_c
  let main_v4 : FVec F S1536x384 .f32 := Host.absf main_arg1
  let main_cst_0 : FVec F S_ .f32 := constant S_ .f32 0x7F800000#32
  let main_v5 : FVec F S1536x384 .f32 := broadcastInDim S1536x384 ![] bcast_S_S1536x384 main_cst_0
  let main_v6 : IVec S1536x384 1 := cmpf .olt main_v4 main_v5
  let main_c_1 : IVec S_ 1 := constantI S_ 1 1#1
  let main_v7 : IVec S_ 1 := (fun x v => Host.reduce IntOp.andi x v reducesTo_S1536x384_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S384x1536 .f32 := Host.absf main_arg3
  let main_cst_4 : FVec F S_ .f32 := constant S_ .f32 0x7F800000#32
  let main_v15 : FVec F S384x1536 .f32 := broadcastInDim S384x1536 ![] bcast_S_S384x1536 main_cst_4
  let main_v16 : IVec S384x1536 1 := cmpf .olt main_v14 main_v15
  fn_part1 (F := F) main_arg4 main_arg5 main_v13 main_v16
-- ==== Kernel.lean ====
abbrev S256x196x384 : Shape := ⟨3, ![256, 196, 384]⟩
abbrev S1536x384 : Shape := ⟨2, ![1536, 384]⟩
abbrev S1536 : Shape := ⟨1, ![1536]⟩
abbrev S384x1536 : Shape := ⟨2, ![384, 1536]⟩
abbrev S384 : Shape := ⟨1, ![384]⟩
abbrev S1 : Shape := ⟨1, ![1]⟩
abbrev S50176x384 : Shape := ⟨2, ![50176, 384]⟩
abbrev S1x1 : Shape := ⟨2, ![1, 1]⟩
abbrev S_ : Shape := ⟨0, ![]⟩
abbrev S1536x1 : Shape := ⟨2, ![1536, 1]⟩
abbrev S1x1536 : Shape := ⟨2, ![1, 1536]⟩
abbrev S50176x1536 : Shape := ⟨2, ![50176, 1536]⟩
abbrev S512x384 : Shape := ⟨2, ![512, 384]⟩
abbrev S512x1536 : Shape := ⟨2, ![512, 1536]⟩
abbrev S512 : Shape := ⟨1, ![512]⟩
abbrev S512x1 : Shape := ⟨2, ![512, 1]⟩
abbrev S384x1 : Shape := ⟨2, ![384, 1]⟩
abbrev S1x384 : Shape := ⟨2, ![1, 384]⟩

abbrev nBuf : Space → Nat
  | .hbm => 77
  | .vmem => 23
  | .smem => 0
  | _ => 0

abbrev bufTy : (tb : Table) → Fin (tcTables nBuf tb) → BufTy
  | .hbm, ⟨0, _⟩ => ⟨S256x196x384, .f32⟩
  | .hbm, ⟨1, _⟩ => ⟨S1536x384, .f32⟩
  | .hbm, ⟨2, _⟩ => ⟨S1536, .f32⟩
  | .hbm, ⟨3, _⟩ => ⟨S384x1536, .f32⟩
  | .hbm, ⟨4, _⟩ => ⟨S384, .f32⟩
  | .hbm, ⟨5, _⟩ => ⟨S1, .f32⟩
  | .hbm, ⟨6, _⟩ => ⟨S50176x384, .f32⟩
  | .hbm, ⟨7, _⟩ => ⟨S1x1, .f32⟩
  | .hbm, ⟨8, _⟩ => ⟨S_, .f32⟩
  | .hbm, ⟨9, _⟩ => ⟨S1536x384, .f32⟩
  | .hbm, ⟨10, _⟩ => ⟨S_, .f32⟩
  | .hbm, ⟨11, _⟩ => ⟨S1536, .f32⟩
  | .hbm, ⟨12, _⟩ => ⟨S_, .f32⟩
  | .hbm, ⟨13, _⟩ => ⟨S1536, .f32⟩
  | .hbm, ⟨14, _⟩ => ⟨S1536, .f32⟩
  | .hbm, ⟨15, _⟩ => ⟨S1536x1, .f32⟩
  | .hbm, ⟨16, _⟩ => ⟨S1536x384, .f32⟩
  | .hbm, ⟨17, _⟩ => ⟨S1536x384, .f32⟩
  | .hbm, ⟨18, _⟩ => ⟨S1536x384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1536x384, .f32⟩
  | .hbm, ⟨23, _⟩ => ⟨S1536x384, .f32⟩
  | .hbm, ⟨24, _⟩ => ⟨S_, .f32⟩
  | .hbm, ⟨25, _⟩ => ⟨S1536x384, .f32⟩
  | .hbm, ⟨26, _⟩ => ⟨S1536x384, .f32⟩
  | .hbm, ⟨27, _⟩ => ⟨S1536x384, .bf16⟩
  | .hbm, ⟨28, _⟩ => ⟨S1536, .f32⟩
  | .hbm, ⟨29, _⟩ => ⟨S1536, .f32⟩
  | .hbm, ⟨30, _⟩ => ⟨S1x1536, .f32⟩
  | .hbm, ⟨31, _⟩ => ⟨S1536, .f32⟩
  | .hbm, ⟨32, _⟩ => ⟨S1536, .f32⟩
  | .hbm, ⟨33, _⟩ => ⟨S1536, .f32⟩
  | .hbm, ⟨34, _⟩ => ⟨S1536, .f32⟩
  | .hbm, ⟨35, _⟩ => ⟨S1x1536, .f32⟩
  | .hbm, ⟨36, _⟩ => ⟨S50176x1536, .f32⟩
  | .hbm, ⟨37, _⟩ => ⟨S1x1, .f32⟩
  | .hbm, ⟨38, _⟩ => ⟨S_, .f32⟩
  | .hbm, ⟨39, _⟩ => ⟨S1x1, .f32⟩
  | .hbm, ⟨40, _⟩ => ⟨S1x1, .f32⟩
  | .hbm, ⟨41, _⟩ => ⟨S_, .f32⟩
  | .hbm, ⟨42, _⟩ => ⟨S384x1536, .f32⟩
  | .hbm, ⟨43, _⟩ => ⟨S_, .f32⟩
  | .hbm, ⟨44, _⟩ => ⟨S384, .f32⟩
  | .hbm, ⟨45, _⟩ => ⟨S_, .f32⟩
  | .hbm, ⟨46, _⟩ => ⟨S384, .f32⟩
  | .hbm, ⟨47, _⟩ => ⟨S384, .f32⟩
  | .hbm, ⟨48, _⟩ => ⟨S384x1, .f32⟩
  | .hbm, ⟨49, _⟩ => ⟨S384x1536, .f32⟩
  | .hbm, ⟨50, _⟩ => ⟨S384x1536, .f32⟩
  | .hbm, ⟨51, _⟩ => ⟨S384x1536, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S384x1536, .f32⟩
  | .hbm, ⟨56, _⟩ => ⟨S384x1536, .f32⟩
  | .hbm, ⟨57, _⟩ => ⟨S_, .f32⟩
  | .hbm, ⟨58, _⟩ => ⟨S384x1536, .f32⟩
  | .hbm, ⟨59, _⟩ => ⟨S384x1536, .f32⟩
  | .hbm, ⟨60, _⟩ => ⟨S384x1536, .bf16⟩
  | .hbm, ⟨61, _⟩ => ⟨S384, .f32⟩
  | .hbm, ⟨62, _⟩ => ⟨S384, .f32⟩
  | .hbm, ⟨63, _⟩ => ⟨S1x384, .f32⟩
  | .hbm, ⟨64, _⟩ => ⟨S384, .f32⟩
  | .hbm, ⟨65, _⟩ => ⟨S384, .f32⟩
  | .hbm, ⟨66, _⟩ => ⟨S384, .f32⟩
  | .hbm, ⟨67, _⟩ => ⟨S384, .f32⟩
  | .hbm, ⟨68, _⟩ => ⟨S1x384, .f32⟩
  | .hbm, ⟨69, _⟩ => ⟨S50176x384, .f32⟩
  | .hbm, ⟨70, _⟩ => ⟨S1x1, .f32⟩
  | .hbm, ⟨71, _⟩ => ⟨S_, .f32⟩
  | .hbm, ⟨72, _⟩ => ⟨S1x1, .f32⟩
  | .hbm, ⟨73, _⟩ => ⟨S1x1, .f32⟩
  | .hbm, ⟨74, _⟩ => ⟨S50176x384, .f32⟩
  | .hbm, ⟨75, _⟩ => ⟨S256x196x384, .f32⟩
  | .hbm, ⟨76, _⟩ => ⟨S_, .f32⟩
  | .local _ .vmem, ⟨0, _⟩ => ⟨S512x384, .f32⟩
  | .local _ .vmem, ⟨1, _⟩ => ⟨S512x384, .f32⟩
  | .local _ .vmem, ⟨2, _⟩ => ⟨S1x1, .f32⟩
  | .local _ .vmem, ⟨3, _⟩ => ⟨S1536x384, .bf16⟩
  | .local _ .vmem, ⟨4, _⟩ => ⟨S1x1536, .f32⟩
  | .local _ .vmem, ⟨5, _⟩ => ⟨S1x1536, .f32⟩
  | .local _ .vmem, ⟨6, _⟩ => ⟨S512x1536, .f32⟩
  | .local _ .vmem, ⟨7, _⟩ => ⟨S512x1536, .f32⟩
  | .local _ .vmem, ⟨8, _⟩ => ⟨S1x1, .f32⟩
  | .local _ .vmem, ⟨9, _⟩ => ⟨S512x1536, .f32⟩
  | .local _ .vmem, ⟨10, _⟩ => ⟨S512x1536, .f32⟩
  | .local _ .vmem, ⟨11, _⟩ => ⟨S1x1, .f32⟩
  | .local _ .vmem, ⟨12, _⟩ => ⟨S384x1536, .bf16⟩
  | .local _ .vmem, ⟨13, _⟩ => ⟨S1x384, .f32⟩
  | .local _ .vmem, ⟨14, _⟩ => ⟨S1x384, .f32⟩
  | .local _ .vmem, ⟨15, _⟩ => ⟨S512x384, .f32⟩
  | .local _ .vmem, ⟨16, _⟩ => ⟨S512x384, .f32⟩
  | .local _ .vmem, ⟨17, _⟩ => ⟨S1x1, .f32⟩
  | .local _ .vmem, ⟨18, _⟩ => ⟨S512x384, .f32⟩
  | .local _ .vmem, ⟨19, _⟩ => ⟨S512x384, .f32⟩
  | .local _ .vmem, ⟨20, _⟩ => ⟨S1x1, .f32⟩
  | .local _ .vmem, ⟨21, _⟩ => ⟨S512x384, .f32⟩
  | .local _ .vmem, ⟨22, _⟩ => ⟨S512x384, .f32⟩
  | _, _ => ⟨S256x196x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_cst_7 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43_0 : Ref sig .tc := ⟨.hbm, 69, rfl⟩
abbrev main_v43_1 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨1, ![98], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_14 : BitVec 32 := 0#32
  let v28 : BitVec 1 := Scalar.cmpi .ne v27 c0_i32_14
  v28

def k0_cond2 (i : grid0.Coords) : BitVec 1 :=
  let arg0 : BitVec 32 := BitVec.ofNat 32 (i 0).val
  let c0_i32_15 : BitVec 32 := 0#32
  let v29 : BitVec 1 := Scalar.cmpi .ne arg0 c0_i32_15
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![98], ![false]⟩

def k1_cond1 (i : grid1.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_15 : BitVec 32 := 0#32
  let v31 : BitVec 1 := Scalar.cmpi .ne v30 c0_i32_15
  v31

def k1_cond2 (i : grid1.Coords) : BitVec 1 :=
  let arg0 : BitVec 32 := BitVec.ofNat 32 (i 0).val
  let c0_i32_16 : BitVec 32 := 0#32
  let v32 : BitVec 1 := Scalar.cmpi .ne arg0 c0_i32_16
  let v33 : BitVec 32 := Scalar.extui v32
  let c0_i32_17 : BitVec 32 := 0#32
  let v34 : BitVec 1 := Scalar.cmpi .ne v33 c0_i32_17
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384x1536 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S256x196x384_S50176x384 : S256x196x384.ShapeCasts S50176x384
  shapeCasts_S1_S1x1 : S1.ShapeCasts S1x1
  shapeCasts_S1_S_ : S1.ShapeCasts S_
  reducesTo_S1536x384_S1536_d1 : S1536x384.ReducesTo [1] S1536
  h_S_ : 0 < S_.numel
  bcast_S_S1536 : S_.BroadcastsInDim S1536 (![] : Fin 0 → Fin S1536.rank)
  bcast_S1536_S1536x1_0 : S1536.BroadcastsInDim S1536x1 (![0] : Fin 1 → Fin S1536x1.rank)
  bcast_S1536x1_S1536x384_0_1 : S1536x1.BroadcastsInDim S1536x384 (![0, 1] : Fin 2 → Fin S1536x384.rank)
  bcast_S_S1536x384 : S_.BroadcastsInDim S1536x384 (![] : Fin 0 → Fin S1536x384.rank)
  bitsLt_bf16_f32 : FTy.bits .bf16 < FTy.bits .f32
  shapeCasts_S1536_S1x1536 : S1536.ShapeCasts S1x1536
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x384 : S1x1.Broadcasts S512x384
  inb_S1536x384_S1536x384_0_0 : ∀ a, (![0, 0] : Fin 2 → Nat) a + S1536x384.size a ≤ S1536x384.size a
  h_S1536x384 : 0 < S1536x384.numel
  shapeCasts_S1536x384_S1536x384 : S1536x384.ShapeCasts S1536x384
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  inb_S512x1536_S512x1536_0_0 : ∀ a, (![0, 0] : Fin 2 → Nat) a + S512x1536.size a ≤ S512x1536.size a
  h_S512x1536 : 0 < S512x1536.numel
  reduces_S512x1536_S512 : S512x1536.Reduces [1] S512
  shapeCasts_S512_S512x1 : S512.ShapeCasts S512x1
  reduces_S512x1_S1 : S512x1.Reduces [0] S1
  bcast_S_S1x1 : S_.BroadcastsInDim S1x1 (![] : Fin 0 → Fin S1x1.rank)
  shapeCasts_S1x1_S_ : S1x1.ShapeCasts S_
  reducesTo_S384x1536_S384_d1 : S384x1536.ReducesTo [1] S384
  bcast_S_S384 : S_.BroadcastsInDim S384 (![] : Fin 0 → Fin S384.rank)
  bcast_S384_S384x1_0 : S384.BroadcastsInDim S384x1 (![0] : Fin 1 → Fin S384x1.rank)
  bcast_S384x1_S384x1536_0_1 : S384x1.BroadcastsInDim S384x1536 (![0, 1] : Fin 2 → Fin S384x1536.rank)
  bcast_S_S384x1536 : S_.BroadcastsInDim S384x1536 (![] : Fin 0 → Fin S384x1536.rank)
  shapeCasts_S384_S1x384 : S384.ShapeCasts S1x384
  shapeCasts_S512x1536_S512x1536 : S512x1536.ShapeCasts S512x1536
  broadcasts_S1x1_S512x1536 : S1x1.Broadcasts S512x1536
  inb_S384x1536_S384x1536_0_0 : ∀ a, (![0, 0] : Fin 2 → Nat) a + S384x1536.size a ≤ S384x1536.size a
  h_S384x1536 : 0 < S384x1536.numel
  shapeCasts_S384x1536_S384x1536 : S384x1536.ShapeCasts S384x1536
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  reduces_S512x384_S512 : S512x384.Reduces [1] S512
  shapeCasts_S50176x384_S256x196x384 : S50176x384.ShapeCasts S256x196x384
  dot_S512x384_S1536x384_S512x1536_1_1_0_0_n_n_wf : DotDims.WF S512x384 S1536x384 S512x1536 [1] [1] [0] [0] [] []
  dot_S512x1536_S384x1536_S512x384_1_1_0_0_n_n_wf : DotDims.WF S512x1536 S384x1536 S512x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x384.size a ≤ S50176x384.size a
  hwx0_0 : ∀ i : grid0.Coords, EltTy.bits .f32 = 32 ∨ (Rect.block (s := S50176x384) S512x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x384.size a ≤ S1536x384.size a
  hwx0_2 : ∀ i : grid0.Coords, EltTy.bits .bf16 = 32 ∨ (Rect.block (s := S1536x384) S1536x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S50176x1536.size a
  hwx0_5 : ∀ i : grid0.Coords, EltTy.bits .f32 = 32 ∨ (Rect.block (s := S50176x1536) S512x1536.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1536.size a ≤ S50176x1536.size a
  hwx1_0 : ∀ i : grid1.Coords, EltTy.bits .f32 = 32 ∨ (Rect.block (s := S50176x1536) S512x1536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x1536.size a ≤ S384x1536.size a
  hwx1_2 : ∀ i : grid1.Coords, EltTy.bits .bf16 = 32 ∨ (Rect.block (s := S384x1536) S384x1536.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x384.size a ≤ S50176x384.size a
  hwx1_5 : ∀ i : grid1.Coords, EltTy.bits .f32 = 32 ∨ (Rect.block (s := S50176x384) S512x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x384.size a ≤ S50176x384.size a
  hwx2_0 : ∀ i : grid2.Coords, EltTy.bits .f32 = 32 ∨ (Rect.block (s := S50176x384) S512x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x384.size a ≤ S50176x384.size a
  hwx2_2 : ∀ i : grid2.Coords, EltTy.bits .f32 = 32 ∨ (Rect.block (s := S50176x384) S512x384.size (cc2_transform_2 i) (hinb2_2 i)).WholeWords (EltTy.packing .f32)

variable [Facts₀]

def dot_S512x384_S1536x384_S512x1536_1_1_0_0_n_n : DotDims S512x384 S1536x384 S512x1536 where
  lhsContracting := [1]
  rhsContracting := [1]
  lhsNonContracting := [0]
  rhsNonContracting := [0]
  lhsBatch := []
  rhsBatch := []
  wf := dot_S512x384_S1536x384_S512x1536_1_1_0_0_n_n_wf
def dot_S512x1536_S384x1536_S512x384_1_1_0_0_n_n : DotDims S512x1536 S384x1536 S512x384 where
  lhsContracting := [1]
  rhsContracting := [1]
  lhsNonContracting := [0]
  rhsNonContracting := [0]
  lhsBatch := []
  rhsBatch := []
  wf := dot_S512x1536_S384x1536_S512x384_1_1_0_0_n_n_wf

abbrev win0_0 : Pipeline.Window sig grid0 :=
  Pipeline.Window.ofSpec (Memref.whole main_v0) S512x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1536x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S512x1536.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond2 i == 1#1) | ⟨_ + 7, h⟩ => absurd h (Nat.not_lt.2 (Nat.le_add_left _ _))

abbrev win1_0 : Pipeline.Window sig grid1 :=
  Pipeline.Window.ofSpec (Memref.whole main_v21_0) S512x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S384x1536.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43_0) S512x384.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v43_1) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond1 i == 1#1) && !(k1_cond2 i == 1#1) | ⟨_ + 7, h⟩ => absurd h (Nat.not_lt.2 (Nat.le_add_left _ _))

abbrev win2_0 : Pipeline.Window sig grid2 :=
  Pipeline.Window.ofSpec (Memref.whole main_v43_0) S512x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S512x384.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S256x196x384 : Shape := ⟨3, ![256, 196, 384]⟩
abbrev S1536x384 : Shape := ⟨2, ![1536, 384]⟩
abbrev S1536 : Shape := ⟨1, ![1536]⟩
abbrev S384x1536 : Shape := ⟨2, ![384, 1536]⟩
abbrev S384 : Shape := ⟨1, ![384]⟩
abbrev S1 : Shape := ⟨1, ![1]⟩
abbrev S_ : Shape := ⟨0, ![]⟩
abbrev S1536x1 : Shape := ⟨2, ![1536, 1]⟩
abbrev S1x1x1 : Shape := ⟨3, ![1, 1, 1]⟩
abbrev S256x196x1536 : Shape := ⟨3, ![256, 196, 1536]⟩
abbrev S1x1x1536 : Shape := ⟨3, ![1, 1, 1536]⟩
abbrev S384x1 : Shape := ⟨2, ![384, 1]⟩
abbrev S1x1x384 : Shape := ⟨3, ![1, 1, 384]⟩

abbrev nBuf : Space → Nat
  | .hbm => 112
  | .vmem => 0
  | .smem => 0
  | _ => 0

abbrev bufTy : (tb : Table) → Fin (tcTables nBuf tb) → BufTy
  | .hbm, ⟨0, _⟩ => ⟨S256x196x384, .f32⟩
  | .hbm, ⟨1, _⟩ => ⟨S1536x384, .f32⟩
  | .hbm, ⟨2, _⟩ => ⟨S1536, .f32⟩
  | .hbm, ⟨3, _⟩ => ⟨S384x1536, .f32⟩
  | .hbm, ⟨4, _⟩ => ⟨S384, .f32⟩
  | .hbm, ⟨5, _⟩ => ⟨S1, .f32⟩
  | .hbm, ⟨6, _⟩ => ⟨S1536x384, .f32⟩
  | .hbm, ⟨7, _⟩ => ⟨S_, .f32⟩
  | .hbm, ⟨8, _⟩ => ⟨S1536, .f32⟩
  | .hbm, ⟨9, _⟩ => ⟨S_, .f32⟩
  | .hbm, ⟨10, _⟩ => ⟨S1536, .f32⟩
  | .hbm, ⟨11, _⟩ => ⟨S1536, .f32⟩
  | .hbm, ⟨12, _⟩ => ⟨S1536x1, .f32⟩
  | .hbm, ⟨13, _⟩ => ⟨S1536x384, .f32⟩
  | .hbm, ⟨14, _⟩ => ⟨S1536x384, .f32⟩
  | .hbm, ⟨15, _⟩ => ⟨S1536x384, .f32⟩
  | .hbm, ⟨16, _⟩ => ⟨S_, .i32⟩
  | .hbm, ⟨17, _⟩ => ⟨S_, .i32⟩
  | .hbm, ⟨18, _⟩ => ⟨S_, .f32⟩
  | .hbm, ⟨19, _⟩ => ⟨S1536x384, .f32⟩
  | .hbm, ⟨20, _⟩ => ⟨S1536x384, .f32⟩
  | .hbm, ⟨21, _⟩ => ⟨S_, .f32⟩
  | .hbm, ⟨22, _⟩ => ⟨S1536x384, .f32⟩
  | .hbm, ⟨23, _⟩ => ⟨S1536x384, .f32⟩
  | .hbm, ⟨24, _⟩ => ⟨S1x1x1, .f32⟩
  | .hbm, ⟨25, _⟩ => ⟨S256x196x384, .f32⟩
  | .hbm, ⟨26, _⟩ => ⟨S256x196x384, .f32⟩
  | .hbm, ⟨27, _⟩ => ⟨S1536, .f32⟩
  | .hbm, ⟨28, _⟩ => ⟨S1536, .f32⟩
  | .hbm, ⟨29, _⟩ => ⟨S1536, .f32⟩
  | .hbm, ⟨30, _⟩ => ⟨S1536, .f32⟩
  | .hbm, ⟨31, _⟩ => ⟨S256x196x1536, .f32⟩
  | .hbm, ⟨32, _⟩ => ⟨S1x1x1536, .f32⟩
  | .hbm, ⟨33, _⟩ => ⟨S256x196x1536, .f32⟩
  | .hbm, ⟨34, _⟩ => ⟨S256x196x1536, .f32⟩
  | .hbm, ⟨35, _⟩ => ⟨S1536, .f32⟩
  | .hbm, ⟨36, _⟩ => ⟨S1536, .f32⟩
  | .hbm, ⟨37, _⟩ => ⟨S1x1x1536, .f32⟩
  | .hbm, ⟨38, _⟩ => ⟨S256x196x1536, .f32⟩
  | .hbm, ⟨39, _⟩ => ⟨S256x196x1536, .f32⟩
  | .hbm, ⟨40, _⟩ => ⟨S_, .f32⟩
  | .hbm, ⟨41, _⟩ => ⟨S256x196x1536, .f32⟩
  | .hbm, ⟨42, _⟩ => ⟨S256x196x1536, .f32⟩
  | .hbm, ⟨43, _⟩ => ⟨S256x196x1536, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S256x196x1536, .f32⟩
  | .hbm, ⟨49, _⟩ => ⟨S256x196x1536, .f32⟩
  | .hbm, ⟨50, _⟩ => ⟨S256x196x1536, .f32⟩
  | .hbm, ⟨51, _⟩ => ⟨S_, .i32⟩
  | .hbm, ⟨52, _⟩ => ⟨S_, .i32⟩
  | .hbm, ⟨53, _⟩ => ⟨S_, .f32⟩
  | .hbm, ⟨54, _⟩ => ⟨S256x196x1536, .f32⟩
  | .hbm, ⟨55, _⟩ => ⟨S256x196x1536, .f32⟩
  | .hbm, ⟨56, _⟩ => ⟨S_, .f32⟩
  | .hbm, ⟨57, _⟩ => ⟨S256x196x1536, .f32⟩
  | .hbm, ⟨58, _⟩ => ⟨S256x196x1536, .f32⟩
  | .hbm, ⟨59, _⟩ => ⟨S256x196x1536, .f32⟩
  | .hbm, ⟨60, _⟩ => ⟨S256x196x1536, .f32⟩
  | .hbm, ⟨61, _⟩ => ⟨S384x1536, .f32⟩
  | .hbm, ⟨62, _⟩ => ⟨S_, .f32⟩
  | .hbm, ⟨63, _⟩ => ⟨S384, .f32⟩
  | .hbm, ⟨64, _⟩ => ⟨S_, .f32⟩
  | .hbm, ⟨65, _⟩ => ⟨S384, .f32⟩
  | .hbm, ⟨66, _⟩ => ⟨S384, .f32⟩
  | .hbm, ⟨67, _⟩ => ⟨S384x1, .f32⟩
  | .hbm, ⟨68, _⟩ => ⟨S384x1536, .f32⟩
  | .hbm, ⟨69, _⟩ => ⟨S384x1536, .f32⟩
  | .hbm, ⟨70, _⟩ => ⟨S384x1536, .f32⟩
  | .hbm, ⟨71, _⟩ => ⟨S_, .i32⟩
  | .hbm, ⟨72, _⟩ => ⟨S_, .i32⟩
  | .hbm, ⟨73, _⟩ => ⟨S_, .f32⟩
  | .hbm, ⟨74, _⟩ => ⟨S384x1536, .f32⟩
  | .hbm, ⟨75, _⟩ => ⟨S384x1536, .f32⟩
  | .hbm, ⟨76, _⟩ => ⟨S_, .f32⟩
  | .hbm, ⟨77, _⟩ => ⟨S384x1536, .f32⟩
  | .hbm, ⟨78, _⟩ => ⟨S384x1536, .f32⟩
  | .hbm, ⟨79, _⟩ => ⟨S256x196x1536, .f32⟩
  | .hbm, ⟨80, _⟩ => ⟨S256x196x1536, .f32⟩
  | .hbm, ⟨81, _⟩ => ⟨S384, .f32⟩
  | .hbm, ⟨82, _⟩ => ⟨S384, .f32⟩
  | .hbm, ⟨83, _⟩ => ⟨S384, .f32⟩
  | .hbm, ⟨84, _⟩ => ⟨S384, .f32⟩
  | .hbm, ⟨85, _⟩ => ⟨S256x196x384, .f32⟩
  | .hbm, ⟨86, _⟩ => ⟨S1x1x384, .f32⟩
  | .hbm, ⟨87, _⟩ => ⟨S256x196x384, .f32⟩
  | .hbm, ⟨88, _⟩ => ⟨S256x196x384, .f32⟩
  | .hbm, ⟨89, _⟩ => ⟨S384, .f32⟩
  | .hbm, ⟨90, _⟩ => ⟨S384, .f32⟩
  | .hbm, ⟨91, _⟩ => ⟨S1x1x384, .f32⟩
  | .hbm, ⟨92, _⟩ => ⟨S256x196x384, .f32⟩
  | .hbm, ⟨93, _⟩ => ⟨S256x196x384, .f32⟩
  | .hbm, ⟨94, _⟩ => ⟨S256x196x384, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S256x196x384, .f32⟩
  | .hbm, ⟨100, _⟩ => ⟨S256x196x384, .f32⟩
  | .hbm, ⟨101, _⟩ => ⟨S256x196x384, .f32⟩
  | .hbm, ⟨102, _⟩ => ⟨S_, .i32⟩
  | .hbm, ⟨103, _⟩ => ⟨S_, .i32⟩
  | .hbm, ⟨104, _⟩ => ⟨S_, .f32⟩
  | .hbm, ⟨105, _⟩ => ⟨S256x196x384, .f32⟩
  | .hbm, ⟨106, _⟩ => ⟨S256x196x384, .f32⟩
  | .hbm, ⟨107, _⟩ => ⟨S_, .f32⟩
  | .hbm, ⟨108, _⟩ => ⟨S256x196x384, .f32⟩
  | .hbm, ⟨109, _⟩ => ⟨S256x196x384, .f32⟩
  | .hbm, ⟨110, _⟩ => ⟨S256x196x384, .f32⟩
  | .hbm, ⟨111, _⟩ => ⟨S256x196x384, .f32⟩
  | _, _ => ⟨S256x196x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call3_cst : Ref sig .tc := ⟨.hbm, 40, rfl⟩
abbrev main_call3_v0 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_c_5 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_8 : Ref sig .tc := ⟨.hbm, 71, rfl⟩
abbrev main_c_9 : Ref sig .tc := ⟨.hbm, 72, rfl⟩
abbrev main_call7_v0 : Ref sig .tc := ⟨.hbm, 73, rfl⟩
abbrev main_call7_v1 : Ref sig .tc := ⟨.hbm, 74, rfl⟩
abbrev main_call7_v2 : Ref sig .tc := ⟨.hbm, 75, rfl⟩
abbrev main_call7_v3 : Ref sig .tc := ⟨.hbm, 76, rfl⟩
abbrev main_call7_v4 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_cst_11 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_12 : Ref sig .tc := ⟨.hbm, 102, rfl⟩
abbrev main_c_13 : Ref sig .tc := ⟨.hbm, 103, rfl⟩
abbrev main_call10_v0 : Ref sig .tc := ⟨.hbm, 104, rfl⟩
abbrev main_call10_v1 : Ref sig .tc := ⟨.hbm, 105, rfl⟩
abbrev main_call10_v2 : Ref sig .tc := ⟨.hbm, 106, rfl⟩
abbrev main_call10_v3 : Ref sig .tc := ⟨.hbm, 107, rfl⟩
abbrev main_call10_v4 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩

abbrev nD : Nat := 1
abbrev τ : Topo := Topo.v7x

variable {F : FTy → Type} [FloatOps F]

class Facts₀ : Prop where
  reducesTo_S1536x384_S1536_d1 : S1536x384.ReducesTo [1] S1536
  h_S_ : 0 < S_.numel
  bcast_S_S1536 : S_.BroadcastsInDim S1536 (![] : Fin 0 → Fin S1536.rank)
  bcast_S1536_S1536x1_0 : S1536.BroadcastsInDim S1536x1 (![0] : Fin 1 → Fin S1536x1.rank)
  bcast_S1536x1_S1536x384_0_1 : S1536x1.BroadcastsInDim S1536x384 (![0, 1] : Fin 2 → Fin S1536x384.rank)
  bcast_S_S1536x384 : S_.BroadcastsInDim S1536x384 (![] : Fin 0 → Fin S1536x384.rank)
  bcast_S1_S1x1x1_2 : S1.BroadcastsInDim S1x1x1 (![2] : Fin 1 → Fin S1x1x1.rank)
  bcast_S1x1x1_S256x196x384_0_1_2 : S1x1x1.BroadcastsInDim S256x196x384 (![0, 1, 2] : Fin 3 → Fin S256x196x384.rank)
  bcast_S1_S1536_0 : S1.BroadcastsInDim S1536 (![0] : Fin 1 → Fin S1536.rank)
  bcast_S1536_S1x1x1536_2 : S1536.BroadcastsInDim S1x1x1536 (![2] : Fin 1 → Fin S1x1x1536.rank)
  bcast_S1x1x1536_S256x196x1536_0_1_2 : S1x1x1536.BroadcastsInDim S256x196x1536 (![0, 1, 2] : Fin 3 → Fin S256x196x1536.rank)
  bcast_S_S256x196x1536 : S_.BroadcastsInDim S256x196x1536 (![] : Fin 0 → Fin S256x196x1536.rank)
  reducesTo_S256x196x1536_S_d0_1_2 : S256x196x1536.ReducesTo [0, 1, 2] S_
  reducesTo_S384x1536_S384_d1 : S384x1536.ReducesTo [1] S384
  bcast_S_S384 : S_.BroadcastsInDim S384 (![] : Fin 0 → Fin S384.rank)
  bcast_S384_S384x1_0 : S384.BroadcastsInDim S384x1 (![0] : Fin 1 → Fin S384x1.rank)
  bcast_S384x1_S384x1536_0_1 : S384x1.BroadcastsInDim S384x1536 (![0, 1] : Fin 2 → Fin S384x1536.rank)
  bcast_S_S384x1536 : S_.BroadcastsInDim S384x1536 (![] : Fin 0 → Fin S384x1536.rank)
  bcast_S384_S1x1x384_2 : S384.BroadcastsInDim S1x1x384 (![2] : Fin 1 → Fin S1x1x384.rank)
  bcast_S1x1x384_S256x196x384_0_1_2 : S1x1x384.BroadcastsInDim S256x196x384 (![0, 1, 2] : Fin 3 → Fin S256x196x384.rank)
  reducesTo_S256x196x384_S_d0_1_2 : S256x196x384.ReducesTo [0, 1, 2] S_
  bcast_S_S256x196x384 : S_.BroadcastsInDim S256x196x384 (![] : Fin 0 → Fin S256x196x384.rank)
  dot_S256x196x384_S1536x384_S256x196x1536_2_1_01_0_n_n_wf : DotDims.WF S256x196x384 S1536x384 S256x196x1536 [2] [1] [0, 1] [0] [] []
  dot_S256x196x1536_S384x1536_S256x196x384_2_1_01_0_n_n_wf : DotDims.WF S256x196x1536 S384x1536 S256x196x384 [2] [1] [0, 1] [0] [] []

variable [Facts₀]

def dot_S256x196x384_S1536x384_S256x196x1536_2_1_01_0_n_n : DotDims S256x196x384 S1536x384 S256x196x1536 where
  lhsContracting := [2]
  rhsContracting := [1]
  lhsNonContracting := [0, 1]
  rhsNonContracting := [0]
  lhsBatch := []
  rhsBatch := []
  wf := dot_S256x196x384_S1536x384_S256x196x1536_2_1_01_0_n_n_wf
def dot_S256x196x1536_S384x1536_S256x196x384_2_1_01_0_n_n : DotDims S256x196x1536 S384x1536 S256x196x384 where
  lhsContracting := [2]
  rhsContracting := [1]
  lhsNonContracting := [0, 1]
  rhsNonContracting := [0]
  lhsBatch := []
  rhsBatch := []
  wf := dot_S256x196x1536_S384x1536_S256x196x384_2_1_01_0_n_n_wf

class Facts : Prop extends Facts₀ where

variable [Facts]
-- ==== Proof.K.R0Defs.lean ====
/-
  First linear layer (the first pallas_call): what each window's staging buffer holds after the body at a
  grid point. Point t handles rows 512·t … 512·t+511 of the activations. Inputs: the row block of x, the 1×1
  activation scale, the whole integer weight matrix, the bias row and the scale row. Outputs: the row block
  of h = relu((x/a · Wᵀ + bias) · scale), and a 1×1 running maximum of |h| over all rows seen so far:
  set to the block's own maximum at the first point, joined with it at every later point.
-/
import proofs.«110018_j17901423689856_1_alg».proof.Proof.Gen.Kernel.Skeleton
import proofs.«110018_j17901423689856_1_alg».proof.Proof.Gen.Kernel.Launch
import proofs.«110018_j17901423689856_1_alg».proof.Proof.Gen.Kernel.Points
import Idealize.ShloMosaic.Lib.Pipeline.Frame
import Idealize.ShloMosaic.Lib.Pipeline.FrameBody

set_option maxRecDepth 16384

noncomputable section

namespace Cert.Kernel.Frm

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of h the body stores at point `t`. -/
def hblk0 (c : Dev nD) (t : Fin cfg0.N) : Vec F S512x1536 .f32 :=
  k0_pay1 (iblk0 V c 0 t) (iblk0 V c 1 t) (iblk0 V c 2 t) (iblk0 V c 3 t) (iblk0 V c 4 t)

/-- The maximum of |h| over the block of point `t`, as a 1×1 array. -/
def tmax0 (c : Dev nD) (t : Fin cfg0.N) : Vec F S1x1 .f32 :=
  k0_pay2 (iblk0 V c 0 t) (iblk0 V c 1 t) (iblk0 V c 2 t) (iblk0 V c 3 t) (iblk0 V c 4 t)

/-- The running maximum after point `n`: the first block's maximum, then joined block by block. -/
def acc0 (c : Dev nD) : (n : ℕ) → n < cfg0.N → Vec F S1x1 .f32
  | 0, h => tmax0 V c ⟨0, h⟩
  | n + 1, h => k0_pay3 (iblk0 V c 0 ⟨n + 1, h⟩) (iblk0 V c 1 ⟨n + 1, h⟩) (iblk0 V c 2 ⟨n + 1, h⟩) (iblk0 V c 3 ⟨n + 1, h⟩)
      (iblk0 V c 4 ⟨n + 1, h⟩) (acc0 c n (Nat.lt_of_succ_lt h))

/-- The proof data of the first pallas_call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hblk0 V c t
    | ⟨6, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = hblk0 V c t := by dsimp only [dat0]
theorem after0_6 (c : Dev nD) (t : Fin cfg0.N) : (dat0 V c).after 6 t = acc0 V c t.val t.isLt := by dsimp only [dat0]

end Cert.Kernel.Frm

end
-- ==== Proof.K.R0Body.lean ====
/-
  First linear layer (the first pallas_call): the body at one grid point. On whole staging buffers holding the
  five inputs' blocks, the body leaves the inputs as they were, stores the block of h = relu((x/a · Wᵀ + bias) · scale)
  over whatever the sixth buffer held, and brings the 1×1 running maximum of |h| up to date: at the first point it is
  set to the block's own maximum, at every later point it is joined (max) with it. Exactly one of the body's two
  conditionals is taken at each point, so the 1×1 window is written at every point; it is written back to its array
  at the last point only, so at a later point its buffer still holds what the point before left.
-/
import proofs.«110018_j17901423689856_1_alg».proof.Proof.K.R0Defs
import Idealize.ShloMosaic.Lib.Tactic
import Idealize.ShloMosaic.Lib.Pipeline.Value
import Mathlib.Tactic.FinCases

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer accesses

Every load and store of the body goes through the rectangle at zero offsets of the buffer's own sizes. -/

/-- The zero offsets of a whole-buffer access, as a constant function. -/
theorem zero_off_r0 : (![0, 0] : Fin 2 → ℕ) = fun _ => 0 := funext fun a => by fin_cases a <;> rfl

/-- A load through the whole-buffer rectangle reads the buffer's contents. -/
theorem readAt_whole_r0 {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f _).trans (View.ld_unit_zero h inb _)

/-- One store through the whole-buffer rectangle leaves its payload, whatever the buffer held. -/
theorem read_writes_whole_r0 {sig : RefSig} {κ : Kind} {sp : Space} {S : Shape} {e : EltTy} {Val : EltTy → Type}
    [∀ e, Nonempty (Val e)] (v : View sig κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ fun y => ⟨_, List.mem_singleton_self _, View.mem_set_unit_zero h inb y⟩).trans
    (View.canon_unit_zero h inb w)

/-! ## The two conditions of the body, over the grid -/

/-- The first conditional (the running maximum is SET) is taken at the first point only. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- The second conditional (the running maximum is JOINED with the block's) is taken at every later point. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two is taken at every point: the 1×1 window is written at every point. -/
theorem idle0_6 : ∀ t : Fin grid0.N, idle0 6 (grid0.coords t) = false := by decide +kernel
/-- The same, as the configuration spells it. -/
theorem idle0_6' : ∀ t : Fin cfg0.N, cfg0.idle 6 (cfg0.grid.coords t) = false := idle0_6

/-! ## The body's triple, on any whole staging buffers -/

set_option maxHeartbeats 1000000 in
/-- AT THE FIRST POINT (the first conditional taken, the second not): with the five inputs' buffers at contents
    x0 … x4 and the two outputs' at anything, the body leaves the inputs as they were, the block of h
    (its one covering store's payload) in the sixth buffer and the block's maximum of |h| in the seventh. -/
theorem sound_kernel0_first (c : Dev nD) (E : Set ℕ) (i : grid0.Coords)
    (arg1 : Memref sig .tc .vmem S512x384 .f32) (harg1 : arg1.IsWhole) (arg2 : Memref sig .tc .vmem S1x1 .f32) (harg2 : arg2.IsWhole)
    (arg3 : Memref sig .tc .vmem S1536x384 .bf16) (harg3 : arg3.IsWhole) (arg4 : Memref sig .tc .vmem S1x1536 .f32) (harg4 : arg4.IsWhole)
    (arg5 : Memref sig .tc .vmem S1x1536 .f32) (harg5 : arg5.IsWhole) (arg6 : Memref sig .tc .vmem S512x1536 .f32) (harg6 : arg6.IsWhole)
    (arg7 : Memref sig .tc .vmem S1x1 .f32) (harg7 : arg7.IsWhole)
    (h1 : k0_cond1 i = 1#1) (h2 : ¬k0_cond2 i = 1#1)
    (x0 : Vec F S512x384 .f32) (x1 : Vec F S1x1 .f32) (x2 : Vec F S1536x384 .bf16) (x3 : Vec F S1x1536 .f32) (x4 : Vec F S1x1536 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay1 x0 x1 x2 x3 x4)
            ∗ owns (c : Thread nD τ) arg7 fullShare (k0_pay2 x0 x1 x2 x3 x4)) -∗ K ⟨⟩))
      ⊢ wp frame (wpE (defs₀ (F := F)) Variants.none c none) E
          (cc0__k1_body i arg1 harg1 arg2 harg2 arg3 harg3 arg4 harg4 arg5 harg5 arg6 harg6 arg7 harg7) K := by
  simp only [cc0__k1_body_eq_skeleton]; unfold cc0__k1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole_r0 arg6.view f5 zero_off_r0 inb_S512x1536_S512x1536_0_0 _).trans ?_
    rw [readAt_whole_r0 arg1.view f0 zero_off_r0 inb_S512x384_S512x384_0_0, readAt_whole_r0 arg2.view f1 zero_off_r0 inb_S1x1_S1x1_0_0,
      readAt_whole_r0 arg3.view f2 zero_off_r0 inb_S1536x384_S1536x384_0_0, readAt_whole_r0 arg4.view f3 zero_off_r0 inb_S1x1536_S1x1536_0_0,
      readAt_whole_r0 arg5.view f4 zero_off_r0 inb_S1x1536_S1x1536_0_0]
  iexists _; isplitr
  swap; · iexact H6
  ipureintro
  refine (read_writes_whole_r0 arg7.view f6 zero_off_r0 inb_S1x1_S1x1_0_0 _).trans ?_
  rw [readAt_whole_r0 arg1.view f0 zero_off_r0 inb_S512x384_S512x384_0_0, readAt_whole_r0 arg2.view f1 zero_off_r0 inb_S1x1_S1x1_0_0,
      readAt_whole_r0 arg3.view f2 zero_off_r0 inb_S1536x384_S1536x384_0_0, readAt_whole_r0 arg4.view f3 zero_off_r0 inb_S1x1536_S1x1536_0_0,
      readAt_whole_r0 arg5.view f4 zero_off_r0 inb_S1x1536_S1x1536_0_0]

set_option maxHeartbeats 1000000 in
/-- AT A LATER POINT (the second conditional taken, the first not): the seventh buffer is found at the running
    maximum xo so far, and is left at the join of xo with the block's maximum. -/
theorem sound_kernel0_later (c : Dev nD) (E : Set ℕ) (i : grid0.Coords)
    (arg1 : Memref sig .tc .vmem S512x384 .f32) (harg1 : arg1.IsWhole) (arg2 : Memref sig .tc .vmem S1x1 .f32) (harg2 : arg2.IsWhole)
    (arg3 : Memref sig .tc .vmem S1536x384 .bf16) (harg3 : arg3.IsWhole) (arg4 : Memref sig .tc .vmem S1x1536 .f32) (harg4 : arg4.IsWhole)
    (arg5 : Memref sig .tc .vmem S1x1536 .f32) (harg5 : arg5.IsWhole) (arg6 : Memref sig .tc .vmem S512x1536 .f32) (harg6 : arg6.IsWhole)
    (arg7 : Memref sig .tc .vmem S1x1 .f32) (harg7 : arg7.IsWhole)
    (h1 : ¬k0_cond1 i = 1#1) (h2 : k0_cond2 i = 1#1)
    (x0 : Vec F S512x384 .f32) (x1 : Vec F S1x1 .f32) (x2 : Vec F S1536x384 .bf16) (x3 : Vec F S1x1536 .f32) (x4 : Vec F S1x1536 .f32) (xo : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare xo
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay1 x0 x1 x2 x3 x4)
            ∗ owns (c : Thread nD τ) arg7 fullShare (k0_pay3 x0 x1 x2 x3 x4 xo)) -∗ K ⟨⟩))
      ⊢ wp frame (wpE (defs₀ (F := F)) Variants.none c none) E
          (cc0__k1_body i arg1 harg1 arg2 harg2 arg3 harg3 arg4 harg4 arg5 harg5 arg6 harg6 arg7 harg7) K := by
  simp only [cc0__k1_body_eq_skeleton]; unfold cc0__k1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole_r0 arg6.view f5 zero_off_r0 inb_S512x1536_S512x1536_0_0 _).trans ?_
    rw [readAt_whole_r0 arg1.view f0 zero_off_r0 inb_S512x384_S512x384_0_0, readAt_whole_r0 arg2.view f1 zero_off_r0 inb_S1x1_S1x1_0_0,
      readAt_whole_r0 arg3.view f2 zero_off_r0 inb_S1536x384_S1536x384_0_0, readAt_whole_r0 arg4.view f3 zero_off_r0 inb_S1x1536_S1x1536_0_0,
      readAt_whole_r0 arg5.view f4 zero_off_r0 inb_S1x1536_S1x1536_0_0]
  iexists _; isplitr
  swap; · iexact H6
  ipureintro
  refine (read_writes_whole_r0 arg7.view f6 zero_off_r0 inb_S1x1_S1x1_0_0 _).trans ?_
  rw [readAt_whole_r0 arg1.view f0 zero_off_r0 inb_S512x384_S512x384_0_0, readAt_whole_r0 arg2.view f1 zero_off_r0 inb_S1x1_S1x1_0_0,
      readAt_whole_r0 arg3.view f2 zero_off_r0 inb_S1536x384_S1536x384_0_0, readAt_whole_r0 arg4.view f3 zero_off_r0 inb_S1x1536_S1x1536_0_0,
      readAt_whole_r0 arg5.view f4 zero_off_r0 inb_S1x1536_S1x1536_0_0,
      readAt_whole_r0 arg7.view f6 zero_off_r0 inb_S1x1_S1x1_0_0]

variable (V : (c : Dev nD) → (b : Ref sig .tc) → Buf (Elt F) ((c : Thread nD τ).loc b))

/-! ## What each window's current buffer holds when the body runs -/

/-- Each input's current buffer holds its block at every point, fetched there or not: where it is not fetched its
    block index has not moved, and the body leaves an input's buffer as it found it. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- At a later point the 1×1 window's buffer holds the running maximum the point before left: the window is written
    back at the last point only, and every point writes it. -/
theorem before0_6_later (c : Dev nD) (t : Fin cfg0.N) (ht : t.val ≠ 0) (d) :
    (dat0 V c).before 6 t d = acc0 V c (t.val - 1) (Nat.lt_of_le_of_lt (Nat.sub_le _ _) t.isLt) := by
  have hN : t.val < 98 := lt_of_lt_of_eq t.isLt (show cfg0.N = 98 from N_0)
  have hfl : (cfg0.win 6).flush ⟨t.val - 1, Nat.lt_of_le_of_lt (Nat.sub_le _ _) t.isLt⟩ = false :=
    Bool.eq_false_iff.mpr fun h => by have := (flush0_6 _).mp h; dsimp only at this; omega
  rw [(dat0 V c).before_of_pos 6 t ht ((cfg0.win 6).fetch_out rfl t), hfl, if_neg Bool.false_ne_true]
  unfold Dat.left
  simp only [idle0_6, idle0_6']
  unfold Dat.kept
  rw [Pipeline.fill_of_clip_none (cfg := cfg0) 6 _ (fun _ => rfl) d ((dat0 V c).after 6 _), Window.fill_cut, after0_6]

/-! ## The running maximum, point by point -/

/-- At the first point it is the first block's maximum. -/
theorem acc0_first (c : Dev nD) (t : Fin cfg0.N) (h0 : t.val = 0) : acc0 V c t.val t.isLt = tmax0 V c t := by
  obtain ⟨n, hn⟩ := t
  cases n with
  | zero => rfl
  | succ n => exact absurd h0 (Nat.succ_ne_zero n)

/-- At a later point it is the join of the point before's with this block's maximum. -/
theorem acc0_later (c : Dev nD) (t : Fin cfg0.N) (h0 : t.val ≠ 0) :
    acc0 V c t.val t.isLt = k0_pay3 (iblk0 V c 0 t) (iblk0 V c 1 t) (iblk0 V c 2 t) (iblk0 V c 3 t) (iblk0 V c 4 t)
      (acc0 V c (t.val - 1) (Nat.lt_of_le_of_lt (Nat.sub_le _ _) t.isLt)) := by
  obtain ⟨n, hn⟩ := t
  cases n with
  | zero => exact absurd rfl h0
  | succ n => rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 800000 in
/-- The body at any point: the inputs' buffers hold their blocks; at the first point the 1×1 window's buffer holds
    anything and is set, at a later point it holds the running maximum so far and is joined; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  unfold hblk0
  by_cases h0 : t.val = 0
  · rw [acc0_first V c t h0]; unfold tmax0
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t) _ _ _ _ _ _ _ _ _ _ _ _ _ _
      ((hcond0_1 t).mpr h0) (fun h => (hcond0_2 t).mp h h0)
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc0_later V c t h0]
    simp only [before0_6_later V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_later c Set.univ (grid0.coords t) _ _ _ _ _ _ _ _ _ _ _ _ _ _
      (fun h => h0 ((hcond0_1 t).mp h)) ((hcond0_2 t).mpr h0)
      (iblk0 V c 0 t) (iblk0 V c 1 t) (iblk0 V c 2 t) (iblk0 V c 3 t) (iblk0 V c 4 t)
      (acc0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation of pallas_call 0, at every grid point. -/
theorem body_obligation0 (c : Dev nD) : BodyObligation (dat0 (F := F) V c) (defs₀ (F := F)) Variants.none () Set.univ := by
  intro t
  rw [bigSep_W0, bigSep_W0, idle0_6' t]
  exact sound_body0 V c t

end Cert.Kernel.Frm

end
-- ==== Proof.K.R1Defs.lean ====
/-
  Second linear layer (the second pallas_call): what each window's staging buffer holds after the body at a
  grid point. Point t handles rows 512·t … 512·t+511. Inputs: the row block of h, the 1×1 activation scale s
  (the maximum of |h| over 127), the whole integer weight matrix, the bias row and the scale row. Outputs:
  the row block of y = (clip(round(h/s)) · Wᵀ + bias) · scale, and a 1×1 running maximum of |y| over all rows
  seen so far: set to the block's own maximum at the first point, joined with it at every later point.
-/
import proofs.«110018_j17901423689856_1_alg».proof.Proof.Gen.Kernel.Skeleton
import proofs.«110018_j17901423689856_1_alg».proof.Proof.Gen.Kernel.Launch
import proofs.«110018_j17901423689856_1_alg».proof.Proof.Gen.Kernel.Points
import Idealize.ShloMosaic.Lib.Pipeline.Frame
import Idealize.ShloMosaic.Lib.Pipeline.FrameBody

set_option maxRecDepth 16384

noncomputable section

namespace Cert.Kernel.Frm

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of y the body stores at point `t`. -/
def yblk1 (c : Dev nD) (t : Fin cfg1.N) : Vec F S512x384 .f32 :=
  k1_pay1 (iblk1 V c 0 t) (iblk1 V c 1 t) (iblk1 V c 2 t) (iblk1 V c 3 t) (iblk1 V c 4 t)

/-- The maximum of |y| over the block of point `t`, as a 1×1 array. -/
def tmax1 (c : Dev nD) (t : Fin cfg1.N) : Vec F S1x1 .f32 :=
  k1_pay2 (iblk1 V c 0 t) (iblk1 V c 1 t) (iblk1 V c 2 t) (iblk1 V c 3 t) (iblk1 V c 4 t)

/-- The running maximum after point `n`: the first block's maximum, then joined block by block. -/
def acc1 (c : Dev nD) : (n : ℕ) → n < cfg1.N → Vec F S1x1 .f32
  | 0, h => tmax1 V c ⟨0, h⟩
  | n + 1, h => k1_pay3 (iblk1 V c 0 ⟨n + 1, h⟩) (iblk1 V c 1 ⟨n + 1, h⟩) (iblk1 V c 2 ⟨n + 1, h⟩) (iblk1 V c 3 ⟨n + 1, h⟩)
      (iblk1 V c 4 ⟨n + 1, h⟩) (acc1 c n (Nat.lt_of_succ_lt h))

/-- The proof data of the second pallas_call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => yblk1 V c t
    | ⟨6, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = yblk1 V c t := by dsimp only [dat1]
theorem after1_6 (c : Dev nD) (t : Fin cfg1.N) : (dat1 V c).after 6 t = acc1 V c t.val t.isLt := by dsimp only [dat1]

end Cert.Kernel.Frm

end
-- ==== Proof.K.R1Body.lean ====
/-
  Second linear layer (the second pallas_call): the body's triple at every grid point. Point t handles rows
  512·t … 512·t+511. From the five input buffers at their blocks (the row block of h, the 1×1 activation scale, the
  integer weight matrix, the bias row, the scale row) the body stores the row block of
  y = (clip(round(h/s)) · Wᵀ + bias) · scale whole, and keeps a 1×1 running maximum of |y|: at the first point it is
  set to the block's own maximum, at every later point it is the previous point's value joined (max) with the block's
  own. The two cases are told apart by the grid coordinate being zero or not; exactly one of the body's two
  conditionals holds at each point, so the running maximum's buffer is stored into at every point, and since it is
  written back at the last point only, a later point finds in it what the point before left.
-/
import proofs.«110018_j17901423689856_1_alg».proof.Proof.K.R1Defs
import Idealize.ShloMosaic.Lib.Tactic
import Idealize.ShloMosaic.Lib.Pipeline.Value

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditionals over the grid, and the running maximum's window -/

/-- The first conditional (the accumulator is SET) holds at the first point only. -/
theorem hcond1_1 : ∀ t : Fin cfg1.N, k1_cond1 (cfg1.grid.coords t) = 1#1 ↔ t.val = 0 :=
  (by decide +kernel : ∀ t : Fin grid1.N, k1_cond1 (grid1.coords t) = 1#1 ↔ t.val = 0)

/-- The second conditional (the accumulator is JOINED by max) holds at every later point. -/
theorem hcond1_2 : ∀ t : Fin cfg1.N, k1_cond2 (cfg1.grid.coords t) = 1#1 ↔ t.val ≠ 0 :=
  (by decide +kernel : ∀ t : Fin grid1.N, k1_cond2 (grid1.coords t) = 1#1 ↔ t.val ≠ 0)

/-- One of the two conditionals holds whatever the coordinate (it is zero or it is not), so the running maximum's
    window is stored into at every point: it is never idle. -/
theorem idle1_6 (i : grid1.Coords) : cfg1.idle 6 i = false := by
  have h : ∀ v : Fin 98,
      (!(Scalar.cmpi .ne (Scalar.extui (Scalar.cmpi .eq (BitVec.ofNat 32 v.val) 0#32)) 0#32 == 1#1)
        && !(Scalar.cmpi .ne (Scalar.extui (Scalar.cmpi .ne (BitVec.ofNat 32 v.val) 0#32)) 0#32 == 1#1)) = false := by
    decide +kernel
  exact h (i 0)

/-! ## The running maximum, point by point -/

/-- At the first point the running maximum is the block's own maximum. -/
theorem acc1_first (c : Dev nD) (t : Fin cfg1.N) (ht : t.val = 0) : acc1 V c t.val t.isLt = tmax1 V c t := by
  obtain ⟨n, hn⟩ := t
  cases n with
  | zero => rfl
  | succ n => exact absurd ht (Nat.succ_ne_zero n)

/-- At a later point it is the previous point's running maximum joined with the block's own. -/
theorem acc1_later (c : Dev nD) (t : Fin cfg1.N) (ht : t.val ≠ 0) :
    acc1 V c t.val t.isLt = k1_pay3 (iblk1 V c 0 t) (iblk1 V c 1 t) (iblk1 V c 2 t) (iblk1 V c 3 t) (iblk1 V c 4 t)
      (acc1 V c (t.val - 1) (Nat.lt_of_le_of_lt (Nat.sub_le _ _) t.isLt)) := by
  obtain ⟨n, hn⟩ := t
  cases n with
  | zero => exact absurd rfl ht
  | succ n => rfl

/-! ## What the body finds in each window's buffer -/

/-- An input's buffer holds its block at every point, whether the pipeline fetched it there or not (an unfetched
    input's block index has not moved since the fetch). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- After the first point the running maximum's buffer holds what the body left at the point before: the window is
    written back at the last point only, so nothing has touched the buffer in between, and it is never idle. -/
theorem before1_6 (c : Dev nD) (t : Fin cfg1.N) (ht : t.val ≠ 0) (d) :
    (dat1 V c).before 6 t d = acc1 V c (t.val - 1) (Nat.lt_of_le_of_lt (Nat.sub_le _ _) t.isLt) := by
  have hN : t.val < 98 := lt_of_lt_of_eq t.isLt (show cfg1.N = 98 from N_1)
  rw [Dat.before_out_kept _ 6 rfl t ht
    (Bool.eq_false_iff.mpr fun h => by have := (flush1_6 _).mp h; dsimp only at this; omega)
    idle1_6 (fun _ _ => rfl)]
  rw [after1_6]

/-! ## A whole buffer read or written through its whole rectangle -/

/-- The zero offsets of a rank-2 rectangle, as the constant function. -/
theorem off00 : (![0, 0] : Fin 2 → ℕ) = fun _ => 0 :=
  funext fun a => match a with
    | ⟨0, _⟩ => rfl
    | ⟨1, _⟩ => rfl

/-- A load of the whole rectangle (zero offsets, the buffer's own sizes) of a whole memref whose contents read X
    reads X. -/
theorem readAt_whole {S : Shape} {e : EltTy} (m : Memref sig .tc .vmem S e) (h : m.IsWhole) (X : S.Idx → Elt F e)
    {off : Fin S.rank → ℕ} (hoff : off = fun _ => 0) (inb : ∀ a, off a + S.size a ≤ S.size a) :
    View.readAt (Elt F) m.view (Rect.unit off S.size inb).toLoadRect (h.unread X) = X := by
  rw [View.readAt_eq_ld, h.read_unread, View.ld_unit_zero hoff]

/-- One store through the whole rectangle leaves its payload, whatever the buffer held. -/
theorem read_write_whole {S : Shape} {e : EltTy} (m : Memref sig .tc .vmem S e) (f : m.view.ty.Contents (Elt F))
    {off : Fin S.rank → ℕ} (hoff : off = fun _ => 0) (inb : ∀ a, off a + S.size a ≤ S.size a) (w : S.Idx → Elt F e) :
    m.view.read (Elt F) (m.view.writes (Elt F) f [⟨Rect.unit off S.size inb, w⟩]) = w := by
  rw [View.read_writes_eq_canon _ _ _ (fun y => ⟨_, List.mem_singleton_self _, View.mem_set_unit_zero hoff inb y⟩),
    View.canon_unit_zero hoff]

/-! ## The kernel's triple, one per control case -/

set_option maxHeartbeats 1000000 in
/-- THE FIRST POINT (the first conditional holds, the second does not). On whole staging memrefs — the five inputs at
    contents x0 … x4, the two outputs at anything — the body runs to the continuation holding the inputs as they were,
    the y buffer at the block of y computed from the inputs, and the running maximum's buffer SET to that block's
    maximum of absolute values. -/
theorem sound_kernel1_first (c : Dev nD) (E : Set ℕ) (i : grid1.Coords)
    (arg1 : Memref sig .tc .vmem S512x1536 .f32) (harg1 : arg1.IsWhole) (arg2 : Memref sig .tc .vmem S1x1 .f32) (harg2 : arg2.IsWhole)
    (arg3 : Memref sig .tc .vmem S384x1536 .bf16) (harg3 : arg3.IsWhole) (arg4 : Memref sig .tc .vmem S1x384 .f32) (harg4 : arg4.IsWhole)
    (arg5 : Memref sig .tc .vmem S1x384 .f32) (harg5 : arg5.IsWhole) (arg6 : Memref sig .tc .vmem S512x384 .f32) (harg6 : arg6.IsWhole)
    (arg7 : Memref sig .tc .vmem S1x1 .f32) (harg7 : arg7.IsWhole)
    (hc1 : k1_cond1 i = 1#1) (hc2 : ¬ k1_cond2 i = 1#1)
    (x0 : Vec F S512x1536 .f32) (x1 : Vec F S1x1 .f32) (x2 : Vec F S384x1536 .bf16) (x3 : Vec F S1x384 .f32) (x4 : Vec F S1x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay1 x0 x1 x2 x3 x4)
            ∗ owns (c : Thread nD τ) arg7 fullShare (k1_pay2 x0 x1 x2 x3 x4)) -∗ K ⟨⟩))
      ⊢ wp frame (wpE (defs₀ (F := F)) Variants.none c none) E (cc1__k2_body i arg1 harg1 arg2 harg2 arg3 harg3 arg4 harg4 arg5 harg5 arg6 harg6 arg7 harg7) K := by
  sl_unfold [cc1__k2_body]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_write_whole _ _ off00, readAt_whole _ harg1 x0 off00, readAt_whole _ harg2 x1 off00, readAt_whole _ harg3 x2 off00,
      readAt_whole _ harg4 x3 off00, readAt_whole _ harg5 x4 off00]
  iexists _; isplitr
  swap; · iexact H6
  ipureintro
  rw [read_write_whole _ _ off00, readAt_whole _ harg1 x0 off00, readAt_whole _ harg2 x1 off00, readAt_whole _ harg3 x2 off00,
      readAt_whole _ harg4 x3 off00, readAt_whole _ harg5 x4 off00]

set_option maxHeartbeats 1000000 in
/-- A LATER POINT (the first conditional fails, the second holds). The same, the running maximum's buffer found at
    contents a and left at a JOINED (elementwise max) with the block's maximum of absolute values. -/
theorem sound_kernel1_later (c : Dev nD) (E : Set ℕ) (i : grid1.Coords)
    (arg1 : Memref sig .tc .vmem S512x1536 .f32) (harg1 : arg1.IsWhole) (arg2 : Memref sig .tc .vmem S1x1 .f32) (harg2 : arg2.IsWhole)
    (arg3 : Memref sig .tc .vmem S384x1536 .bf16) (harg3 : arg3.IsWhole) (arg4 : Memref sig .tc .vmem S1x384 .f32) (harg4 : arg4.IsWhole)
    (arg5 : Memref sig .tc .vmem S1x384 .f32) (harg5 : arg5.IsWhole) (arg6 : Memref sig .tc .vmem S512x384 .f32) (harg6 : arg6.IsWhole)
    (arg7 : Memref sig .tc .vmem S1x1 .f32) (harg7 : arg7.IsWhole)
    (hc1 : ¬ k1_cond1 i = 1#1) (hc2 : k1_cond2 i = 1#1)
    (x0 : Vec F S512x1536 .f32) (x1 : Vec F S1x1 .f32) (x2 : Vec F S384x1536 .bf16) (x3 : Vec F S1x384 .f32) (x4 : Vec F S1x384 .f32) (a : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay1 x0 x1 x2 x3 x4)
            ∗ owns (c : Thread nD τ) arg7 fullShare (k1_pay3 x0 x1 x2 x3 x4 a)) -∗ K ⟨⟩))
      ⊢ wp frame (wpE (defs₀ (F := F)) Variants.none c none) E (cc1__k2_body i arg1 harg1 arg2 harg2 arg3 harg3 arg4 harg4 arg5 harg5 arg6 harg6 arg7 harg7) K := by
  sl_unfold [cc1__k2_body]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_write_whole _ _ off00, readAt_whole _ harg1 x0 off00, readAt_whole _ harg2 x1 off00, readAt_whole _ harg3 x2 off00,
      readAt_whole _ harg4 x3 off00, readAt_whole _ harg5 x4 off00]
  iexists _; isplitr
  swap; · iexact H6
  ipureintro
  rw [read_write_whole _ _ off00, readAt_whole _ harg1 x0 off00, readAt_whole _ harg2 x1 off00, readAt_whole _ harg3 x2 off00,
      readAt_whole _ harg4 x3 off00, readAt_whole _ harg5 x4 off00, readAt_whole _ harg7 a off00]

/-! ## The body obligation, at a generic point -/

/-- What the body is called with at point t: the invariant, the core's dues, and each window's current buffer at what
    it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: every buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
/-- The body at any point. The inputs' buffers hold their blocks; the point is the first or a later one, which decides
    the two conditionals; at a later point the running maximum's buffer holds the previous point's running maximum,
    and the recursion's successor step is what the body then stores. The invariant and the dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold yblk1
  by_cases h0 : t.val = 0
  · rw [acc1_first V c t h0]; unfold tmax1
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_first c Set.univ (grid1.coords t) _ _ _ _ _ _ _ _ _ _ _ _ _ _
      ((hcond1_1 t).mpr h0) (fun h => ((hcond1_2 t).mp h) h0)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc1_later V c t h0]
    simp only [before1_6 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_later c Set.univ (grid1.coords t) _ _ _ _ _ _ _ _ _ _ _ _ _ _
      (fun h => h0 ((hcond1_1 t).mp h)) ((hcond1_2 t).mpr h0)
      (iblk1 V c 0 t) (iblk1 V c 1 t) (iblk1 V c 2 t) (iblk1 V c 3 t) (iblk1 V c 4 t)
      (acc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation of pallas_call 1, at every grid point. -/
theorem body_obligation1 (c : Dev nD) : BodyObligation (dat1 (F := F) V c) (defs₀ (F := F)) Variants.none () Set.univ := fun t => by
  rw [bigSep_W1, bigSep_W1]
  rw [idle1_6]
  exact sound_body1 V c t

end Cert.Kernel.Frm

end
-- ==== Proof.K.R2Defs.lean ====
/-
  The final requantization (the third pallas_call): what each window's staging buffer holds after the body at
  a grid point. Point t handles rows 512·t … 512·t+511. Inputs: the row block of y and the 1×1 scale s (the
  maximum of |y| over 127). Output: the row block of clip(round(y/s)) · s.
-/
import proofs.«110018_j17901423689856_1_alg».proof.Proof.Gen.Kernel.Skeleton
import proofs.«110018_j17901423689856_1_alg».proof.Proof.Gen.Kernel.Launch
import proofs.«110018_j17901423689856_1_alg».proof.Proof.Gen.Kernel.Points
import Idealize.ShloMosaic.Lib.Pipeline.Frame
import Idealize.ShloMosaic.Lib.Pipeline.FrameBody

set_option maxRecDepth 16384

noncomputable section

namespace Cert.Kernel.Frm

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block the body stores at point `t`. -/
def oblk2 (c : Dev nD) (t : Fin cfg2.N) : Vec F S512x384 .f32 :=
  k2_pay1 (iblk2 V c 0 t) (iblk2 V c 1 t) (iblk2 V c 1 t)

/-- The proof data of the third pallas_call on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => oblk2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = oblk2 V c t := by dsimp only [dat2]

end Cert.Kernel.Frm

end
-- ==== Proof.K.R2Body.lean ====
/-
  The final requantization (the third pallas_call): the body's obligation at a grid point. At point t the body reads
  the row block of y (rows 512·t … 512·t+511) and the 1×1 scale s, and writes the row block of
  clip(round(y/s)) · s over the whole of its output buffer; the scale is read twice, once as the divisor and once as
  the factor. Both inputs are left as found, so the output block is one closed function of the two input blocks.
-/
import proofs.«110018_j17901423689856_1_alg».proof.Proof.K.R2Defs
import Idealize.ShloMosaic.Lib.Pipeline.Value
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its two input windows -/

/-- The row block of y: at every grid point the buffer the body reads holds rows 512·t … 512·t+511 of the array
    (the blocks tile the array, no point is idle for the window, and the body leaves the block in place). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The 1×1 scale: its block index is constant, so it is brought in at the first point only; at a later point the
    buffer still holds what the body left at the point before, which is the same block, the body leaving it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same of this call's proof data. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's accesses: each is of a whole buffer -/

/-- The whole 512×384 block, and the whole 1×1 block: the rectangles at zero offsets of the buffer's own sizes. -/
abbrev r2_0 : Rect S512x384 := Rect.unit (s := S512x384) ![0, 0] S512x384.size inb_S512x384_S512x384_0_0
abbrev r2_1 : Rect S1x1 := Rect.unit (s := S1x1) ![0, 0] S1x1.size inb_S1x1_S1x1_0_0

/-- The offsets are zero on both axes. -/
theorem zeroOff_r2 : (![0, 0] : Fin 2 → Nat) = fun _ => 0 := funext fun a => by fin_cases a <;> rfl

/-- What the body's one store leaves in the output buffer, over whatever it held: the payload of what the loads read. -/
def out2_2 (x0 : Vec F S512x384 .f32) (x1 : Vec F S1x1 .f32) : Vec F S512x384 .f32 :=
  View.canon [⟨r2_0, k2_pay1 (View.ld x0 r2_0) (View.ld x1 r2_1) (View.ld x1 r2_1)⟩]

/-- A load of a whole buffer reads its contents, and one store over a whole buffer leaves its payload: the output
    block is the payload of the row block and of the scale, the scale entering twice (divisor, then factor). -/
theorem out2_2_eq (x0 : Vec F S512x384 .f32) (x1 : Vec F S1x1 .f32) : out2_2 x0 x1 = k2_pay1 x0 x1 x1 := by
  unfold out2_2
  rw [View.canon_unit_zero zeroOff_r2]
  rw [View.ld_unit_zero (S := S512x384) zeroOff_r2, View.ld_unit_zero (S := S1x1) zeroOff_r2]

/-- The store's rectangle holds every index of the output buffer. -/
theorem cover2_2 (p0 : Vec F S512x384 .f32) (y : S512x384.Idx) :
    ∃ pc ∈ ([⟨r2_0, p0⟩] : List (View.Piece (Elt F) S512x384 .f32)), y ∈ pc.1.set :=
  ⟨_, List.mem_singleton_self _, View.mem_set_unit_zero zeroOff_r2 inb_S512x384_S512x384_0_0 y⟩

/-! ## The body's triple -/

set_option maxHeartbeats 1000000 in
/-- The body on whole buffers, the inputs' at contents `x0` (row block) and `x1` (scale) and the output's at anything,
    runs to the continuation holding the inputs as they were and the output at the payload of `x0`, `x1`, `x1`:
    four loads (the output's own, read before it is written, is unused) and one store over the whole output. -/
theorem sound_kernel2 (c : Dev nD) (E : Set ℕ) (i : grid2.Coords) (arg1 : Memref sig .tc .vmem S512x384 .f32) (harg1 : arg1.IsWhole) (arg2 : Memref sig .tc .vmem S1x1 .f32) (harg2 : arg2.IsWhole) (arg3 : Memref sig .tc .vmem S512x384 .f32) (harg3 : arg3.IsWhole)
    (x0 : Vec F S512x384 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k2_pay1 x0 x1 x1)) -∗ K ⟨⟩))
      ⊢ wp frame (wpE (defs₀ (F := F)) Variants.none c none) E (cc2__k3_body i arg1 harg1 arg2 harg2 arg3 harg3) K := by
  simp only [cc2__k3_body_eq_skeleton]; unfold cc2__k3_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (cover2_2 _)).trans (out2_2_eq _ _)

/-! ## The body obligation, at a generic point -/

/-- What the body is called with at point `t`: the invariant, what the core owes, and the three windows' current
    buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two inputs' buffers hold their blocks and the output's holds anything, so the body's
    triple applies; the invariant and what the core owes are the same before and after, and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  unfold oblk2
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of pallas_call 2, at every grid point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.K.Run.lean ====
/-
  The launch of the whole program: @main as the list of its items (host stretches and the three kernel
  regions), run from the launch memory to the return, with every unscoped buffer's final contents named.

  Between two items a core holds every unscoped buffer whole at a valuation. A host stretch moves the valuation by
  its operations; a kernel region leaves its input arrays as entered and each output array at the fold of its
  write-backs over all grid points, every other buffer as entered. The contents the regions leave are chosen stage
  by stage: the first region's from the valuation before it, the second's from the valuation that results, and so on.
-/
import proofs.«110018_j17901423689856_1_alg».proof.Proof.Gen.Kernel.Regions
import proofs.«110018_j17901423689856_1_alg».proof.Proof.K.R0Body
import proofs.«110018_j17901423689856_1_alg».proof.Proof.K.R1Body
import proofs.«110018_j17901423689856_1_alg».proof.Proof.K.R2Body
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents the regions leave, stage by stage -/

/-- A valuation read at the TensorCore's references (what a region's proof data take). -/
abbrev atTc (W : Dev nD → Valuation τ sig (Elt F)) : (c : Dev nD) → (b : Ref sig .tc) → Buf (Elt F) ((c : Thread nD τ).loc b) :=
  fun c b => W c b

/-- After the first region: its arrays at what the pipeline leaves (inputs as entered, each output's write-backs
    folded over all points), every other buffer as entered. -/
def W8 (c : Dev nD) : Valuation τ sig (Elt F) :=
  Pipeline.withArrays spec0 c (V7 m c) fun w => (dat0 (atTc (V7 m)) c).arrAt w cfg0.N

/-- The unknowns with only the first region's outputs chosen. -/
def outsA : Outs (F := F) := fun _ r c => W8 m c r

/-- After the second region, from the valuation the first region's outputs give. -/
def W16 (c : Dev nD) : Valuation τ sig (Elt F) :=
  Pipeline.withArrays spec1 c (V15 m (outsA m) c) fun w => (dat1 (atTc (V15 m (outsA m))) c).arrAt w cfg1.N

/-- The unknowns with the first two regions' outputs chosen. -/
def outsB : Outs (F := F) := fun J r c => match J with
  | 16 => W16 m c r
  | _ => W8 m c r

/-- After the third region, from the valuation the first two regions' outputs give. -/
def W18 (c : Dev nD) : Valuation τ sig (Elt F) :=
  Pipeline.withArrays spec2 c (V17 m (outsB m) c) fun w => (dat2 (atTc (V17 m (outsB m))) c).arrAt w cfg2.N

/-- What every region leaves in the buffers it may change. -/
def outsK : Outs (F := F) := fun J r c => match J with
  | 16 => W16 m c r
  | 18 => W18 m c r
  | _ => W8 m c r

/-- The valuation before the second region reads only the first region's outputs. -/
theorem V15_K (c : Dev nD) : V15 m (outsK m) c = V15 m (outsA m) c := rfl
/-- The valuation before the third region reads only the first two regions' outputs. -/
theorem V17_K (c : Dev nD) : V17 m (outsK m) c = V17 m (outsB m) c := rfl

/-! ## The proof data and the thread state -/

/-- Every pipeline's proof data, each at the valuation its region is entered from. -/
def pdats : (p : Fin 3) → (c : Dev nD) → Dat τ (Elt F) Unit ℕ (UR sig nD τ) ℕ (Pipeline.pin (pcfgs (F := F)) adm p) c
  | ⟨0, _⟩ => fun c => dat0 (atTc (V7 m)) c
  | ⟨1, _⟩ => fun c => dat1 (atTc (V15 m (outsK m))) c
  | ⟨2, _⟩ => fun c => dat2 (atTc (V17 m (outsK m))) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
/-- The rest beside the buffers, the same between any two items. -/
abbrev E : Fin 4 → Dev nD → sProp 𝕄 := fun _ c => R (F := F) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What each region leaves, array by array -/

theorem W8_arr (c : Dev nD) (w : Fin cfg0.W) :
    W8 m c (Proc.devRef .tc (Pipeline.arrRef spec0 w)) = (dat0 (atTc (V7 m)) c).arrAt w cfg0.N := by
  unfold W8; exact Pipeline.withArrays_arr spec0 launch0.win.arr_inj c _ _ w
theorem W16_arr (c : Dev nD) (w : Fin cfg1.W) :
    W16 m c (Proc.devRef .tc (Pipeline.arrRef spec1 w)) = (dat1 (atTc (V15 m (outsA m))) c).arrAt w cfg1.N := by
  unfold W16; exact Pipeline.withArrays_arr spec1 launch1.win.arr_inj c _ _ w
theorem W18_arr (c : Dev nD) (w : Fin cfg2.W) :
    W18 m c (Proc.devRef .tc (Pipeline.arrRef spec2 w)) = (dat2 (atTc (V17 m (outsB m))) c).arrAt w cfg2.N := by
  unfold W18; exact Pipeline.withArrays_arr spec2 launch2.win.arr_inj c _ _ w

theorem outs8_v21_0 (c : Dev nD) : outsK m 8 main_v21_0 c = (dat0 (atTc (V7 m)) c).arrAt 5 cfg0.N := W8_arr m c 5
theorem outs8_v21_1 (c : Dev nD) : outsK m 8 main_v21_1 c = (dat0 (atTc (V7 m)) c).arrAt 6 cfg0.N := W8_arr m c 6
theorem outs16_v43_0 (c : Dev nD) : outsK m 16 main_v43_0 c = (dat1 (atTc (V15 m (outsK m))) c).arrAt 5 cfg1.N := W16_arr m c 5
theorem outs16_v43_1 (c : Dev nD) : outsK m 16 main_v43_1 c = (dat1 (atTc (V15 m (outsK m))) c).arrAt 6 cfg1.N := W16_arr m c 6
theorem outs18_v46 (c : Dev nD) : outsK m 18 main_v46 c = (dat2 (atTc (V17 m (outsK m))) c).arrAt 2 cfg2.N := W18_arr m c 2

/-- Every window of region 0 whose array is neither output array is an input window. -/
theorem in0 : ∀ w : Fin cfg0.W, Pipeline.arrRef spec0 w ≠ main_v21_0 → Pipeline.arrRef spec0 w ≠ main_v21_1 → (cfg0.win w).isOut = false := by decide

/-- At region 0's exit each of its arrays holds what the pipeline leaves: an input array is never written and the
    updates are made elsewhere; an output array is the update made at it. -/
theorem hF0 (c : Dev nD) (w : Fin cfg0.W) :
    (dat0 (atTc (V7 m)) c).arrAt w cfg0.N = atTc (V8 m (outsK m)) c (Pipeline.arrRef spec0 w) := by
  by_cases h0 : Pipeline.arrRef spec0 w = main_v21_0
  · obtain rfl : w = 5 := launch0.win.arr_inj h0
    refine (outs8_v21_0 m c).symm.trans ?_
    show _ = V8 m (outsK m) c (Proc.devRef .tc main_v21_0)
    simp only [V8, Function.update_of_ne (StableHlo.devRef_ne_of_ne (by decide) : (Proc.devRef .tc main_v21_0 : DevRef τ sig) ≠ Proc.devRef .tc main_v21_1), Function.update_self]
  · by_cases h1 : Pipeline.arrRef spec0 w = main_v21_1
    · obtain rfl : w = 6 := launch0.win.arr_inj h1
      refine (outs8_v21_1 m c).symm.trans ?_
      show _ = V8 m (outsK m) c (Proc.devRef .tc main_v21_1)
      simp only [V8, Function.update_self]
    · exact ((dat0 (atTc (V7 m)) c).arrAt_in w (in0 w h0 h1) _).trans
        (V8_of m (outsK m) c (Pipeline.arrRef spec0 w) (by
          simp only [List.mem_cons, List.not_mem_nil, or_false, not_or]; exact ⟨h0, h1⟩)).symm
/-- and every other buffer what it held at entry. -/
theorem hrest0 (c : Dev nD) : ∀ b, b ∉ Finset.univ.image (Pipeline.arrRef spec0) → atTc (V8 m (outsK m)) c b = atTc (V7 m) c b :=
  fun b hb => V8_of m (outsK m) c b (by
    simp only [List.mem_cons, List.not_mem_nil, or_false, not_or]
    exact ⟨fun e => hb (Finset.mem_image.mpr ⟨5, Finset.mem_univ _, e.symm⟩), fun e => hb (Finset.mem_image.mpr ⟨6, Finset.mem_univ _, e.symm⟩)⟩)

/-- Every window of region 1 whose array is neither output array is an input window. -/
theorem in1 : ∀ w : Fin cfg1.W, Pipeline.arrRef spec1 w ≠ main_v43_0 → Pipeline.arrRef spec1 w ≠ main_v43_1 → (cfg1.win w).isOut = false := by decide

/-- At region 1's exit each of its arrays holds what the pipeline leaves: an input array is never written and the
    updates are made elsewhere; an output array is the update made at it. -/
theorem hF1 (c : Dev nD) (w : Fin cfg1.W) :
    (dat1 (atTc (V15 m (outsK m))) c).arrAt w cfg1.N = atTc (V16 m (outsK m)) c (Pipeline.arrRef spec1 w) := by
  by_cases h0 : Pipeline.arrRef spec1 w = main_v43_0
  · obtain rfl : w = 5 := launch1.win.arr_inj h0
    refine (outs16_v43_0 m c).symm.trans ?_
    show _ = V16 m (outsK m) c (Proc.devRef .tc main_v43_0)
    simp only [V16, Function.update_of_ne (StableHlo.devRef_ne_of_ne (by decide) : (Proc.devRef .tc main_v43_0 : DevRef τ sig) ≠ Proc.devRef .tc main_v43_1), Function.update_self]
  · by_cases h1 : Pipeline.arrRef spec1 w = main_v43_1
    · obtain rfl : w = 6 := launch1.win.arr_inj h1
      refine (outs16_v43_1 m c).symm.trans ?_
      show _ = V16 m (outsK m) c (Proc.devRef .tc main_v43_1)
      simp only [V16, Function.update_self]
    · exact ((dat1 (atTc (V15 m (outsK m))) c).arrAt_in w (in1 w h0 h1) _).trans
        (V16_of m (outsK m) c (Pipeline.arrRef spec1 w) (by
          simp only [List.mem_cons, List.not_mem_nil, or_false, not_or]; exact ⟨h0, h1⟩)).symm
/-- and every other buffer what it held at entry. -/
theorem hrest1 (c : Dev nD) : ∀ b, b ∉ Finset.univ.image (Pipeline.arrRef spec1) → atTc (V16 m (outsK m)) c b = atTc (V15 m (outsK m)) c b :=
  fun b hb => V16_of m (outsK m) c b (by
    simp only [List.mem_cons, List.not_mem_nil, or_false, not_or]
    exact ⟨fun e => hb (Finset.mem_image.mpr ⟨5, Finset.mem_univ _, e.symm⟩), fun e => hb (Finset.mem_image.mpr ⟨6, Finset.mem_univ _, e.symm⟩)⟩)

/-- Every window of region 2 whose array is not the output array is an input window. -/
theorem in2 : ∀ w : Fin cfg2.W, Pipeline.arrRef spec2 w ≠ main_v46 → (cfg2.win w).isOut = false := by decide

/-- At region 2's exit each of its arrays holds what the pipeline leaves: an input array is never written and the
    update is made elsewhere; the output array is the update made at it. -/
theorem hF2 (c : Dev nD) (w : Fin cfg2.W) :
    (dat2 (atTc (V17 m (outsK m))) c).arrAt w cfg2.N = atTc (V18 m (outsK m)) c (Pipeline.arrRef spec2 w) := by
  by_cases h0 : Pipeline.arrRef spec2 w = main_v46
  · obtain rfl : w = 2 := launch2.win.arr_inj h0
    refine (outs18_v46 m c).symm.trans ?_
    show _ = V18 m (outsK m) c (Proc.devRef .tc main_v46)
    simp only [V18, Function.update_self]
  · exact ((dat2 (atTc (V17 m (outsK m))) c).arrAt_in w (in2 w h0) _).trans
      (V18_of m (outsK m) c (Pipeline.arrRef spec2 w) (by
        simp only [List.mem_cons, List.not_mem_nil, or_false]; exact h0)).symm
/-- and every other buffer what it held at entry. -/
theorem hrest2 (c : Dev nD) : ∀ b, b ∉ Finset.univ.image (Pipeline.arrRef spec2) → atTc (V18 m (outsK m)) c b = atTc (V17 m (outsK m)) c b :=
  fun b hb => V18_of m (outsK m) c b (by
    simp only [List.mem_cons, List.not_mem_nil, or_false]
    exact fun e => hb (Finset.mem_image.mpr ⟨2, Finset.mem_univ _, e.symm⟩))

/-! ## The regions as items -/

set_option backward.isDefEq.respectTransparency.types false in
/-- Region 0 over the thread state: entered from every unscoped buffer at the valuation before it, left at the one
    after it. Its arrays are split out of the unscoped buffers at entry and put back at their final contents at exit;
    the generator register passes into the region's invariant and back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (V7 m)) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (atTc (V7 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V7 m) c) (atTc (V8 m (outsK m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the valuation before it, left at the one
    after it. Its arrays are split out of the unscoped buffers at entry and put back at their final contents at exit;
    the generator register passes into the region's invariant and back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (V15 m (outsK m))) c).loose
  hwaits := Pipeline.hwaits_of_owed_zero _ _ _ _ L lv 1 fun _ _ => rfl
  pre c := iprop(StableHlo.held (c : Thread nD τ) (Pipeline.ucRefs τ sig) (V15 m (outsK m) c) ∗ R c)
  post c := iprop(StableHlo.held (c : Thread nD τ) (Pipeline.ucRefs τ sig) (V16 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (atTc (V15 m (outsK m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V15 m (outsK m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V15 m (outsK m)) c) (atTc (V16 m (outsK m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the valuation before it, left at the one
    after it. Its arrays are split out of the unscoped buffers at entry and put back at their final contents at exit;
    the generator register passes into the region's invariant and back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (V17 m (outsK m))) c).loose
  hwaits := Pipeline.hwaits_of_owed_zero _ _ _ _ L lv 2 fun _ _ => rfl
  pre c := iprop(StableHlo.held (c : Thread nD τ) (Pipeline.ucRefs τ sig) (V17 m (outsK m) c) ∗ R c)
  post c := iprop(StableHlo.held (c : Thread nD τ) (Pipeline.ucRefs τ sig) (V18 m (outsK m) c) ∗ R c)
  X c := iprop(∃ r, prngReg c r)
  Y c := iprop(∃ r, prngReg c r)
  Z c := Pipeline.unscopedRest (Ix := Unit) (Name := ℕ) (U := UR sig nD τ) (Lvl := ℕ) spec2 c (atTc (V17 m (outsK m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V17 m (outsK m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V17 m (outsK m)) c) (atTc (V18 m (outsK m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the list of its items, and the launch -/

/-- The last thread state without the core owing nothing: every unscoped buffer at the last valuation, the
    generator register at some state. -/
abbrev Tₙ (c : Dev nD) : sProp 𝕄 := iprop(StableHlo.held (c : Thread nD τ) (Pipeline.ucRefs τ sig) (V19 m (outsK m) c) ∗ ∃ r, prngReg c r)

set_option backward.isDefEq.respectTransparency.types false in
/-- THE RUN. From any memory with zero counters, every weakly fair execution of @main on the TensorCore terminates,
    and every final memory holds each unscoped buffer at the last valuation: the host stretches chained with the
    three regions, the launch's first thread state made from what the launch deals, the last one read against the
    final state. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V19 m (outsK m) c b) := by
  refine Pipeline.θ_run_regions_kit_dev (pcfgs (F := F)) adm (pdats m) () cellOf_inj emb₁ defs₀ 𝒱₀ L lv m ρ main
    (segs m (outsK m) 𝒱₀ L lv E () (pdats m) (reg0 m) (reg1 m) (reg2 m))
    (fun c Q => by
      rewrite [main_chain c, Seg.run_eq_chain,
        show (segs m (outsK m) 𝒱₀ L lv E () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl, .rfl, .rfl, .rfl, .rfl, .rfl, .rfl,
      show iprop(StableHlo.held (c : Thread nD τ) (Pipeline.ucRefs τ sig) (V19 m (outsK m) c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V19 m (outsK m) c b)
    (hfin := fun c s' => by
      iintro ⟨⟨Hh, -⟩, HSI⟩
      unfold StableHlo.held
      imodintro
      iapply (pointsTo_read_all (Pipeline.ucRefs τ sig) (fun b => (((c : Thread nD τ)).1, b)) (V19 m (outsK m) c) s')
      isplitl [Hh] <;> iassumption)
    (hQ := fun s h => h)

/-- THE FRAME: every argument array ends holding its launch contents — no host stretch writes an argument and no
    region may change one, so the last valuation at an argument walks back to the launch memory. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (V19_main_arg0 m (outsK m) c),
     (h c _ (mem_uc main_arg1 (by decide))).trans (V19_main_arg1 m (outsK m) c),
     (h c _ (mem_uc main_arg2 (by decide))).trans (V19_main_arg2 m (outsK m) c),
     (h c _ (mem_uc main_arg3 (by decide))).trans (V19_main_arg3 m (outsK m) c),
     (h c _ (mem_uc main_arg4 (by decide))).trans (V19_main_arg4 m (outsK m) c),
     (h c _ (mem_uc main_arg5 (by decide))).trans (V19_main_arg5 m (outsK m) c)⟩) (run_all m ρ)

end Cert.Kernel.Frm

end
-- ==== Proof.KI.R0Defs.lean ====
/-
  First linear layer (the first pallas_call): what each window's staging buffer holds after the body at a
  grid point. Point t handles rows 512·t … 512·t+511 of the activations. Inputs: the row block of x, the 1×1
  activation scale, the whole integer weight matrix, the bias row and the scale row. Outputs: the row block
  of h = relu((x/a · Wᵀ + bias) · scale), and a 1×1 running maximum of |h| over all rows seen so far:
  set to the block's own maximum at the first point, joined with it at every later point.
-/
import proofs.«110018_j17901423689856_1_alg».proof.Proof.Gen.KernelIdeal.Skeleton
import proofs.«110018_j17901423689856_1_alg».proof.Proof.Gen.KernelIdeal.Launch
import proofs.«110018_j17901423689856_1_alg».proof.Proof.Gen.KernelIdeal.Points
import Idealize.ShloMosaic.Lib.Pipeline.Frame
import Idealize.ShloMosaic.Lib.Pipeline.FrameBody

set_option maxRecDepth 16384

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of h the body stores at point `t`. -/
def hblk0 (c : Dev nD) (t : Fin cfg0.N) : Vec F S512x1536 .f32 :=
  k0_pay1 (iblk0 V c 0 t) (iblk0 V c 1 t) (iblk0 V c 2 t) (iblk0 V c 3 t) (iblk0 V c 4 t)

/-- The maximum of |h| over the block of point `t`, as a 1×1 array. -/
def tmax0 (c : Dev nD) (t : Fin cfg0.N) : Vec F S1x1 .f32 :=
  k0_pay2 (iblk0 V c 0 t) (iblk0 V c 1 t) (iblk0 V c 2 t) (iblk0 V c 3 t) (iblk0 V c 4 t)

/-- The running maximum after point `n`: the first block's maximum, then joined block by block. -/
def acc0 (c : Dev nD) : (n : ℕ) → n < cfg0.N → Vec F S1x1 .f32
  | 0, h => tmax0 V c ⟨0, h⟩
  | n + 1, h => k0_pay3 (iblk0 V c 0 ⟨n + 1, h⟩) (iblk0 V c 1 ⟨n + 1, h⟩) (iblk0 V c 2 ⟨n + 1, h⟩) (iblk0 V c 3 ⟨n + 1, h⟩)
      (iblk0 V c 4 ⟨n + 1, h⟩) (acc0 c n (Nat.lt_of_succ_lt h))

/-- The proof data of the first pallas_call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hblk0 V c t
    | ⟨6, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = hblk0 V c t := by dsimp only [dat0]
theorem after0_6 (c : Dev nD) (t : Fin cfg0.N) : (dat0 V c).after 6 t = acc0 V c t.val t.isLt := by dsimp only [dat0]

end Cert.KernelIdeal.Frm

end
-- ==== Proof.KI.R0Body.lean ====
/-
  First linear layer (the first pallas_call): the body at one grid point. On whole staging buffers holding the
  five inputs' blocks, the body leaves the inputs as they were, stores the block of h = relu((x/a · Wᵀ + bias) · scale)
  over whatever the sixth buffer held, and brings the 1×1 running maximum of |h| up to date: at the first point it is
  set to the block's own maximum, at every later point it is joined (max) with it. Exactly one of the body's two
  conditionals is taken at each point, so the 1×1 window is written at every point; it is written back to its array
  at the last point only, so at a later point its buffer still holds what the point before left.
-/
import proofs.«110018_j17901423689856_1_alg».proof.Proof.KI.R0Defs
import Idealize.ShloMosaic.Lib.Tactic
import Idealize.ShloMosaic.Lib.Pipeline.Value
import Mathlib.Tactic.FinCases

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer accesses

Every load and store of the body goes through the rectangle at zero offsets of the buffer's own sizes. -/

/-- The zero offsets of a whole-buffer access, as a constant function. -/
theorem zero_off_r0 : (![0, 0] : Fin 2 → ℕ) = fun _ => 0 := funext fun a => by fin_cases a <;> rfl

/-- A load through the whole-buffer rectangle reads the buffer's contents. -/
theorem readAt_whole_r0 {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f _).trans (View.ld_unit_zero h inb _)

/-- One store through the whole-buffer rectangle leaves its payload, whatever the buffer held. -/
theorem read_writes_whole_r0 {sig : RefSig} {κ : Kind} {sp : Space} {S : Shape} {e : EltTy} {Val : EltTy → Type}
    [∀ e, Nonempty (Val e)] (v : View sig κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ fun y => ⟨_, List.mem_singleton_self _, View.mem_set_unit_zero h inb y⟩).trans
    (View.canon_unit_zero h inb w)

/-! ## The two conditions of the body, over the grid -/

/-- The first conditional (the running maximum is SET) is taken at the first point only. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- The second conditional (the running maximum is JOINED with the block's) is taken at every later point. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two is taken at every point: the 1×1 window is written at every point. -/
theorem idle0_6 : ∀ t : Fin grid0.N, idle0 6 (grid0.coords t) = false := by decide +kernel
/-- The same, as the configuration spells it. -/
theorem idle0_6' : ∀ t : Fin cfg0.N, cfg0.idle 6 (cfg0.grid.coords t) = false := idle0_6

/-! ## The body's triple, on any whole staging buffers -/

set_option maxHeartbeats 1000000 in
/-- AT THE FIRST POINT (the first conditional taken, the second not): with the five inputs' buffers at contents
    x0 … x4 and the two outputs' at anything, the body leaves the inputs as they were, the block of h
    (its one covering store's payload) in the sixth buffer and the block's maximum of |h| in the seventh. -/
theorem sound_kernel0_first (c : Dev nD) (E : Set ℕ) (i : grid0.Coords)
    (arg1 : Memref sig .tc .vmem S512x384 .f32) (harg1 : arg1.IsWhole) (arg2 : Memref sig .tc .vmem S1x1 .f32) (harg2 : arg2.IsWhole)
    (arg3 : Memref sig .tc .vmem S1536x384 .bf16) (harg3 : arg3.IsWhole) (arg4 : Memref sig .tc .vmem S1x1536 .f32) (harg4 : arg4.IsWhole)
    (arg5 : Memref sig .tc .vmem S1x1536 .f32) (harg5 : arg5.IsWhole) (arg6 : Memref sig .tc .vmem S512x1536 .f32) (harg6 : arg6.IsWhole)
    (arg7 : Memref sig .tc .vmem S1x1 .f32) (harg7 : arg7.IsWhole)
    (h1 : k0_cond1 i = 1#1) (h2 : ¬k0_cond2 i = 1#1)
    (x0 : Vec F S512x384 .f32) (x1 : Vec F S1x1 .f32) (x2 : Vec F S1536x384 .bf16) (x3 : Vec F S1x1536 .f32) (x4 : Vec F S1x1536 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay1 x0 x1 x2 x3 x4)
            ∗ owns (c : Thread nD τ) arg7 fullShare (k0_pay2 x0 x1 x2 x3 x4)) -∗ K ⟨⟩))
      ⊢ wp frame (wpE (defs₀ (F := F)) Variants.none c none) E
          (cc0__k1_body i arg1 harg1 arg2 harg2 arg3 harg3 arg4 harg4 arg5 harg5 arg6 harg6 arg7 harg7) K := by
  simp only [cc0__k1_body_eq_skeleton]; unfold cc0__k1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole_r0 arg6.view f5 zero_off_r0 inb_S512x1536_S512x1536_0_0 _).trans ?_
    rw [readAt_whole_r0 arg1.view f0 zero_off_r0 inb_S512x384_S512x384_0_0, readAt_whole_r0 arg2.view f1 zero_off_r0 inb_S1x1_S1x1_0_0,
      readAt_whole_r0 arg3.view f2 zero_off_r0 inb_S1536x384_S1536x384_0_0, readAt_whole_r0 arg4.view f3 zero_off_r0 inb_S1x1536_S1x1536_0_0,
      readAt_whole_r0 arg5.view f4 zero_off_r0 inb_S1x1536_S1x1536_0_0]
  iexists _; isplitr
  swap; · iexact H6
  ipureintro
  refine (read_writes_whole_r0 arg7.view f6 zero_off_r0 inb_S1x1_S1x1_0_0 _).trans ?_
  rw [readAt_whole_r0 arg1.view f0 zero_off_r0 inb_S512x384_S512x384_0_0, readAt_whole_r0 arg2.view f1 zero_off_r0 inb_S1x1_S1x1_0_0,
      readAt_whole_r0 arg3.view f2 zero_off_r0 inb_S1536x384_S1536x384_0_0, readAt_whole_r0 arg4.view f3 zero_off_r0 inb_S1x1536_S1x1536_0_0,
      readAt_whole_r0 arg5.view f4 zero_off_r0 inb_S1x1536_S1x1536_0_0]

set_option maxHeartbeats 1000000 in
/-- AT A LATER POINT (the second conditional taken, the first not): the seventh buffer is found at the running
    maximum xo so far, and is left at the join of xo with the block's maximum. -/
theorem sound_kernel0_later (c : Dev nD) (E : Set ℕ) (i : grid0.Coords)
    (arg1 : Memref sig .tc .vmem S512x384 .f32) (harg1 : arg1.IsWhole) (arg2 : Memref sig .tc .vmem S1x1 .f32) (harg2 : arg2.IsWhole)
    (arg3 : Memref sig .tc .vmem S1536x384 .bf16) (harg3 : arg3.IsWhole) (arg4 : Memref sig .tc .vmem S1x1536 .f32) (harg4 : arg4.IsWhole)
    (arg5 : Memref sig .tc .vmem S1x1536 .f32) (harg5 : arg5.IsWhole) (arg6 : Memref sig .tc .vmem S512x1536 .f32) (harg6 : arg6.IsWhole)
    (arg7 : Memref sig .tc .vmem S1x1 .f32) (harg7 : arg7.IsWhole)
    (h1 : ¬k0_cond1 i = 1#1) (h2 : k0_cond2 i = 1#1)
    (x0 : Vec F S512x384 .f32) (x1 : Vec F S1x1 .f32) (x2 : Vec F S1536x384 .bf16) (x3 : Vec F S1x1536 .f32) (x4 : Vec F S1x1536 .f32) (xo : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare xo
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay1 x0 x1 x2 x3 x4)
            ∗ owns (c : Thread nD τ) arg7 fullShare (k0_pay3 x0 x1 x2 x3 x4 xo)) -∗ K ⟨⟩))
      ⊢ wp frame (wpE (defs₀ (F := F)) Variants.none c none) E
          (cc0__k1_body i arg1 harg1 arg2 harg2 arg3 harg3 arg4 harg4 arg5 harg5 arg6 harg6 arg7 harg7) K := by
  simp only [cc0__k1_body_eq_skeleton]; unfold cc0__k1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole_r0 arg6.view f5 zero_off_r0 inb_S512x1536_S512x1536_0_0 _).trans ?_
    rw [readAt_whole_r0 arg1.view f0 zero_off_r0 inb_S512x384_S512x384_0_0, readAt_whole_r0 arg2.view f1 zero_off_r0 inb_S1x1_S1x1_0_0,
      readAt_whole_r0 arg3.view f2 zero_off_r0 inb_S1536x384_S1536x384_0_0, readAt_whole_r0 arg4.view f3 zero_off_r0 inb_S1x1536_S1x1536_0_0,
      readAt_whole_r0 arg5.view f4 zero_off_r0 inb_S1x1536_S1x1536_0_0]
  iexists _; isplitr
  swap; · iexact H6
  ipureintro
  refine (read_writes_whole_r0 arg7.view f6 zero_off_r0 inb_S1x1_S1x1_0_0 _).trans ?_
  rw [readAt_whole_r0 arg1.view f0 zero_off_r0 inb_S512x384_S512x384_0_0, readAt_whole_r0 arg2.view f1 zero_off_r0 inb_S1x1_S1x1_0_0,
      readAt_whole_r0 arg3.view f2 zero_off_r0 inb_S1536x384_S1536x384_0_0, readAt_whole_r0 arg4.view f3 zero_off_r0 inb_S1x1536_S1x1536_0_0,
      readAt_whole_r0 arg5.view f4 zero_off_r0 inb_S1x1536_S1x1536_0_0,
      readAt_whole_r0 arg7.view f6 zero_off_r0 inb_S1x1_S1x1_0_0]

variable (V : (c : Dev nD) → (b : Ref sig .tc) → Buf (Elt F) ((c : Thread nD τ).loc b))

/-! ## What each window's current buffer holds when the body runs -/

/-- Each input's current buffer holds its block at every point, fetched there or not: where it is not fetched its
    block index has not moved, and the body leaves an input's buffer as it found it. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- At a later point the 1×1 window's buffer holds the running maximum the point before left: the window is written
    back at the last point only, and every point writes it. -/
theorem before0_6_later (c : Dev nD) (t : Fin cfg0.N) (ht : t.val ≠ 0) (d) :
    (dat0 V c).before 6 t d = acc0 V c (t.val - 1) (Nat.lt_of_le_of_lt (Nat.sub_le _ _) t.isLt) := by
  have hN : t.val < 98 := lt_of_lt_of_eq t.isLt (show cfg0.N = 98 from N_0)
  have hfl : (cfg0.win 6).flush ⟨t.val - 1, Nat.lt_of_le_of_lt (Nat.sub_le _ _) t.isLt⟩ = false :=
    Bool.eq_false_iff.mpr fun h => by have := (flush0_6 _).mp h; dsimp only at this; omega
  rw [(dat0 V c).before_of_pos 6 t ht ((cfg0.win 6).fetch_out rfl t), hfl, if_neg Bool.false_ne_true]
  unfold Dat.left
  simp only [idle0_6, idle0_6']
  unfold Dat.kept
  rw [Pipeline.fill_of_clip_none (cfg := cfg0) 6 _ (fun _ => rfl) d ((dat0 V c).after 6 _), Window.fill_cut, after0_6]

/-! ## The running maximum, point by point -/

/-- At the first point it is the first block's maximum. -/
theorem acc0_first (c : Dev nD) (t : Fin cfg0.N) (h0 : t.val = 0) : acc0 V c t.val t.isLt = tmax0 V c t := by
  obtain ⟨n, hn⟩ := t
  cases n with
  | zero => rfl
  | succ n => exact absurd h0 (Nat.succ_ne_zero n)

/-- At a later point it is the join of the point before's with this block's maximum. -/
theorem acc0_later (c : Dev nD) (t : Fin cfg0.N) (h0 : t.val ≠ 0) :
    acc0 V c t.val t.isLt = k0_pay3 (iblk0 V c 0 t) (iblk0 V c 1 t) (iblk0 V c 2 t) (iblk0 V c 3 t) (iblk0 V c 4 t)
      (acc0 V c (t.val - 1) (Nat.lt_of_le_of_lt (Nat.sub_le _ _) t.isLt)) := by
  obtain ⟨n, hn⟩ := t
  cases n with
  | zero => exact absurd rfl h0
  | succ n => rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 800000 in
/-- The body at any point: the inputs' buffers hold their blocks; at the first point the 1×1 window's buffer holds
    anything and is set, at a later point it holds the running maximum so far and is joined; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  unfold hblk0
  by_cases h0 : t.val = 0
  · rw [acc0_first V c t h0]; unfold tmax0
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t) _ _ _ _ _ _ _ _ _ _ _ _ _ _
      ((hcond0_1 t).mpr h0) (fun h => (hcond0_2 t).mp h h0)
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc0_later V c t h0]
    simp only [before0_6_later V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_later c Set.univ (grid0.coords t) _ _ _ _ _ _ _ _ _ _ _ _ _ _
      (fun h => h0 ((hcond0_1 t).mp h)) ((hcond0_2 t).mpr h0)
      (iblk0 V c 0 t) (iblk0 V c 1 t) (iblk0 V c 2 t) (iblk0 V c 3 t) (iblk0 V c 4 t)
      (acc0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation of pallas_call 0, at every grid point. -/
theorem body_obligation0 (c : Dev nD) : BodyObligation (dat0 (F := F) V c) (defs₀ (F := F)) Variants.none () Set.univ := by
  intro t
  rw [bigSep_W0, bigSep_W0, idle0_6' t]
  exact sound_body0 V c t

end Cert.KernelIdeal.Frm

end
-- ==== Proof.KI.R1Defs.lean ====
/-
  Second linear layer (the second pallas_call): what each window's staging buffer holds after the body at a
  grid point. Point t handles rows 512·t … 512·t+511. Inputs: the row block of h, the 1×1 activation scale s
  (the maximum of |h| over 127), the whole integer weight matrix, the bias row and the scale row. Outputs:
  the row block of y = (clip(round(h/s)) · Wᵀ + bias) · scale, and a 1×1 running maximum of |y| over all rows
  seen so far: set to the block's own maximum at the first point, joined with it at every later point.
-/
import proofs.«110018_j17901423689856_1_alg».proof.Proof.Gen.KernelIdeal.Skeleton
import proofs.«110018_j17901423689856_1_alg».proof.Proof.Gen.KernelIdeal.Launch
import proofs.«110018_j17901423689856_1_alg».proof.Proof.Gen.KernelIdeal.Points
import Idealize.ShloMosaic.Lib.Pipeline.Frame
import Idealize.ShloMosaic.Lib.Pipeline.FrameBody

set_option maxRecDepth 16384

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of y the body stores at point `t`. -/
def yblk1 (c : Dev nD) (t : Fin cfg1.N) : Vec F S512x384 .f32 :=
  k1_pay1 (iblk1 V c 0 t) (iblk1 V c 1 t) (iblk1 V c 2 t) (iblk1 V c 3 t) (iblk1 V c 4 t)

/-- The maximum of |y| over the block of point `t`, as a 1×1 array. -/
def tmax1 (c : Dev nD) (t : Fin cfg1.N) : Vec F S1x1 .f32 :=
  k1_pay2 (iblk1 V c 0 t) (iblk1 V c 1 t) (iblk1 V c 2 t) (iblk1 V c 3 t) (iblk1 V c 4 t)

/-- The running maximum after point `n`: the first block's maximum, then joined block by block. -/
def acc1 (c : Dev nD) : (n : ℕ) → n < cfg1.N → Vec F S1x1 .f32
  | 0, h => tmax1 V c ⟨0, h⟩
  | n + 1, h => k1_pay3 (iblk1 V c 0 ⟨n + 1, h⟩) (iblk1 V c 1 ⟨n + 1, h⟩) (iblk1 V c 2 ⟨n + 1, h⟩) (iblk1 V c 3 ⟨n + 1, h⟩)
      (iblk1 V c 4 ⟨n + 1, h⟩) (acc1 c n (Nat.lt_of_succ_lt h))

/-- The proof data of the second pallas_call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => yblk1 V c t
    | ⟨6, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = yblk1 V c t := by dsimp only [dat1]
theorem after1_6 (c : Dev nD) (t : Fin cfg1.N) : (dat1 V c).after 6 t = acc1 V c t.val t.isLt := by dsimp only [dat1]

end Cert.KernelIdeal.Frm

end
-- ==== Proof.KI.R1Body.lean ====
/-
  Second linear layer (the second pallas_call): the body's triple at every grid point. Point t handles rows
  512·t … 512·t+511. From the five input buffers at their blocks (the row block of h, the 1×1 activation scale, the
  integer weight matrix, the bias row, the scale row) the body stores the row block of
  y = (clip(round(h/s)) · Wᵀ + bias) · scale whole, and keeps a 1×1 running maximum of |y|: at the first point it is
  set to the block's own maximum, at every later point it is the previous point's value joined (max) with the block's
  own. The two cases are told apart by the grid coordinate being zero or not; exactly one of the body's two
  conditionals holds at each point, so the running maximum's buffer is stored into at every point, and since it is
  written back at the last point only, a later point finds in it what the point before left.
-/
import proofs.«110018_j17901423689856_1_alg».proof.Proof.KI.R1Defs
import Idealize.ShloMosaic.Lib.Tactic
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditionals over the grid, and the running maximum's window -/

/-- The first conditional (the accumulator is SET) holds at the first point only. -/
theorem hcond1_1 : ∀ t : Fin cfg1.N, k1_cond1 (cfg1.grid.coords t) = 1#1 ↔ t.val = 0 :=
  (by decide +kernel : ∀ t : Fin grid1.N, k1_cond1 (grid1.coords t) = 1#1 ↔ t.val = 0)

/-- The second conditional (the accumulator is JOINED by max) holds at every later point. -/
theorem hcond1_2 : ∀ t : Fin cfg1.N, k1_cond2 (cfg1.grid.coords t) = 1#1 ↔ t.val ≠ 0 :=
  (by decide +kernel : ∀ t : Fin grid1.N, k1_cond2 (grid1.coords t) = 1#1 ↔ t.val ≠ 0)

/-- One of the two conditionals holds whatever the coordinate (it is zero or it is not), so the running maximum's
    window is stored into at every point: it is never idle. -/
theorem idle1_6 (i : grid1.Coords) : cfg1.idle 6 i = false := by
  have h : ∀ v : Fin 98,
      (!(Scalar.cmpi .ne (Scalar.extui (Scalar.cmpi .eq (BitVec.ofNat 32 v.val) 0#32)) 0#32 == 1#1)
        && !(Scalar.cmpi .ne (Scalar.extui (Scalar.cmpi .ne (BitVec.ofNat 32 v.val) 0#32)) 0#32 == 1#1)) = false := by
    decide +kernel
  exact h (i 0)

/-! ## The running maximum, point by point -/

/-- At the first point the running maximum is the block's own maximum. -/
theorem acc1_first (c : Dev nD) (t : Fin cfg1.N) (ht : t.val = 0) : acc1 V c t.val t.isLt = tmax1 V c t := by
  obtain ⟨n, hn⟩ := t
  cases n with
  | zero => rfl
  | succ n => exact absurd ht (Nat.succ_ne_zero n)

/-- At a later point it is the previous point's running maximum joined with the block's own. -/
theorem acc1_later (c : Dev nD) (t : Fin cfg1.N) (ht : t.val ≠ 0) :
    acc1 V c t.val t.isLt = k1_pay3 (iblk1 V c 0 t) (iblk1 V c 1 t) (iblk1 V c 2 t) (iblk1 V c 3 t) (iblk1 V c 4 t)
      (acc1 V c (t.val - 1) (Nat.lt_of_le_of_lt (Nat.sub_le _ _) t.isLt)) := by
  obtain ⟨n, hn⟩ := t
  cases n with
  | zero => exact absurd rfl ht
  | succ n => rfl

/-! ## What the body finds in each window's buffer -/

/-- An input's buffer holds its block at every point, whether the pipeline fetched it there or not (an unfetched
    input's block index has not moved since the fetch). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- After the first point the running maximum's buffer holds what the body left at the point before: the window is
    written back at the last point only, so nothing has touched the buffer in between, and it is never idle. -/
theorem before1_6 (c : Dev nD) (t : Fin cfg1.N) (ht : t.val ≠ 0) (d) :
    (dat1 V c).before 6 t d = acc1 V c (t.val - 1) (Nat.lt_of_le_of_lt (Nat.sub_le _ _) t.isLt) := by
  have hN : t.val < 98 := lt_of_lt_of_eq t.isLt (show cfg1.N = 98 from N_1)
  rw [Dat.before_out_kept _ 6 rfl t ht
    (Bool.eq_false_iff.mpr fun h => by have := (flush1_6 _).mp h; dsimp only at this; omega)
    idle1_6 (fun _ _ => rfl)]
  rw [after1_6]

/-! ## A whole buffer read or written through its whole rectangle -/

/-- The zero offsets of a rank-2 rectangle, as the constant function. -/
theorem off00 : (![0, 0] : Fin 2 → ℕ) = fun _ => 0 :=
  funext fun a => match a with
    | ⟨0, _⟩ => rfl
    | ⟨1, _⟩ => rfl

/-- A load of the whole rectangle (zero offsets, the buffer's own sizes) of a whole memref whose contents read X
    reads X. -/
theorem readAt_whole {S : Shape} {e : EltTy} (m : Memref sig .tc .vmem S e) (h : m.IsWhole) (X : S.Idx → Elt F e)
    {off : Fin S.rank → ℕ} (hoff : off = fun _ => 0) (inb : ∀ a, off a + S.size a ≤ S.size a) :
    View.readAt (Elt F) m.view (Rect.unit off S.size inb).toLoadRect (h.unread X) = X := by
  rw [View.readAt_eq_ld, h.read_unread, View.ld_unit_zero hoff]

/-- One store through the whole rectangle leaves its payload, whatever the buffer held. -/
theorem read_write_whole {S : Shape} {e : EltTy} (m : Memref sig .tc .vmem S e) (f : m.view.ty.Contents (Elt F))
    {off : Fin S.rank → ℕ} (hoff : off = fun _ => 0) (inb : ∀ a, off a + S.size a ≤ S.size a) (w : S.Idx → Elt F e) :
    m.view.read (Elt F) (m.view.writes (Elt F) f [⟨Rect.unit off S.size inb, w⟩]) = w := by
  rw [View.read_writes_eq_canon _ _ _ (fun y => ⟨_, List.mem_singleton_self _, View.mem_set_unit_zero hoff inb y⟩),
    View.canon_unit_zero hoff]

/-! ## The kernel's triple, one per control case -/

set_option maxHeartbeats 1000000 in
/-- THE FIRST POINT (the first conditional holds, the second does not). On whole staging memrefs — the five inputs at
    contents x0 … x4, the two outputs at anything — the body runs to the continuation holding the inputs as they were,
    the y buffer at the block of y computed from the inputs, and the running maximum's buffer SET to that block's
    maximum of absolute values. -/
theorem sound_kernel1_first (c : Dev nD) (E : Set ℕ) (i : grid1.Coords)
    (arg1 : Memref sig .tc .vmem S512x1536 .f32) (harg1 : arg1.IsWhole) (arg2 : Memref sig .tc .vmem S1x1 .f32) (harg2 : arg2.IsWhole)
    (arg3 : Memref sig .tc .vmem S384x1536 .bf16) (harg3 : arg3.IsWhole) (arg4 : Memref sig .tc .vmem S1x384 .f32) (harg4 : arg4.IsWhole)
    (arg5 : Memref sig .tc .vmem S1x384 .f32) (harg5 : arg5.IsWhole) (arg6 : Memref sig .tc .vmem S512x384 .f32) (harg6 : arg6.IsWhole)
    (arg7 : Memref sig .tc .vmem S1x1 .f32) (harg7 : arg7.IsWhole)
    (hc1 : k1_cond1 i = 1#1) (hc2 : ¬ k1_cond2 i = 1#1)
    (x0 : Vec F S512x1536 .f32) (x1 : Vec F S1x1 .f32) (x2 : Vec F S384x1536 .bf16) (x3 : Vec F S1x384 .f32) (x4 : Vec F S1x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay1 x0 x1 x2 x3 x4)
            ∗ owns (c : Thread nD τ) arg7 fullShare (k1_pay2 x0 x1 x2 x3 x4)) -∗ K ⟨⟩))
      ⊢ wp frame (wpE (defs₀ (F := F)) Variants.none c none) E (cc1__k2_body i arg1 harg1 arg2 harg2 arg3 harg3 arg4 harg4 arg5 harg5 arg6 harg6 arg7 harg7) K := by
  sl_unfold [cc1__k2_body]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_write_whole _ _ off00, readAt_whole _ harg1 x0 off00, readAt_whole _ harg2 x1 off00, readAt_whole _ harg3 x2 off00,
      readAt_whole _ harg4 x3 off00, readAt_whole _ harg5 x4 off00]
  iexists _; isplitr
  swap; · iexact H6
  ipureintro
  rw [read_write_whole _ _ off00, readAt_whole _ harg1 x0 off00, readAt_whole _ harg2 x1 off00, readAt_whole _ harg3 x2 off00,
      readAt_whole _ harg4 x3 off00, readAt_whole _ harg5 x4 off00]

set_option maxHeartbeats 1000000 in
/-- A LATER POINT (the first conditional fails, the second holds). The same, the running maximum's buffer found at
    contents a and left at a JOINED (elementwise max) with the block's maximum of absolute values. -/
theorem sound_kernel1_later (c : Dev nD) (E : Set ℕ) (i : grid1.Coords)
    (arg1 : Memref sig .tc .vmem S512x1536 .f32) (harg1 : arg1.IsWhole) (arg2 : Memref sig .tc .vmem S1x1 .f32) (harg2 : arg2.IsWhole)
    (arg3 : Memref sig .tc .vmem S384x1536 .bf16) (harg3 : arg3.IsWhole) (arg4 : Memref sig .tc .vmem S1x384 .f32) (harg4 : arg4.IsWhole)
    (arg5 : Memref sig .tc .vmem S1x384 .f32) (harg5 : arg5.IsWhole) (arg6 : Memref sig .tc .vmem S512x384 .f32) (harg6 : arg6.IsWhole)
    (arg7 : Memref sig .tc .vmem S1x1 .f32) (harg7 : arg7.IsWhole)
    (hc1 : ¬ k1_cond1 i = 1#1) (hc2 : k1_cond2 i = 1#1)
    (x0 : Vec F S512x1536 .f32) (x1 : Vec F S1x1 .f32) (x2 : Vec F S384x1536 .bf16) (x3 : Vec F S1x384 .f32) (x4 : Vec F S1x384 .f32) (a : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay1 x0 x1 x2 x3 x4)
            ∗ owns (c : Thread nD τ) arg7 fullShare (k1_pay3 x0 x1 x2 x3 x4 a)) -∗ K ⟨⟩))
      ⊢ wp frame (wpE (defs₀ (F := F)) Variants.none c none) E (cc1__k2_body i arg1 harg1 arg2 harg2 arg3 harg3 arg4 harg4 arg5 harg5 arg6 harg6 arg7 harg7) K := by
  sl_unfold [cc1__k2_body]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_write_whole _ _ off00, readAt_whole _ harg1 x0 off00, readAt_whole _ harg2 x1 off00, readAt_whole _ harg3 x2 off00,
      readAt_whole _ harg4 x3 off00, readAt_whole _ harg5 x4 off00]
  iexists _; isplitr
  swap; · iexact H6
  ipureintro
  rw [read_write_whole _ _ off00, readAt_whole _ harg1 x0 off00, readAt_whole _ harg2 x1 off00, readAt_whole _ harg3 x2 off00,
      readAt_whole _ harg4 x3 off00, readAt_whole _ harg5 x4 off00, readAt_whole _ harg7 a off00]

/-! ## The body obligation, at a generic point -/

/-- What the body is called with at point t: the invariant, the core's dues, and each window's current buffer at what
    it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: every buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
/-- The body at any point. The inputs' buffers hold their blocks; the point is the first or a later one, which decides
    the two conditionals; at a later point the running maximum's buffer holds the previous point's running maximum,
    and the recursion's successor step is what the body then stores. The invariant and the dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold yblk1
  by_cases h0 : t.val = 0
  · rw [acc1_first V c t h0]; unfold tmax1
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_first c Set.univ (grid1.coords t) _ _ _ _ _ _ _ _ _ _ _ _ _ _
      ((hcond1_1 t).mpr h0) (fun h => ((hcond1_2 t).mp h) h0)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc1_later V c t h0]
    simp only [before1_6 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_later c Set.univ (grid1.coords t) _ _ _ _ _ _ _ _ _ _ _ _ _ _
      (fun h => h0 ((hcond1_1 t).mp h)) ((hcond1_2 t).mpr h0)
      (iblk1 V c 0 t) (iblk1 V c 1 t) (iblk1 V c 2 t) (iblk1 V c 3 t) (iblk1 V c 4 t)
      (acc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation of pallas_call 1, at every grid point. -/
theorem body_obligation1 (c : Dev nD) : BodyObligation (dat1 (F := F) V c) (defs₀ (F := F)) Variants.none () Set.univ := fun t => by
  rw [bigSep_W1, bigSep_W1]
  rw [idle1_6]
  exact sound_body1 V c t

end Cert.KernelIdeal.Frm

end
-- ==== Proof.KI.R2Defs.lean ====
/-
  The final requantization (the third pallas_call): what each window's staging buffer holds after the body at
  a grid point. Point t handles rows 512·t … 512·t+511. Inputs: the row block of y and the 1×1 scale s (the
  maximum of |y| over 127). Output: the row block of clip(round(y/s)) · s.
-/
import proofs.«110018_j17901423689856_1_alg».proof.Proof.Gen.KernelIdeal.Skeleton
import proofs.«110018_j17901423689856_1_alg».proof.Proof.Gen.KernelIdeal.Launch
import proofs.«110018_j17901423689856_1_alg».proof.Proof.Gen.KernelIdeal.Points
import Idealize.ShloMosaic.Lib.Pipeline.Frame
import Idealize.ShloMosaic.Lib.Pipeline.FrameBody

set_option maxRecDepth 16384

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block the body stores at point `t`. -/
def oblk2 (c : Dev nD) (t : Fin cfg2.N) : Vec F S512x384 .f32 :=
  k2_pay1 (iblk2 V c 0 t) (iblk2 V c 1 t) (iblk2 V c 1 t)

/-- The proof data of the third pallas_call on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => oblk2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = oblk2 V c t := by dsimp only [dat2]

end Cert.KernelIdeal.Frm

end
-- ==== Proof.KI.R2Body.lean ====
/-
  The final requantization (the third pallas_call): the body's obligation at a grid point. At point t the body reads
  the row block of y (rows 512·t … 512·t+511) and the 1×1 scale s, and writes the row block of
  clip(round(y/s)) · s over the whole of its output buffer; the scale is read twice, once as the divisor and once as
  the factor. Both inputs are left as found, so the output block is one closed function of the two input blocks.
-/
import proofs.«110018_j17901423689856_1_alg».proof.Proof.KI.R2Defs
import Idealize.ShloMosaic.Lib.Pipeline.Value
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its two input windows -/

/-- The row block of y: at every grid point the buffer the body reads holds rows 512·t … 512·t+511 of the array
    (the blocks tile the array, no point is idle for the window, and the body leaves the block in place). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The 1×1 scale: its block index is constant, so it is brought in at the first point only; at a later point the
    buffer still holds what the body left at the point before, which is the same block, the body leaving it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same of this call's proof data. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's accesses: each is of a whole buffer -/

/-- The whole 512×384 block, and the whole 1×1 block: the rectangles at zero offsets of the buffer's own sizes. -/
abbrev r2_0 : Rect S512x384 := Rect.unit (s := S512x384) ![0, 0] S512x384.size inb_S512x384_S512x384_0_0
abbrev r2_1 : Rect S1x1 := Rect.unit (s := S1x1) ![0, 0] S1x1.size inb_S1x1_S1x1_0_0

/-- The offsets are zero on both axes. -/
theorem zeroOff_r2 : (![0, 0] : Fin 2 → Nat) = fun _ => 0 := funext fun a => by fin_cases a <;> rfl

/-- What the body's one store leaves in the output buffer, over whatever it held: the payload of what the loads read. -/
def out2_2 (x0 : Vec F S512x384 .f32) (x1 : Vec F S1x1 .f32) : Vec F S512x384 .f32 :=
  View.canon [⟨r2_0, k2_pay1 (View.ld x0 r2_0) (View.ld x1 r2_1) (View.ld x1 r2_1)⟩]

/-- A load of a whole buffer reads its contents, and one store over a whole buffer leaves its payload: the output
    block is the payload of the row block and of the scale, the scale entering twice (divisor, then factor). -/
theorem out2_2_eq (x0 : Vec F S512x384 .f32) (x1 : Vec F S1x1 .f32) : out2_2 x0 x1 = k2_pay1 x0 x1 x1 := by
  unfold out2_2
  rw [View.canon_unit_zero zeroOff_r2]
  rw [View.ld_unit_zero (S := S512x384) zeroOff_r2, View.ld_unit_zero (S := S1x1) zeroOff_r2]

/-- The store's rectangle holds every index of the output buffer. -/
theorem cover2_2 (p0 : Vec F S512x384 .f32) (y : S512x384.Idx) :
    ∃ pc ∈ ([⟨r2_0, p0⟩] : List (View.Piece (Elt F) S512x384 .f32)), y ∈ pc.1.set :=
  ⟨_, List.mem_singleton_self _, View.mem_set_unit_zero zeroOff_r2 inb_S512x384_S512x384_0_0 y⟩

/-! ## The body's triple -/

set_option maxHeartbeats 1000000 in
/-- The body on whole buffers, the inputs' at contents `x0` (row block) and `x1` (scale) and the output's at anything,
    runs to the continuation holding the inputs as they were and the output at the payload of `x0`, `x1`, `x1`:
    four loads (the output's own, read before it is written, is unused) and one store over the whole output. -/
theorem sound_kernel2 (c : Dev nD) (E : Set ℕ) (i : grid2.Coords) (arg1 : Memref sig .tc .vmem S512x384 .f32) (harg1 : arg1.IsWhole) (arg2 : Memref sig .tc .vmem S1x1 .f32) (harg2 : arg2.IsWhole) (arg3 : Memref sig .tc .vmem S512x384 .f32) (harg3 : arg3.IsWhole)
    (x0 : Vec F S512x384 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k2_pay1 x0 x1 x1)) -∗ K ⟨⟩))
      ⊢ wp frame (wpE (defs₀ (F := F)) Variants.none c none) E (cc2__k3_body i arg1 harg1 arg2 harg2 arg3 harg3) K := by
  simp only [cc2__k3_body_eq_skeleton]; unfold cc2__k3_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (cover2_2 _)).trans (out2_2_eq _ _)

/-! ## The body obligation, at a generic point -/

/-- What the body is called with at point `t`: the invariant, what the core owes, and the three windows' current
    buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two inputs' buffers hold their blocks and the output's holds anything, so the body's
    triple applies; the invariant and what the core owes are the same before and after, and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  unfold oblk2
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of pallas_call 2, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.Run.lean ====
/-
  The launch of the whole program: @main as the list of its items (host stretches and the three kernel
  regions), run from the launch memory to the return, with every unscoped buffer's final contents named.

  Between two items a core holds every unscoped buffer whole at a valuation. A host stretch moves the valuation by
  its operations; a kernel region leaves its input arrays as entered and each output array at the fold of its
  write-backs over all grid points, every other buffer as entered. The contents the regions leave are chosen stage
  by stage: the first region's from the valuation before it, the second's from the valuation that results, and so on.
-/
import proofs.«110018_j17901423689856_1_alg».proof.Proof.Gen.KernelIdeal.Regions
import proofs.«110018_j17901423689856_1_alg».proof.Proof.KI.R0Body
import proofs.«110018_j17901423689856_1_alg».proof.Proof.KI.R1Body
import proofs.«110018_j17901423689856_1_alg».proof.Proof.KI.R2Body
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents the regions leave, stage by stage -/

/-- A valuation read at the TensorCore's references (what a region's proof data take). -/
abbrev atTc (W : Dev nD → Valuation τ sig (Elt F)) : (c : Dev nD) → (b : Ref sig .tc) → Buf (Elt F) ((c : Thread nD τ).loc b) :=
  fun c b => W c b

/-- After the first region: its arrays at what the pipeline leaves (inputs as entered, each output's write-backs
    folded over all points), every other buffer as entered. -/
def W8 (c : Dev nD) : Valuation τ sig (Elt F) :=
  Pipeline.withArrays spec0 c (V7 m c) fun w => (dat0 (atTc (V7 m)) c).arrAt w cfg0.N

/-- The unknowns with only the first region's outputs chosen. -/
def outsA : Outs (F := F) := fun _ r c => W8 m c r

/-- After the second region, from the valuation the first region's outputs give. -/
def W16 (c : Dev nD) : Valuation τ sig (Elt F) :=
  Pipeline.withArrays spec1 c (V15 m (outsA m) c) fun w => (dat1 (atTc (V15 m (outsA m))) c).arrAt w cfg1.N

/-- The unknowns with the first two regions' outputs chosen. -/
def outsB : Outs (F := F) := fun J r c => match J with
  | 16 => W16 m c r
  | _ => W8 m c r

/-- After the third region, from the valuation the first two regions' outputs give. -/
def W18 (c : Dev nD) : Valuation τ sig (Elt F) :=
  Pipeline.withArrays spec2 c (V17 m (outsB m) c) fun w => (dat2 (atTc (V17 m (outsB m))) c).arrAt w cfg2.N

/-- What every region leaves in the buffers it may change. -/
def outsK : Outs (F := F) := fun J r c => match J with
  | 16 => W16 m c r
  | 18 => W18 m c r
  | _ => W8 m c r

/-- The valuation before the second region reads only the first region's outputs. -/
theorem V15_K (c : Dev nD) : V15 m (outsK m) c = V15 m (outsA m) c := rfl
/-- The valuation before the third region reads only the first two regions' outputs. -/
theorem V17_K (c : Dev nD) : V17 m (outsK m) c = V17 m (outsB m) c := rfl

/-! ## The proof data and the thread state -/

/-- Every pipeline's proof data, each at the valuation its region is entered from. -/
def pdats : (p : Fin 3) → (c : Dev nD) → Dat τ (Elt F) Unit ℕ (UR sig nD τ) ℕ (Pipeline.pin (pcfgs (F := F)) adm p) c
  | ⟨0, _⟩ => fun c => dat0 (atTc (V7 m)) c
  | ⟨1, _⟩ => fun c => dat1 (atTc (V15 m (outsK m))) c
  | ⟨2, _⟩ => fun c => dat2 (atTc (V17 m (outsK m))) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
/-- The rest beside the buffers, the same between any two items. -/
abbrev E : Fin 4 → Dev nD → sProp 𝕄 := fun _ c => R (F := F) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What each region leaves, array by array -/

theorem W8_arr (c : Dev nD) (w : Fin cfg0.W) :
    W8 m c (Proc.devRef .tc (Pipeline.arrRef spec0 w)) = (dat0 (atTc (V7 m)) c).arrAt w cfg0.N := by
  unfold W8; exact Pipeline.withArrays_arr spec0 launch0.win.arr_inj c _ _ w
theorem W16_arr (c : Dev nD) (w : Fin cfg1.W) :
    W16 m c (Proc.devRef .tc (Pipeline.arrRef spec1 w)) = (dat1 (atTc (V15 m (outsA m))) c).arrAt w cfg1.N := by
  unfold W16; exact Pipeline.withArrays_arr spec1 launch1.win.arr_inj c _ _ w
theorem W18_arr (c : Dev nD) (w : Fin cfg2.W) :
    W18 m c (Proc.devRef .tc (Pipeline.arrRef spec2 w)) = (dat2 (atTc (V17 m (outsB m))) c).arrAt w cfg2.N := by
  unfold W18; exact Pipeline.withArrays_arr spec2 launch2.win.arr_inj c _ _ w

theorem outs8_v21_0 (c : Dev nD) : outsK m 8 main_v21_0 c = (dat0 (atTc (V7 m)) c).arrAt 5 cfg0.N := W8_arr m c 5
theorem outs8_v21_1 (c : Dev nD) : outsK m 8 main_v21_1 c = (dat0 (atTc (V7 m)) c).arrAt 6 cfg0.N := W8_arr m c 6
theorem outs16_v43_0 (c : Dev nD) : outsK m 16 main_v43_0 c = (dat1 (atTc (V15 m (outsK m))) c).arrAt 5 cfg1.N := W16_arr m c 5
theorem outs16_v43_1 (c : Dev nD) : outsK m 16 main_v43_1 c = (dat1 (atTc (V15 m (outsK m))) c).arrAt 6 cfg1.N := W16_arr m c 6
theorem outs18_v46 (c : Dev nD) : outsK m 18 main_v46 c = (dat2 (atTc (V17 m (outsK m))) c).arrAt 2 cfg2.N := W18_arr m c 2

/-- Every window of region 0 whose array is neither output array is an input window. -/
theorem in0 : ∀ w : Fin cfg0.W, Pipeline.arrRef spec0 w ≠ main_v21_0 → Pipeline.arrRef spec0 w ≠ main_v21_1 → (cfg0.win w).isOut = false := by decide

/-- At region 0's exit each of its arrays holds what the pipeline leaves: an input array is never written and the
    updates are made elsewhere; an output array is the update made at it. -/
theorem hF0 (c : Dev nD) (w : Fin cfg0.W) :
    (dat0 (atTc (V7 m)) c).arrAt w cfg0.N = atTc (V8 m (outsK m)) c (Pipeline.arrRef spec0 w) := by
  by_cases h0 : Pipeline.arrRef spec0 w = main_v21_0
  · obtain rfl : w = 5 := launch0.win.arr_inj h0
    refine (outs8_v21_0 m c).symm.trans ?_
    show _ = V8 m (outsK m) c (Proc.devRef .tc main_v21_0)
    simp only [V8, Function.update_of_ne (StableHlo.devRef_ne_of_ne (by decide) : (Proc.devRef .tc main_v21_0 : DevRef τ sig) ≠ Proc.devRef .tc main_v21_1), Function.update_self]
  · by_cases h1 : Pipeline.arrRef spec0 w = main_v21_1
    · obtain rfl : w = 6 := launch0.win.arr_inj h1
      refine (outs8_v21_1 m c).symm.trans ?_
      show _ = V8 m (outsK m) c (Proc.devRef .tc main_v21_1)
      simp only [V8, Function.update_self]
    · exact ((dat0 (atTc (V7 m)) c).arrAt_in w (in0 w h0 h1) _).trans
        (V8_of m (outsK m) c (Pipeline.arrRef spec0 w) (by
          simp only [List.mem_cons, List.not_mem_nil, or_false, not_or]; exact ⟨h0, h1⟩)).symm
/-- and every other buffer what it held at entry. -/
theorem hrest0 (c : Dev nD) : ∀ b, b ∉ Finset.univ.image (Pipeline.arrRef spec0) → atTc (V8 m (outsK m)) c b = atTc (V7 m) c b :=
  fun b hb => V8_of m (outsK m) c b (by
    simp only [List.mem_cons, List.not_mem_nil, or_false, not_or]
    exact ⟨fun e => hb (Finset.mem_image.mpr ⟨5, Finset.mem_univ _, e.symm⟩), fun e => hb (Finset.mem_image.mpr ⟨6, Finset.mem_univ _, e.symm⟩)⟩)

/-- Every window of region 1 whose array is neither output array is an input window. -/
theorem in1 : ∀ w : Fin cfg1.W, Pipeline.arrRef spec1 w ≠ main_v43_0 → Pipeline.arrRef spec1 w ≠ main_v43_1 → (cfg1.win w).isOut = false := by decide

/-- At region 1's exit each of its arrays holds what the pipeline leaves: an input array is never written and the
    updates are made elsewhere; an output array is the update made at it. -/
theorem hF1 (c : Dev nD) (w : Fin cfg1.W) :
    (dat1 (atTc (V15 m (outsK m))) c).arrAt w cfg1.N = atTc (V16 m (outsK m)) c (Pipeline.arrRef spec1 w) := by
  by_cases h0 : Pipeline.arrRef spec1 w = main_v43_0
  · obtain rfl : w = 5 := launch1.win.arr_inj h0
    refine (outs16_v43_0 m c).symm.trans ?_
    show _ = V16 m (outsK m) c (Proc.devRef .tc main_v43_0)
    simp only [V16, Function.update_of_ne (StableHlo.devRef_ne_of_ne (by decide) : (Proc.devRef .tc main_v43_0 : DevRef τ sig) ≠ Proc.devRef .tc main_v43_1), Function.update_self]
  · by_cases h1 : Pipeline.arrRef spec1 w = main_v43_1
    · obtain rfl : w = 6 := launch1.win.arr_inj h1
      refine (outs16_v43_1 m c).symm.trans ?_
      show _ = V16 m (outsK m) c (Proc.devRef .tc main_v43_1)
      simp only [V16, Function.update_self]
    · exact ((dat1 (atTc (V15 m (outsK m))) c).arrAt_in w (in1 w h0 h1) _).trans
        (V16_of m (outsK m) c (Pipeline.arrRef spec1 w) (by
          simp only [List.mem_cons, List.not_mem_nil, or_false, not_or]; exact ⟨h0, h1⟩)).symm
/-- and every other buffer what it held at entry. -/
theorem hrest1 (c : Dev nD) : ∀ b, b ∉ Finset.univ.image (Pipeline.arrRef spec1) → atTc (V16 m (outsK m)) c b = atTc (V15 m (outsK m)) c b :=
  fun b hb => V16_of m (outsK m) c b (by
    simp only [List.mem_cons, List.not_mem_nil, or_false, not_or]
    exact ⟨fun e => hb (Finset.mem_image.mpr ⟨5, Finset.mem_univ _, e.symm⟩), fun e => hb (Finset.mem_image.mpr ⟨6, Finset.mem_univ _, e.symm⟩)⟩)

/-- Every window of region 2 whose array is not the output array is an input window. -/
theorem in2 : ∀ w : Fin cfg2.W, Pipeline.arrRef spec2 w ≠ main_v46 → (cfg2.win w).isOut = false := by decide

/-- At region 2's exit each of its arrays holds what the pipeline leaves: an input array is never written and the
    update is made elsewhere; the output array is the update made at it. -/
theorem hF2 (c : Dev nD) (w : Fin cfg2.W) :
    (dat2 (atTc (V17 m (outsK m))) c).arrAt w cfg2.N = atTc (V18 m (outsK m)) c (Pipeline.arrRef spec2 w) := by
  by_cases h0 : Pipeline.arrRef spec2 w = main_v46
  · obtain rfl : w = 2 := launch2.win.arr_inj h0
    refine (outs18_v46 m c).symm.trans ?_
    show _ = V18 m (outsK m) c (Proc.devRef .tc main_v46)
    simp only [V18, Function.update_self]
  · exact ((dat2 (atTc (V17 m (outsK m))) c).arrAt_in w (in2 w h0) _).trans
      (V18_of m (outsK m) c (Pipeline.arrRef spec2 w) (by
        simp only [List.mem_cons, List.not_mem_nil, or_false]; exact h0)).symm
/-- and every other buffer what it held at entry. -/
theorem hrest2 (c : Dev nD) : ∀ b, b ∉ Finset.univ.image (Pipeline.arrRef spec2) → atTc (V18 m (outsK m)) c b = atTc (V17 m (outsK m)) c b :=
  fun b hb => V18_of m (outsK m) c b (by
    simp only [List.mem_cons, List.not_mem_nil, or_false]
    exact fun e => hb (Finset.mem_image.mpr ⟨2, Finset.mem_univ _, e.symm⟩))

/-! ## The regions as items -/

set_option backward.isDefEq.respectTransparency.types false in
/-- Region 0 over the thread state: entered from every unscoped buffer at the valuation before it, left at the one
    after it. Its arrays are split out of the unscoped buffers at entry and put back at their final contents at exit;
    the generator register passes into the region's invariant and back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (V7 m)) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (atTc (V7 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V7 m) c) (atTc (V8 m (outsK m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the valuation before it, left at the one
    after it. Its arrays are split out of the unscoped buffers at entry and put back at their final contents at exit;
    the generator register passes into the region's invariant and back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (V15 m (outsK m))) c).loose
  hwaits := Pipeline.hwaits_of_owed_zero _ _ _ _ L lv 1 fun _ _ => rfl
  pre c := iprop(StableHlo.held (c : Thread nD τ) (Pipeline.ucRefs τ sig) (V15 m (outsK m) c) ∗ R c)
  post c := iprop(StableHlo.held (c : Thread nD τ) (Pipeline.ucRefs τ sig) (V16 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (atTc (V15 m (outsK m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V15 m (outsK m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V15 m (outsK m)) c) (atTc (V16 m (outsK m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the valuation before it, left at the one
    after it. Its arrays are split out of the unscoped buffers at entry and put back at their final contents at exit;
    the generator register passes into the region's invariant and back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (V17 m (outsK m))) c).loose
  hwaits := Pipeline.hwaits_of_owed_zero _ _ _ _ L lv 2 fun _ _ => rfl
  pre c := iprop(StableHlo.held (c : Thread nD τ) (Pipeline.ucRefs τ sig) (V17 m (outsK m) c) ∗ R c)
  post c := iprop(StableHlo.held (c : Thread nD τ) (Pipeline.ucRefs τ sig) (V18 m (outsK m) c) ∗ R c)
  X c := iprop(∃ r, prngReg c r)
  Y c := iprop(∃ r, prngReg c r)
  Z c := Pipeline.unscopedRest (Ix := Unit) (Name := ℕ) (U := UR sig nD τ) (Lvl := ℕ) spec2 c (atTc (V17 m (outsK m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V17 m (outsK m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V17 m (outsK m)) c) (atTc (V18 m (outsK m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the list of its items, and the launch -/

/-- The last thread state without the core owing nothing: every unscoped buffer at the last valuation, the
    generator register at some state. -/
abbrev Tₙ (c : Dev nD) : sProp 𝕄 := iprop(StableHlo.held (c : Thread nD τ) (Pipeline.ucRefs τ sig) (V19 m (outsK m) c) ∗ ∃ r, prngReg c r)

set_option backward.isDefEq.respectTransparency.types false in
/-- THE RUN. From any memory with zero counters, every weakly fair execution of @main on the TensorCore terminates,
    and every final memory holds each unscoped buffer at the last valuation: the host stretches chained with the
    three regions, the launch's first thread state made from what the launch deals, the last one read against the
    final state. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V19 m (outsK m) c b) := by
  refine Pipeline.θ_run_regions_kit_dev (pcfgs (F := F)) adm (pdats m) () cellOf_inj emb₁ defs₀ 𝒱₀ L lv m ρ main
    (segs m (outsK m) 𝒱₀ L lv E () (pdats m) (reg0 m) (reg1 m) (reg2 m))
    (fun c Q => by
      rewrite [main_chain c, Seg.run_eq_chain,
        show (segs m (outsK m) 𝒱₀ L lv E () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl, .rfl, .rfl, .rfl, .rfl, .rfl, .rfl,
      show iprop(StableHlo.held (c : Thread nD τ) (Pipeline.ucRefs τ sig) (V19 m (outsK m) c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V19 m (outsK m) c b)
    (hfin := fun c s' => by
      iintro ⟨⟨Hh, -⟩, HSI⟩
      unfold StableHlo.held
      imodintro
      iapply (pointsTo_read_all (Pipeline.ucRefs τ sig) (fun b => (((c : Thread nD τ)).1, b)) (V19 m (outsK m) c) s')
      isplitl [Hh] <;> iassumption)
    (hQ := fun s h => h)

/-- THE FRAME: every argument array ends holding its launch contents — no host stretch writes an argument and no
    region may change one, so the last valuation at an argument walks back to the launch memory. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (V19_main_arg0 m (outsK m) c),
     (h c _ (mem_uc main_arg1 (by decide))).trans (V19_main_arg1 m (outsK m) c),
     (h c _ (mem_uc main_arg2 (by decide))).trans (V19_main_arg2 m (outsK m) c),
     (h c _ (mem_uc main_arg3 (by decide))).trans (V19_main_arg3 m (outsK m) c),
     (h c _ (mem_uc main_arg4 (by decide))).trans (V19_main_arg4 m (outsK m) c),
     (h c _ (mem_uc main_arg5 (by decide))).trans (V19_main_arg5 m (outsK m) c)⟩) (run_all m ρ)

end Cert.KernelIdeal.Frm

end
-- ==== Proof.Spec.lean ====
/-
  The mathematics both programs compute, on the extended reals, index by index.

  A quantized linear layer with weights W (one row per output channel), bias b and activation scale a:
  the row scale is wsf o = (max_k |W o k|) / 127, the integer weights are wint o k = clip(round(W o k / wsf o)),
  the integer bias is bint o = round(b o / (wsf o · a)), and the layer maps an activation array X to
  lin X r o = (Σ_k X r k · wint o k + bint o) · (wsf o · a).
  A tensor's quantization scale is sfOf Y = (max_{r,o} |Y r o|) / 127 and quant v s = clip(round(v / s)).

  The network: hid = relu(lin (x / a)), s₁ = sfOf hid, then the second layer on the integers quant hid s₁
  (the kernel: yK) or on the requantized tensor divided by its scale again, (quant hid s₁ · s₁) / s₁ (the
  reference: yR); the result is outOf y = quant y (sfOf y) · sfOf y together with sfOf y.
-/
import Idealize.ShloMosaic.PureOps.Ideal
import Idealize.ShloMosaic.PureOps.Ideal.Laws
import Mathlib.Data.Finset.Lattice.Fold

noncomputable section

namespace Cert.Spec

open Idealize.ShloMosaic

/-- 127, as the float pattern both programs print. -/
abbrev c127 : EReal := Ideal.ofBits .f32 0x42FE0000#32
/-- -128, as the float pattern the kernel prints. -/
abbrev cm128 : EReal := Ideal.ofBits .f32 0xC3000000#32
/-- 0, as the float pattern both programs print. -/
abbrev zero32 : EReal := Ideal.ofBits .f32 0x00000000#32
/-- -∞, as the float pattern both programs print. -/
abbrev ninf32 : EReal := Ideal.ofBits .f32 0xFF800000#32

/-- Round to nearest, ties to even. -/
def rne (z : EReal) : EReal := Ideal.liftRound Ideal.roundHalfEven z
/-- Clamp into [-128, 127]. -/
def clip (z : EReal) : EReal := min c127 (max cm128 z)
/-- The absolute value. -/
def absE (z : EReal) : EReal := max z (-z)
/-- Quantize `v` at scale `s`. -/
def quant (v s : EReal) : EReal := clip (rne (Ideal.div v s))

section Layer

variable {O K R : ℕ}

/-- The scale of weight row `o`. -/
def wsf (W : Fin O → Fin K → EReal) (o : Fin O) : EReal :=
  Ideal.div (Finset.univ.sup fun k : Fin K => absE (W o k)) c127

/-- The integer weights. -/
def wint (W : Fin O → Fin K → EReal) (o : Fin O) (k : Fin K) : EReal := quant (W o k) (wsf W o)

/-- The output scale of channel `o` at activation scale `a`. -/
def wscale (W : Fin O → Fin K → EReal) (a : EReal) (o : Fin O) : EReal := wsf W o * a

/-- The integer bias of channel `o` at activation scale `a`. -/
def bint (W : Fin O → Fin K → EReal) (b : Fin O → EReal) (a : EReal) (o : Fin O) : EReal :=
  rne (Ideal.div (b o) (wsf W o * a))

/-- The quantized linear layer on the activation array `X`. -/
def lin (X : Fin R → Fin K → EReal) (W : Fin O → Fin K → EReal) (b : Fin O → EReal) (a : EReal) (r : Fin R) (o : Fin O) : EReal :=
  ((∑ k : Fin K, X r k * wint W o k) + bint W b a o) * wscale W a o

/-- The largest absolute value of an array. -/
def supAbs (Y : Fin R → Fin O → EReal) : EReal := Finset.univ.sup fun p : Fin R × Fin O => absE (Y p.1 p.2)

/-- The quantization scale of an array. -/
def sfOf (Y : Fin R → Fin O → EReal) : EReal := Ideal.div (supAbs Y) c127

/-- The array requantized at its own scale. -/
def outOf (Y : Fin R → Fin O → EReal) (r : Fin R) (o : Fin O) : EReal := quant (Y r o) (sfOf Y) * sfOf Y

end Layer

section Net

variable (x : Fin 50176 → Fin 384 → EReal) (W1 : Fin 1536 → Fin 384 → EReal) (b1 : Fin 1536 → EReal)
  (W2 : Fin 384 → Fin 1536 → EReal) (b2 : Fin 384 → EReal) (a : EReal)

/-- The hidden activations: the first layer on x / a, then relu. -/
def hid (r : Fin 50176) (o : Fin 1536) : EReal :=
  max (lin (fun r k => Ideal.div (x r k) a) W1 b1 a r o) zero32

/-- The hidden activations' quantization scale. -/
def s1 : EReal := sfOf (hid x W1 b1 a)

/-- The second layer as the kernel computes it: on the integers `quant hid s₁`. -/
def yK (r : Fin 50176) (o : Fin 384) : EReal :=
  lin (fun r k => quant (hid x W1 b1 a r k) (s1 x W1 b1 a)) W2 b2 (s1 x W1 b1 a) r o

/-- The second layer as the reference computes it: on the requantized activations divided by their scale. -/
def yR (r : Fin 50176) (o : Fin 384) : EReal :=
  lin (fun r k => Ideal.div (quant (hid x W1 b1 a r k) (s1 x W1 b1 a) * s1 x W1 b1 a) (s1 x W1 b1 a)) W2 b2 (s1 x W1 b1 a) r o

end Net

end Cert.Spec

end
-- ==== Proof.LibBands.lean ====
/-
  Extrema of a function on `Fin N` taken band by band.

  For `f : Fin N → α` and a band width `b`: the infimum of `f` over the indices below `(k + 1) * b` is the infimum
  over the indices below `k * b` combined with the infimum over the `b` indices `k * b, …, k * b + b - 1` of band
  `k`; below `0` it is `⊤`, below `N` it is the infimum over all indices. The same for suprema from `⊥`.
  And a fold of `min` from `⊤` (of `max` from `⊥`) over a finite set is that set's infimum (supremum), so a
  reduction printed as such a fold can be compared by its universal property instead of its order of evaluation.
-/
import Mathlib.Data.Finset.Fold
import Mathlib.Data.Finset.Lattice.Fold
import Mathlib.Data.Fintype.Basic
import Mathlib.Order.Fin.Basic

namespace Cert.LibBands

variable {α : Type} {ι : Type}

/-! ## A fold of `min` / `max` is an infimum / supremum -/

/-- The fold of `min` from the top element over a finite set is the set's infimum. -/
theorem fold_min_eq_inf [LinearOrder α] [OrderTop α] (s : Finset ι) (f : ι → α) :
    s.fold min ⊤ f = s.inf f := by
  classical
  induction s using Finset.induction_on with
  | empty => rw [Finset.fold_empty, Finset.inf_empty]
  | insert a s ha ih => rw [Finset.fold_insert ha, Finset.inf_insert, ih]

/-- The fold of `max` from the bottom element over a finite set is the set's supremum. -/
theorem fold_max_eq_sup [LinearOrder α] [OrderBot α] (s : Finset ι) (f : ι → α) :
    s.fold max ⊥ f = s.sup f := by
  classical
  induction s using Finset.induction_on with
  | empty => rw [Finset.fold_empty, Finset.sup_empty]
  | insert a s ha ih => rw [Finset.fold_insert ha, Finset.sup_insert, ih]

/-! ## The indices below a bound, and one band of them -/

variable {N : ℕ}

/-- The indices of `Fin N` whose value is below `m`. -/
def below (N m : ℕ) : Finset (Fin N) := Finset.univ.filter fun j => j.val < m

theorem mem_below {m : ℕ} (j : Fin N) : j ∈ below N m ↔ j.val < m := by
  unfold below; rw [Finset.mem_filter]; exact and_iff_right (Finset.mem_univ _)

/-- No index is below zero. -/
theorem below_zero : below N 0 = ∅ := by
  ext j; rw [mem_below]; exact iff_of_false (Nat.not_lt_zero _) (Finset.notMem_empty _)

/-- Every index is below the extent. -/
theorem below_self : below N N = Finset.univ := by
  ext j; rw [mem_below]; exact iff_of_true j.isLt (Finset.mem_univ _)

/-- Index `k * b + q` of band `k`, when band `k` lies inside `Fin N`. -/
def bandIdx (b k : ℕ) (h : (k + 1) * b ≤ N) (q : Fin b) : Fin N :=
  ⟨k * b + q.val, by have := q.isLt; have e : (k + 1) * b = k * b + b := Nat.succ_mul k b; omega⟩

theorem bandIdx_val (b k : ℕ) (h : (k + 1) * b ≤ N) (q : Fin b) : (bandIdx b k h q).val = k * b + q.val := rfl

/-! ## Infima band by band -/

/-- The infimum over the indices below `(k + 1) * b` is the one below `k * b` met with the one over band `k`. -/
theorem inf_below_succ [SemilatticeInf α] [OrderTop α] (f : Fin N → α) (b k : ℕ) (h : (k + 1) * b ≤ N) :
    (below N ((k + 1) * b)).inf f = (below N (k * b)).inf f ⊓ Finset.univ.inf fun q : Fin b => f (bandIdx b k h q) := by
  have e : (k + 1) * b = k * b + b := Nat.succ_mul k b
  apply le_antisymm
  · refine le_inf (Finset.le_inf fun j hj => Finset.inf_le ?_) (Finset.le_inf fun q _ => Finset.inf_le ?_)
    · rw [mem_below] at hj ⊢; omega
    · rw [mem_below, bandIdx_val]; have := q.isLt; omega
  · refine Finset.le_inf fun j hj => ?_
    rw [mem_below] at hj
    by_cases hlt : j.val < k * b
    · exact inf_le_left.trans (Finset.inf_le ((mem_below j).2 hlt))
    · have hq : j.val - k * b < b := by omega
      refine inf_le_right.trans ((Finset.inf_le (Finset.mem_univ (⟨j.val - k * b, hq⟩ : Fin b))).trans (le_of_eq ?_))
      exact congrArg f (Fin.ext (by rw [bandIdx_val]; show k * b + (j.val - k * b) = j.val; omega))

/-- The supremum over the indices below `(k + 1) * b` is the one below `k * b` joined with the one over band `k`. -/
theorem sup_below_succ [SemilatticeSup α] [OrderBot α] (f : Fin N → α) (b k : ℕ) (h : (k + 1) * b ≤ N) :
    (below N ((k + 1) * b)).sup f = (below N (k * b)).sup f ⊔ Finset.univ.sup fun q : Fin b => f (bandIdx b k h q) := by
  have e : (k + 1) * b = k * b + b := Nat.succ_mul k b
  apply le_antisymm
  · refine Finset.sup_le fun j hj => ?_
    rw [mem_below] at hj
    by_cases hlt : j.val < k * b
    · exact (Finset.le_sup ((mem_below j).2 hlt)).trans le_sup_left
    · have hq : j.val - k * b < b := by omega
      refine le_trans (le_of_eq ?_) ((Finset.le_sup (Finset.mem_univ (⟨j.val - k * b, hq⟩ : Fin b))).trans le_sup_right)
      exact congrArg f (Fin.ext (by rw [bandIdx_val]; show j.val = k * b + (j.val - k * b); omega))
  · refine sup_le (Finset.sup_le fun j hj => Finset.le_sup ?_) (Finset.sup_le fun q _ => Finset.le_sup ?_)
    · rw [mem_below] at hj ⊢; omega
    · rw [mem_below, bandIdx_val]; have := q.isLt; omega

end Cert.LibBands
-- ==== Proof.SpecLemmas.lean ====
/-
  Laws of the quantization arithmetic on the extended reals.

  The four constants as the numbers their patterns denote; the absolute value and the scales are nonnegative;
  the key law: requantizing and dividing by the scale again returns the integers, (quant v s · s) / s = quant v s
  for a scale 0 ≤ s, s ≠ 0, so the second layer is one array whichever way its input is written; and the largest
  absolute value of an array taken band of rows by band of rows.
-/
import proofs.«110018_j17901423689856_1_alg».proof.Proof.Spec
import proofs.«110018_j17901423689856_1_alg».proof.Proof.LibBands
import Idealize.ShloMosaic.PureOps.Ideal
import Idealize.ShloMosaic.PureOps.Ideal.Laws
import Mathlib.Data.EReal.Basic
import Mathlib.Data.EReal.Operations
import Mathlib.Data.EReal.Inv
import Mathlib.Data.Finset.Lattice.Fold
import Mathlib.Data.Finset.Lattice.Prod

noncomputable section

namespace Cert.Spec

open Idealize.ShloMosaic

/-! ## The constants -/

/-- The pattern `0x42FE0000` denotes 127. -/
theorem c127_eq : c127 = ((127 : ℝ) : EReal) := by
  simp [Ideal.ofBits, Ideal.ieee, -EReal.coe_mul]; norm_num

/-- The pattern `0xC3000000` denotes -128. -/
theorem cm128_eq : cm128 = ((-128 : ℝ) : EReal) := by
  simp [Ideal.ofBits, Ideal.ieee, -EReal.coe_mul]; norm_num

/-- The pattern `0x00000000` denotes 0. -/
theorem zero32_eq : zero32 = 0 := Ideal.ofBits_zero_f32

/-- The pattern `0xFF800000` denotes -∞, the least extended real. -/
theorem ninf32_eq : ninf32 = ⊥ := by
  simp [Ideal.ofBits, Ideal.ieee]

/-! ## Signs -/

/-- An absolute value is nonnegative. -/
theorem absE_nonneg (z : EReal) : 0 ≤ absE z := by
  unfold absE
  rcases le_total 0 z with h | h
  · exact le_max_of_le_left h
  · exact le_max_of_le_right (EReal.neg_nonneg.2 h)

/-- The largest absolute value of an array with an entry is nonnegative. -/
theorem supAbs_nonneg {R O : ℕ} (Y : Fin R → Fin O → EReal) (r₀ : Fin R) (o₀ : Fin O) : 0 ≤ supAbs Y :=
  (absE_nonneg (Y r₀ o₀)).trans
    (Finset.le_sup (f := fun p : Fin R × Fin O => absE (Y p.1 p.2)) (Finset.mem_univ (r₀, o₀)))

/-- Division by 127 is multiplication by the real 1/127. -/
theorem div_c127 (z : EReal) : Ideal.div z c127 = z * (((1 : ℝ) / 127 : ℝ) : EReal) := by
  rw [c127_eq]; exact Ideal.div_coe (by norm_num) z

/-- The quantization scale of an array with an entry is nonnegative. -/
theorem sfOf_nonneg {R O : ℕ} (Y : Fin R → Fin O → EReal) (r₀ : Fin R) (o₀ : Fin O) : 0 ≤ sfOf Y := by
  unfold sfOf
  rw [div_c127]
  exact EReal.mul_nonneg (supAbs_nonneg Y r₀ o₀) (by exact_mod_cast (by norm_num : (0 : ℝ) ≤ 1 / 127))

/-! ## The clamp is a real in [-128, 127] -/

theorem clip_le (z : EReal) : clip z ≤ ((127 : ℝ) : EReal) := by
  unfold clip; rw [c127_eq]; exact min_le_left _ _

theorem le_clip (z : EReal) : ((-128 : ℝ) : EReal) ≤ clip z := by
  unfold clip; rw [c127_eq, cm128_eq]
  exact le_min (by exact_mod_cast (by norm_num : (-128 : ℝ) ≤ 127)) (le_max_left _ _)

/-- A clamped value is a real number. -/
theorem clip_eq_coe (z : EReal) : ∃ q : ℝ, clip z = (q : EReal) := by
  refine ⟨(clip z).toReal, (EReal.coe_toReal ?_ ?_).symm⟩
  · exact ne_of_lt (lt_of_le_of_lt (clip_le z) (EReal.coe_lt_top _))
  · exact ne_of_gt (lt_of_lt_of_le (EReal.bot_lt_coe _) (le_clip z))

/-- Rounding fixes 0. -/
theorem rne_zero : rne 0 = 0 := by
  unfold rne
  rw [← EReal.coe_zero, Ideal.liftRound_coe]
  simp [Ideal.roundHalfEven]

/-- The clamp fixes 0. -/
theorem clip_zero : clip 0 = 0 := by
  unfold clip; rw [c127_eq, cm128_eq]
  rw [max_eq_right (by exact_mod_cast (by norm_num : (-128 : ℝ) ≤ 0)),
    min_eq_right (by exact_mod_cast (by norm_num : (0 : ℝ) ≤ 127))]

/-- Division by +∞ gives 0. -/
theorem div_top (z : EReal) : Ideal.div z ⊤ = 0 := by
  rw [Ideal.div, if_neg EReal.top_ne_zero, EReal.inv_top, mul_zero]

/-- At an infinite scale everything quantizes to 0. -/
theorem quant_top (v : EReal) : quant v ⊤ = 0 := by
  unfold quant; rw [div_top, rne_zero, clip_zero]

/-! ## The key law -/

/-- Requantizing at a scale `0 ≤ s`, `s ≠ 0`, and dividing by the scale again returns the integers:
    at `s = +∞` both sides are 0; at a positive real `s` the quantized value is a real in [-128, 127] and
    `(q · s) / s = q` is real arithmetic. -/
theorem div_quant_mul_cancel {v s : EReal} (hs0 : 0 ≤ s) (hs : s ≠ 0) :
    Ideal.div (quant v s * s) s = quant v s := by
  induction s with
  | bot => exact absurd hs0 (by simp)
  | top => rw [div_top, quant_top]
  | coe t =>
    have ht : t ≠ 0 := by intro h; exact hs (by rw [h, EReal.coe_zero])
    obtain ⟨q, hq⟩ := clip_eq_coe (rne (Ideal.div v (t : EReal)))
    have hq' : quant v (t : EReal) = (q : EReal) := hq
    rw [hq', Ideal.div_coe ht, ← EReal.coe_mul, ← EReal.coe_mul]
    congr 1
    field_simp

section Net

variable (x : Fin 50176 → Fin 384 → EReal) (W1 : Fin 1536 → Fin 384 → EReal) (b1 : Fin 1536 → EReal)
  (W2 : Fin 384 → Fin 1536 → EReal) (b2 : Fin 384 → EReal) (a : EReal)

/-- The hidden activations' scale is nonnegative. -/
theorem s1_nonneg : 0 ≤ s1 x W1 b1 a :=
  sfOf_nonneg (hid x W1 b1 a) ⟨0, by norm_num⟩ ⟨0, by norm_num⟩

/-- The second layer is one array whether it reads the integers or the requantized activations divided by
    their scale: at scale 0 both are 0 (the last factor of the layer is `wsf · 0 = 0`), otherwise the inputs agree
    entry by entry by the key law. -/
theorem yK_eq_yR : yK x W1 b1 W2 b2 a = yR x W1 b1 W2 b2 a := by
  funext r o
  by_cases hs : s1 x W1 b1 a = 0
  · unfold yK yR lin wscale
    rw [hs, mul_zero, mul_zero, mul_zero]
  · simp only [yK, yR, div_quant_mul_cancel (s1_nonneg x W1 b1 a) hs]

end Net

/-! ## The largest absolute value, band of rows by band of rows -/

/-- A fold of `max` from the pattern of -∞ over a finite set is the set's supremum. -/
theorem fold_max_ninf_eq_sup {ι : Type} (s : Finset ι) (f : ι → EReal) : s.fold max ninf32 f = s.sup f := by
  rw [ninf32_eq]; exact LibBands.fold_max_eq_sup s f

section Bands

variable {R nb b O : ℕ}

/-- The largest absolute value in row `r`. -/
def rowSupAbs (Y : Fin R → Fin O → EReal) (r : Fin R) : EReal := Finset.univ.sup fun o : Fin O => absE (Y r o)

/-- The largest absolute value of an array is the largest of its rows' largest absolute values. -/
theorem supAbs_eq_sup_rows (Y : Fin R → Fin O → EReal) : supAbs Y = Finset.univ.sup (rowSupAbs Y) := by
  unfold supAbs rowSupAbs
  rw [← Finset.univ_product_univ, Finset.sup_product_left]

/-- Band `k` of `nb` bands of `b` rows lies inside the `nb * b` rows. -/
theorem band_le {k : ℕ} (hk : k < nb) : (k + 1) * b ≤ nb * b := Nat.mul_le_mul_right b hk

/-- The largest absolute value over band `k`: over the rows `k * b + q`, `q < b`, and all columns. -/
def bandSupAbs (Y : Fin (nb * b) → Fin O → EReal) (k : Fin nb) : EReal :=
  Finset.univ.sup fun p : Fin b × Fin O => absE (Y (LibBands.bandIdx b k.val (band_le k.isLt) p.1) p.2)

/-- A band's largest absolute value is the largest of its rows' largest absolute values. -/
theorem bandSupAbs_eq_sup_rows (Y : Fin (nb * b) → Fin O → EReal) (k : Fin nb) :
    bandSupAbs Y k = Finset.univ.sup fun q : Fin b => rowSupAbs Y (LibBands.bandIdx b k.val (band_le k.isLt) q) := by
  unfold bandSupAbs rowSupAbs
  rw [← Finset.univ_product_univ, Finset.sup_product_left]

/-- The largest absolute value over the rows below `(k + 1) * b` is the one over the rows below `k * b` joined with
    band `k`'s. -/
theorem supBelow_succ (Y : Fin (nb * b) → Fin O → EReal) (k : ℕ) (hk : k < nb) :
    (LibBands.below (nb * b) ((k + 1) * b)).sup (rowSupAbs Y)
      = max ((LibBands.below (nb * b) (k * b)).sup (rowSupAbs Y)) (bandSupAbs Y ⟨k, hk⟩) := by
  rw [bandSupAbs_eq_sup_rows]
  exact LibBands.sup_below_succ (rowSupAbs Y) b k (band_le hk)

/-- A running maximum that starts at band 0's largest absolute value and joins band `k + 1`'s at step `k + 1`
    is, after step `k`, the largest absolute value over the rows below `(k + 1) * b`. -/
theorem running_max_eq_supBelow (Y : Fin (nb * b) → Fin O → EReal) (m : ℕ → EReal) (hnb : 0 < nb)
    (h0 : m 0 = bandSupAbs Y ⟨0, hnb⟩)
    (hstep : ∀ (k : ℕ) (hk : k + 1 < nb), m (k + 1) = max (m k) (bandSupAbs Y ⟨k + 1, hk⟩))
    (k : ℕ) (hk : k < nb) :
    m k = (LibBands.below (nb * b) ((k + 1) * b)).sup (rowSupAbs Y) := by
  induction k with
  | zero =>
    rw [h0, supBelow_succ Y 0 hk, Nat.zero_mul, LibBands.below_zero, Finset.sup_empty, max_eq_right bot_le]
  | succ k ih =>
    rw [hstep k hk, ih (Nat.lt_of_succ_lt hk), supBelow_succ Y (k + 1) hk]

/-- After the last band the running maximum is the array's largest absolute value. -/
theorem supAbs_rows (Y : Fin (nb * b) → Fin O → EReal) (m : ℕ → EReal) (hnb : 0 < nb)
    (h0 : m 0 = bandSupAbs Y ⟨0, hnb⟩)
    (hstep : ∀ (k : ℕ) (hk : k + 1 < nb), m (k + 1) = max (m k) (bandSupAbs Y ⟨k + 1, hk⟩)) :
    m (nb - 1) = supAbs Y := by
  rw [running_max_eq_supBelow Y m hnb h0 hstep (nb - 1) (Nat.sub_lt hnb Nat.one_pos), Nat.sub_add_cancel hnb,
    LibBands.below_self, supAbs_eq_sup_rows]

end Bands

end Cert.Spec

end
-- ==== Proof.Val0.lean ====
/-
  The first linear layer, read as values on the extended reals.

  The region handles the 50176 rows of the activations in 98 blocks of 512 rows. At a block it computes
  h = max ((x / a · Wᵀ + bias) · scale) 0 for its rows and the largest |h| of the block, and it keeps a running
  maximum of those: set at the first block, joined by max at every later one, written back after the last.
  This module reads what the region leaves in its two output arrays, index by index, as a function of the
  arrays it is entered with: the array of h is the closed form at every (row, channel), and the 1×1 array is
  the supremum of |h| over all rows and channels.
-/
import proofs.«110018_j17901423689856_1_alg».proof.Proof.KI.R0Defs
import proofs.«110018_j17901423689856_1_alg».proof.Proof.Spec
import proofs.«110018_j17901423689856_1_alg».proof.Proof.SpecLemmas
import proofs.«110018_j17901423689856_1_alg».proof.Proof.LibBands
import Idealize.ShloMosaic.Lib.ValueIdx
import Idealize.ShloMosaic.Lib.Pipeline.Value
import Idealize.ShloMosaic.Lib.ValueLayout
import Idealize.ShloMosaic.PureOps.Ideal.Laws
import Mathlib.Data.Finset.Lattice.Prod

set_option maxRecDepth 16384

noncomputable section

namespace Cert.KernelIdeal.Val0

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Frm

/-! ## The matrix product at an index

The product contracts the second axis of both operands: entry (p, q) is the sum over k of left (p, k) times
right (q, k). The four axis facts say which coordinate of the output index or of the contraction index each
operand coordinate is. -/

theorem lhs_dot0_0 (i : S512x1536.Idx) (q : dot_S512x384_S1536x384_S512x1536_1_1_0_0_n_n.contr.Idx) :
    (dot_S512x384_S1536x384_S512x1536_1_1_0_0_n_n.lhsIdx i q 0).val = (i 0).val := by
  unfold DotDims.lhsIdx
  rw [dif_neg (show ¬(0 : Fin S512x384.rank) ∈ dot_S512x384_S1536x384_S512x1536_1_1_0_0_n_n.lhsBatch by decide), dif_pos (show (0 : Fin S512x384.rank) ∈ dot_S512x384_S1536x384_S512x1536_1_1_0_0_n_n.lhsNonContracting by decide)]
  rfl
theorem lhs_dot0_1 (i : S512x1536.Idx) (q : dot_S512x384_S1536x384_S512x1536_1_1_0_0_n_n.contr.Idx) :
    (dot_S512x384_S1536x384_S512x1536_1_1_0_0_n_n.lhsIdx i q 1).val = (q ⟨0, by decide⟩).val :=
  dot_S512x384_S1536x384_S512x1536_1_1_0_0_n_n.lhsIdx_val_of_single rfl i q
theorem rhs_dot0_0 (i : S512x1536.Idx) (q : dot_S512x384_S1536x384_S512x1536_1_1_0_0_n_n.contr.Idx) :
    (dot_S512x384_S1536x384_S512x1536_1_1_0_0_n_n.rhsIdx i q 0).val = (i 1).val := by
  unfold DotDims.rhsIdx
  rw [dif_neg (show ¬(0 : Fin S1536x384.rank) ∈ dot_S512x384_S1536x384_S512x1536_1_1_0_0_n_n.rhsBatch by decide), dif_pos (show (0 : Fin S1536x384.rank) ∈ dot_S512x384_S1536x384_S512x1536_1_1_0_0_n_n.rhsNonContracting by decide)]
  rfl
theorem rhs_dot0_1 (i : S512x1536.Idx) (q : dot_S512x384_S1536x384_S512x1536_1_1_0_0_n_n.contr.Idx) :
    (dot_S512x384_S1536x384_S512x1536_1_1_0_0_n_n.rhsIdx i q 1).val = (q ⟨0, by decide⟩).val :=
  dot_S512x384_S1536x384_S512x1536_1_1_0_0_n_n.rhsIdx_val_of_single rfl i q

/-- The product into the zero accumulator, at (p, q): the sum over k of left (p, k) · right (q, k). -/
theorem matmul0_apply (l : FVec Ideal S512x384 .bf16) (r : FVec Ideal S1536x384 .bf16) (p : Fin 512) (q : Fin 1536) :
    matmul dot_S512x384_S1536x384_S512x1536_1_1_0_0_n_n none l r (constant (F := Ideal) S512x1536 .f32 0x00000000#32) (ix2 p q)
      = ∑ k : Fin 384, l (ix2 p k) * r (ix2 q k) := by
  simp only [matmul]
  rw [Ideal.matmul_constant_zero_apply, ← Equiv.sum_comp (ValueIdx.contrEquiv1 dot_S512x384_S1536x384_S512x1536_1_1_0_0_n_n 384 rfl rfl).symm]
  refine Finset.sum_congr rfl fun k _ => ?_
  have hk := ValueIdx.contrEquiv1_symm_val dot_S512x384_S1536x384_S512x1536_1_1_0_0_n_n 384 rfl rfl k
  have el : dot_S512x384_S1536x384_S512x1536_1_1_0_0_n_n.lhsIdx (ix2 p q) ((ValueIdx.contrEquiv1 dot_S512x384_S1536x384_S512x1536_1_1_0_0_n_n 384 rfl rfl).symm k) = ix2 p k := funext fun a => Fin.ext (by
    match a with
    | ⟨0, _⟩ => exact lhs_dot0_0 _ _
    | ⟨1, _⟩ => exact (lhs_dot0_1 _ _).trans hk)
  have er : dot_S512x384_S1536x384_S512x1536_1_1_0_0_n_n.rhsIdx (ix2 p q) ((ValueIdx.contrEquiv1 dot_S512x384_S1536x384_S512x1536_1_1_0_0_n_n 384 rfl rfl).symm k) = ix2 q k := funext fun a => Fin.ext (by
    match a with
    | ⟨0, _⟩ => exact rhs_dot0_0 _ _
    | ⟨1, _⟩ => exact (rhs_dot0_1 _ _).trans hk)
  rw [el, er]

/-! ## The block of h at an index -/

/-- A 1×1 array broadcast to 512 × 384 reads its one entry everywhere. -/
theorem broadcastTo_11_apply (v : S1x1.Idx → EReal) (h : S1x1.Broadcasts S512x384) (p : Fin 512) (k : Fin 384) :
    broadcastTo S512x384 v h (ix2 p k) = v (ix2 0 0) := by
  refine broadcastTo_apply v h (ix2 p k) (ix2 (0 : Fin 1) (0 : Fin 1)) fun ax => ?_
  match ax with
  | ⟨0, _⟩ => rfl
  | ⟨1, _⟩ => rfl

/-- The block of h at (p, q), from the blocks the body loads: the row block x of the activations, the 1×1
    activation scale a, the integer weights w, the bias row b and the scale row s. -/
theorem pay1_apply (x : FVec Ideal S512x384 .f32) (a : FVec Ideal S1x1 .f32) (w : FVec Ideal S1536x384 .bf16)
    (b s : FVec Ideal S1x1536 .f32) (p : Fin 512) (q : Fin 1536) :
    k0_pay1 (F := Ideal) x a w b s (ix2 p q)
      = max (((∑ k : Fin 384, Ideal.div (x (ix2 p k)) (a (ix2 0 0)) * w (ix2 q k)) + b (ix2 0 q)) * s (ix2 0 q)) Spec.zero32 := by
  unfold k0_pay1
  simp only [shapeCast_self]
  rw [maximumf_apply, mulf_apply, addf_apply, broadcast_apply, matmul0_apply,
    broadcastTo_1b_ab_apply, broadcastTo_1b_ab_apply]
  refine congrArg (fun z => max ((z + b (ix2 0 q)) * s (ix2 0 q)) Spec.zero32) ?_
  refine Finset.sum_congr rfl fun k _ => ?_
  rw [truncf_apply, divf_apply, broadcastTo_11_apply]

/-! ## The blocks the body loads, as entries of the arrays the region is entered with -/

variable (V : (c : Dev nD) → (b : Ref sig .tc) → Buf (Elt Ideal) ((c : Thread nD τ).loc b))

/-- The printed index maps over the grid: the activations' and the output's block index is the point on the
    row axis and 0 on the other; every other window's block is its whole array. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The arrays the region is entered with, at their literal shapes. -/
abbrev xArr (c : Dev nD) : FVec Ideal S50176x384 .f32 := V c main_v0
abbrev aArr (c : Dev nD) : FVec Ideal S1x1 .f32 := V c main_v1
abbrev wArr (c : Dev nD) : FVec Ideal S1536x384 .bf16 := V c main_v12
abbrev bArr (c : Dev nD) : FVec Ideal S1x1536 .f32 := V c main_v20
abbrev sArr (c : Dev nD) : FVec Ideal S1x1536 .f32 := V c main_v15

/-- Row p of the block of point t is row t · 512 + p of the array. -/
abbrev rowOf (t : Fin cfg0.N) (p : Fin 512) : Fin 50176 :=
  ⟨t.val * 512 + p.val, by have := t.isLt; have hN : cfg0.N = 98 := N_0; have := p.isLt; omega⟩

/-- The activations' block at point t is rows t · 512 … t · 512 + 511 of the activations. -/
theorem xblk_apply (c : Dev nD) (t : Fin cfg0.N) (p : Fin 512) (k : Fin 384) :
    (iblk0 V c 0 t : FVec Ideal S512x384 .f32) (ix2 p k) = xArr V c (ix2 (rowOf t p) k) := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 384 + 1 * k.val = k.val; rw [e1]; omega

/-- The activation scale's block is the 1×1 array. -/
theorem ablk_apply (c : Dev nD) (t : Fin cfg0.N) :
    (iblk0 V c 1 t : FVec Ideal S1x1 .f32) (ix2 0 0) = aArr V c (ix2 0 0) := by
  obtain ⟨-, -, e0, e1, -⟩ := idx_facts0 t
  unfold iblk0
  rw [View.read_apply]
  show V c main_v1 _ = V c main_v1 _
  congr 1
  funext a
  apply Fin.ext
  match a with
  | ⟨0, _⟩ => show win0_1.index t (0 : Fin 2) * 1 + 1 * 0 = 0; rw [e0]
  | ⟨1, _⟩ => show win0_1.index t (1 : Fin 2) * 1 + 1 * 0 = 0; rw [e1]

/-- The weights' block is the whole matrix. -/
theorem wblk_apply (c : Dev nD) (t : Fin cfg0.N) (q : Fin 1536) (k : Fin 384) :
    (iblk0 V c 2 t : FVec Ideal S1536x384 .bf16) (ix2 q k) = wArr V c (ix2 q k) := by
  obtain ⟨-, -, -, -, e0, e1, -⟩ := idx_facts0 t
  unfold iblk0
  rw [View.read_apply]
  show V c main_v12 _ = V c main_v12 _
  congr 1
  funext a
  apply Fin.ext
  match a with
  | ⟨0, _⟩ => show win0_2.index t (0 : Fin 2) * 1536 + 1 * q.val = q.val; rw [e0]; omega
  | ⟨1, _⟩ => show win0_2.index t (1 : Fin 2) * 384 + 1 * k.val = k.val; rw [e1]; omega

/-- The bias row's block is the whole row. -/
theorem bblk_apply (c : Dev nD) (t : Fin cfg0.N) (q : Fin 1536) :
    (iblk0 V c 3 t : FVec Ideal S1x1536 .f32) (ix2 0 q) = bArr V c (ix2 0 q) := by
  obtain ⟨-, -, -, -, -, -, e0, e1, -⟩ := idx_facts0 t
  unfold iblk0
  rw [View.read_apply]
  show V c main_v20 _ = V c main_v20 _
  congr 1
  funext a
  apply Fin.ext
  match a with
  | ⟨0, _⟩ => show win0_3.index t (0 : Fin 2) * 1 + 1 * 0 = 0; rw [e0]
  | ⟨1, _⟩ => show win0_3.index t (1 : Fin 2) * 1536 + 1 * q.val = q.val; rw [e1]; omega

/-- The scale row's block is the whole row. -/
theorem sblk_apply (c : Dev nD) (t : Fin cfg0.N) (q : Fin 1536) :
    (iblk0 V c 4 t : FVec Ideal S1x1536 .f32) (ix2 0 q) = sArr V c (ix2 0 q) := by
  obtain ⟨-, -, -, -, -, -, -, -, e0, e1, -⟩ := idx_facts0 t
  unfold iblk0
  rw [View.read_apply]
  show V c main_v15 _ = V c main_v15 _
  congr 1
  funext a
  apply Fin.ext
  match a with
  | ⟨0, _⟩ => show win0_4.index t (0 : Fin 2) * 1 + 1 * 0 = 0; rw [e0]
  | ⟨1, _⟩ => show win0_4.index t (1 : Fin 2) * 1536 + 1 * q.val = q.val; rw [e1]; omega

/-! ## The array of h -/

/-- h at row r and channel o: max ((Σ_k x r k / a · w o k + bias o) · scale o) 0. -/
def hAt (c : Dev nD) (r : Fin 50176) (o : Fin 1536) : EReal :=
  max (((∑ k : Fin 384, Ideal.div (xArr V c (ix2 r k)) (aArr V c (ix2 0 0)) * wArr V c (ix2 o k)) + bArr V c (ix2 0 o))
    * sArr V c (ix2 0 o)) Spec.zero32

/-- The array of h. -/
def hArr (c : Dev nD) : S50176x1536.Idx → EReal := fun i =>
  hAt V c ⟨(i 0).val, idx2_lt0 i⟩ ⟨(i 1).val, idx2_lt1 i⟩

theorem hArr_ix2 (c : Dev nD) (r : Fin 50176) (o : Fin 1536) : hArr V c (ix2 r o) = hAt V c r o := rfl

/-- The block of h the body stores at point t is rows t · 512 … t · 512 + 511 of the array of h. -/
theorem hblk0_apply (c : Dev nD) (t : Fin cfg0.N) (p : Fin 512) (q : Fin 1536) :
    (hblk0 V c t : FVec Ideal S512x1536 .f32) (ix2 p q) = hAt V c (rowOf t p) q := by
  unfold hblk0
  refine (pay1_apply (iblk0 V c 0 t) (iblk0 V c 1 t) (iblk0 V c 2 t) (iblk0 V c 3 t) (iblk0 V c 4 t) p q).trans ?_
  unfold hAt
  rw [ablk_apply V c t, bblk_apply V c t q, sblk_apply V c t q]
  refine congrArg (fun z => max ((z + bArr V c (ix2 0 q)) * sArr V c (ix2 0 q)) Spec.zero32) ?_
  refine Finset.sum_congr rfl fun k _ => ?_
  rw [xblk_apply V c t p k, wblk_apply V c t q k]

/-- What point t writes back is block t of the array of h. -/
theorem flushed5_eq (c : Dev nD) (t : Fin cfg0.N) :
    (dat0 V c).flushed 5 t = ((cfg0.win 5).blk t).view.read (Elt Ideal) (hArr V c) := by
  show (cfg0.win 5).cut (grid0.coords t) ((dat0 V c).after 5 t) = _
  rw [after0_5]
  obtain ⟨-, -, -, -, -, -, -, -, -, -, e0, e1⟩ := idx_facts0 t
  funext j
  obtain ⟨p, q, rfl⟩ : ∃ (p : Fin 512) (q : Fin 1536), j = ix2 p q := ⟨j 0, j 1, eq_ix2 j⟩
  show (hblk0 V c t : FVec Ideal S512x1536 .f32) (ix2 p q) = hArr V c (((cfg0.win 5).blk t).view.emb (ix2 p q))
  have he : ((cfg0.win 5).blk t).view.emb (ix2 p q) = ix2 (rowOf t p) q := by
    funext a
    apply Fin.ext
    match a with
    | ⟨0, _⟩ => show win0_5.index t (0 : Fin 2) * 512 + 1 * p.val = t.val * 512 + p.val; rw [e0]; omega
    | ⟨1, _⟩ => show win0_5.index t (1 : Fin 2) * 1536 + 1 * q.val = q.val; rw [e1]; omega
  exact ((hblk0_apply V c t p q).trans (hArr_ix2 V c (rowOf t p) q).symm).trans (congrArg (hArr V c) he).symm

/-- An index of the array is in point t's block iff each coordinate is in the block's range on its axis. -/
theorem mem_blk5 (t : Fin cfg0.N) (i : S50176x1536.Idx) :
    i ∈ ((cfg0.win 5).blk t).view.set ↔ ∀ a : Fin 2, win0_5.index t a * S512x1536.size a ≤ (i a).val ∧ (i a).val < win0_5.index t a * S512x1536.size a + S512x1536.size a := by
  show i ∈ ((View.whole main_v21_0).slice (win0_5.rect t)).set ↔ _
  rw [View.set_slice_whole, Rect.mem_set_unit]
  exact Iff.rfl

/-- The 98 blocks of 512 rows tile the array: row r is in the block of point r / 512. -/
theorem cover5 (i : S50176x1536.Idx) :
    ∃ t : Fin cfg0.N, (cfg0.win 5).flush t = true ∧ i ∈ ((cfg0.win 5).blk t).view.set := by
  have hN : cfg0.N = 98 := N_0
  have hi0 : (i 0).val < 50176 := (i 0).isLt
  have hi1 : (i 1).val < 1536 := (i 1).isLt
  refine ⟨⟨(i 0).val / 512, by rw [hN]; omega⟩, flush0_5 _, ?_⟩
  rw [mem_blk5]
  obtain ⟨-, -, -, -, -, -, -, -, -, -, e0, e1⟩ := idx_facts0 ⟨(i 0).val / 512, by rw [hN]; omega⟩
  intro a
  match a with
  | ⟨0, _⟩ =>
    show win0_5.index _ (0 : Fin 2) * 512 ≤ (i 0).val ∧ (i 0).val < win0_5.index _ (0 : Fin 2) * 512 + 512
    rw [e0]; dsimp only; omega
  | ⟨1, _⟩ =>
    show win0_5.index _ (1 : Fin 2) * 1536 ≤ (i 1).val ∧ (i 1).val < win0_5.index _ (1 : Fin 2) * 1536 + 1536
    rw [e1]; omega

/-- After the region the array of window 5 is the array of h. -/
theorem arr5_eq (c : Dev nD) : (dat0 V c).arrAt 5 cfg0.N = hArr V c :=
  (dat0 V c).arrAt_eq_of_cover 5 (hArr V c) (fun t _ => flushed5_eq V c t) cover5

/-- The region's first output, index by index: h at row r and channel o. -/
theorem region0_h (c : Dev nD) (r : Fin 50176) (o : Fin 1536) :
    ((dat0 V c).arrAt 5 cfg0.N : S50176x1536.Idx → EReal) (ix2 r o)
      = max (((∑ k : Fin 384, Ideal.div ((V c main_v0 : S50176x384.Idx → EReal) (ix2 r k)) ((V c main_v1 : S1x1.Idx → EReal) (ix2 0 0))
            * (V c main_v12 : S1536x384.Idx → EReal) (ix2 o k)) + (V c main_v20 : S1x1536.Idx → EReal) (ix2 0 o))
          * (V c main_v15 : S1x1536.Idx → EReal) (ix2 0 o)) Spec.zero32 := by
  rw [arr5_eq]
  rfl

/-- The same by blocks: rows t · 512 … t · 512 + 511 of the first output are the block of h stored at point t. -/
theorem arr5_block (c : Dev nD) (t : Fin cfg0.N) (p : Fin 512) (q : Fin 1536) :
    ((dat0 V c).arrAt 5 cfg0.N : S50176x1536.Idx → EReal) (ix2 (rowOf t p) q)
      = (hblk0 V c t : FVec Ideal S512x1536 .f32) (ix2 p q) := by
  rw [arr5_eq, hblk0_apply]
  rfl

end Cert.KernelIdeal.Val0

end
-- ==== Proof.Val0Tile.lean ====
/-
  The largest |h| of one block of 512 rows, and the running maximum's step.

  The body takes |h| entry by entry, reduces each row by max from -∞, views the 512 row maxima as a column,
  reduces the column by max from -∞, and views the one result as a 1×1 array. A fold of max from -∞ over a
  finite set is that set's supremum, so the 1×1 array holds the supremum of |h| over the block's rows and
  channels. At every block but the first the running maximum is joined with it by max.
-/
import proofs.«110018_j17901423689856_1_alg».proof.Proof.Gen.KernelIdeal.Skeleton
import proofs.«110018_j17901423689856_1_alg».proof.Proof.Spec
import proofs.«110018_j17901423689856_1_alg».proof.Proof.SpecLemmas
import Idealize.ShloMosaic.Lib.ValueIdx
import Idealize.ShloMosaic.Lib.Pipeline.Value
import Idealize.ShloMosaic.Lib.ValueLayout
import Idealize.ShloMosaic.PureOps.Ideal.Laws
import Mathlib.Data.Finset.Lattice.Prod

set_option maxRecDepth 16384

noncomputable section

namespace Cert.KernelIdeal.Val0Tile

open Idealize.ShloMosaic Idealize.ShloMosaic.ValueIdx
open Cert.KernelIdeal Cert.KernelIdeal.Gen

/-- The maximum along row p of a 512 × 1536 block: the supremum over the channels. -/
theorem rowmax_apply (src : FVec Ideal S512x1536 .f32) (hφ : FKind.Formats .f32)
    (hacc : (0xFF800000#32 : BitVec 32) = FKind.maximumf.neutral .f32 hφ) (p : Fin 512) :
    multiReduction .maximumf [1] S512 src 0xFF800000#32 reduces_S512x1536_S512 hφ hacc (ix1 p)
      = Finset.univ.sup fun q : Fin 1536 => src (ix2 p q) := by
  refine (Ideal.multiReduction_maximumf_single src 0xFF800000#32 reduces_S512x1536_S512 hφ hacc (ix1 p)).trans ?_
  refine (Spec.fold_max_ninf_eq_sup Finset.univ (src ∘ reduces_S512x1536_S512.lift (ix1 p))).trans ?_
  exact Finset.sup_congr rfl fun q _ => congrArg src (funext fun d => Fin.ext (by
    match d with
    | ⟨0, _⟩ => rfl
    | ⟨1, _⟩ => rfl))

/-- The maximum down a 512 × 1 column: the supremum over the rows. -/
theorem colmax_apply (src : FVec Ideal S512x1 .f32) (hφ : FKind.Formats .f32)
    (hacc : (0xFF800000#32 : BitVec 32) = FKind.maximumf.neutral .f32 hφ) (u : Fin 1) :
    multiReduction .maximumf [0] S1 src 0xFF800000#32 reduces_S512x1_S1 hφ hacc (ix1 u)
      = Finset.univ.sup fun p : Fin 512 => src (ix2 p (0 : Fin 1)) := by
  refine (Ideal.multiReduction_maximumf_single src 0xFF800000#32 reduces_S512x1_S1 hφ hacc (ix1 u)).trans ?_
  refine (Spec.fold_max_ninf_eq_sup Finset.univ (src ∘ reduces_S512x1_S1.lift (ix1 u))).trans ?_
  exact Finset.sup_congr rfl fun p _ => congrArg src (funext fun d => Fin.ext (by
    match d with
    | ⟨0, _⟩ => rfl
    | ⟨1, _⟩ => show (u : ℕ) = 0; omega))

/-- A length-512 vector viewed as a 512 × 1 column reads, at (p, u), the vector at p. -/
theorem column_apply (x : FVec Ideal S512 .f32) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    omega)

/-- The block's largest |h| at (0, 0): over the rows, of the largest over the channels, of |h|. -/
theorem pay2_apply (x : FVec Ideal S512x384 .f32) (a : FVec Ideal S1x1 .f32) (w : FVec Ideal S1536x384 .bf16)
    (b s : FVec Ideal S1x1536 .f32) :
    k0_pay2 (F := Ideal) x a w b s (ix2 (0 : Fin 1) (0 : Fin 1))
      = Finset.univ.sup fun p : Fin 512 => Finset.univ.sup fun q : Fin 1536 =>
          Spec.absE (k0_pay1 (F := Ideal) x a w b s (ix2 p q)) := by
  unfold k0_pay2
  refine (shapeCast_a_1a_apply _ shapeCasts_S1_S1x1 (0 : Fin 1) (0 : Fin 1)).trans ?_
  refine (colmax_apply _ (.inl rfl) rfl (0 : Fin 1)).trans ?_
  refine Finset.sup_congr rfl fun p _ => ?_
  refine (column_apply _ shapeCasts_S512_S512x1 p (0 : Fin 1)).trans ?_
  refine (rowmax_apply (absf (k0_pay1 (F := Ideal) x a w b s)) (.inl rfl) rfl p).trans ?_
  rfl

/-- The same as one supremum over the pairs (row, channel) of the block. -/
theorem pay2_apply_prod (x : FVec Ideal S512x384 .f32) (a : FVec Ideal S1x1 .f32) (w : FVec Ideal S1536x384 .bf16)
    (b s : FVec Ideal S1x1536 .f32) :
    k0_pay2 (F := Ideal) x a w b s (ix2 (0 : Fin 1) (0 : Fin 1))
      = Finset.univ.sup fun pq : Fin 512 × Fin 1536 =>
          Spec.absE (k0_pay1 (F := Ideal) x a w b s (ix2 pq.1 pq.2)) := by
  rw [pay2_apply, ← Finset.univ_product_univ, Finset.sup_product_left]

/-- The running maximum joined with a block's: at (0, 0) the max of what it held and the block's largest |h|. -/
theorem pay3_apply (x : FVec Ideal S512x384 .f32) (a : FVec Ideal S1x1 .f32) (w : FVec Ideal S1536x384 .bf16)
    (b s : FVec Ideal S1x1536 .f32) (m : FVec Ideal S1x1 .f32) :
    k0_pay3 (F := Ideal) x a w b s m (ix2 (0 : Fin 1) (0 : Fin 1))
      = max (m (ix2 (0 : Fin 1) (0 : Fin 1))) (k0_pay2 (F := Ideal) x a w b s (ix2 (0 : Fin 1) (0 : Fin 1))) := by
  unfold k0_pay3
  rw [maximumf_apply, shapeCast_self]

end Cert.KernelIdeal.Val0Tile

end
-- ==== Proof.SpecIdx.lean ====
/-
  Reading the argument arrays by coordinates: the activations x arrive as a [256, 196, 384] array and the kernel
  works on its row-major flattening to [50176, 384] (row r = 196·b + s); the weights are matrices, the biases
  vectors, the activation scale a one-element vector.
-/
import proofs.«110018_j17901423689856_1_alg».proof.Proof.Spec
import Idealize.ShloMosaic.Lib.ValueIdx

noncomputable section

namespace Cert.Spec

open Idealize.ShloMosaic Idealize.ShloMosaic.ValueIdx

/-- Row 196·b + s of the flattened activations. -/
def flatRow (b : Fin 256) (s : Fin 196) : Fin 50176 :=
  ⟨b.val * 196 + s.val, by have := b.isLt; have := s.isLt; omega⟩

/-- The batch coordinate of a flattened row. -/
def rowB (r : Fin 50176) : Fin 256 := ⟨r.val / 196, by have := r.isLt; omega⟩
/-- The sequence coordinate of a flattened row. -/
def rowS (r : Fin 50176) : Fin 196 := ⟨r.val % 196, Nat.mod_lt _ (by norm_num)⟩

theorem rowB_flatRow (b : Fin 256) (s : Fin 196) : rowB (flatRow b s) = b := by
  apply Fin.ext; show (b.val * 196 + s.val) / 196 = b.val; have := s.isLt; omega
theorem rowS_flatRow (b : Fin 256) (s : Fin 196) : rowS (flatRow b s) = s := by
  apply Fin.ext; show (b.val * 196 + s.val) % 196 = s.val; have := s.isLt; omega
theorem flatRow_rowB_rowS (r : Fin 50176) : flatRow (rowB r) (rowS r) = r := by
  apply Fin.ext; show r.val / 196 * 196 + r.val % 196 = r.val; omega

/-- The activations flattened to rows. -/
def flatX (X : (⟨3, ![256, 196, 384]⟩ : Shape).Idx → EReal) (r : Fin 50176) (k : Fin 384) : EReal :=
  X (ix3 (rowB r) (rowS r) k)

/-- A matrix by coordinates. -/
def matOf {n0 n1 : ℕ} (A : (⟨2, ![n0, n1]⟩ : Shape).Idx → EReal) (i : Fin n0) (j : Fin n1) : EReal := A (ix2 i j)
/-- A vector by coordinate. -/
def vecOf {n : ℕ} (v : (⟨1, ![n]⟩ : Shape).Idx → EReal) (i : Fin n) : EReal := v (ix1 i)

end Cert.Spec

end
-- ==== Proof.SpecIdxLemmas.lean ====
/-
  The largest absolute value of the 50176-row arrays, read two ways.

  By blocks of rows: the 50176 = 98 · 512 rows are 98 blocks of 512, block `k` being the rows `k · 512 + q`,
  `q < 512`; a running maximum that joins one block's largest absolute value per step is, after step `k`, the
  largest over the rows below `(k + 1) · 512`, and after the last step the array's. By coordinates: the largest
  absolute value of a [256, 196, O] array is that of its row-major flattening to [50176, O], row r = 196·b + s.
-/
import proofs.«110018_j17901423689856_1_alg».proof.Proof.SpecIdx
import proofs.«110018_j17901423689856_1_alg».proof.Proof.SpecLemmas
import Idealize.ShloMosaic.Lib.ValueIdx
import Mathlib.Data.Finset.Lattice.Fold

noncomputable section

namespace Cert.Spec

open Idealize.ShloMosaic Idealize.ShloMosaic.ValueIdx

/-! ## Blocks of 512 rows -/

section Blocks

variable {O : ℕ}

/-- Row `k · 512 + q` of the 50176 rows: row `q` of block `k`. -/
def blockRow (k : Fin 98) (q : Fin 512) : Fin 50176 :=
  ⟨k.val * 512 + q.val, by have := k.isLt; have := q.isLt; omega⟩

theorem blockRow_val (k : Fin 98) (q : Fin 512) : (blockRow k q).val = k.val * 512 + q.val := rfl

/-- The largest absolute value over block `k`: over the rows `k · 512 + q`, `q < 512`, and all columns. -/
def blockSupAbs (Y : Fin 50176 → Fin O → EReal) (k : Fin 98) : EReal :=
  Finset.univ.sup fun p : Fin 512 × Fin O => absE (Y (blockRow k p.1) p.2)

/-- A block is a band of 512 rows of the 98 · 512 rows. -/
theorem blockSupAbs_eq_bandSupAbs (Y : Fin 50176 → Fin O → EReal) (k : Fin 98) :
    blockSupAbs Y k = bandSupAbs (nb := 98) (b := 512) Y k := rfl

/-- A running maximum that starts at block 0's largest absolute value and joins block `k + 1`'s at step `k + 1`
    is, after step `k`, the largest absolute value over the rows below `(k + 1) · 512`. -/
theorem running_max_eq_supBelow_blocks (Y : Fin 50176 → Fin O → EReal) (m : ℕ → EReal)
    (h0 : m 0 = blockSupAbs Y ⟨0, by norm_num⟩)
    (hstep : ∀ (k : ℕ) (hk : k + 1 < 98), m (k + 1) = max (m k) (blockSupAbs Y ⟨k + 1, hk⟩))
    (k : ℕ) (hk : k < 98) :
    m k = (LibBands.below 50176 ((k + 1) * 512)).sup (rowSupAbs Y) :=
  running_max_eq_supBelow (nb := 98) (b := 512) Y m (by norm_num) h0 hstep k hk

/-- After the last of the 98 blocks the running maximum is the array's largest absolute value. -/
theorem supAbs_blocks (Y : Fin 50176 → Fin O → EReal) (m : ℕ → EReal)
    (h0 : m 0 = blockSupAbs Y ⟨0, by norm_num⟩)
    (hstep : ∀ (k : ℕ) (hk : k + 1 < 98), m (k + 1) = max (m k) (blockSupAbs Y ⟨k + 1, hk⟩)) :
    m 97 = supAbs Y :=
  supAbs_rows (nb := 98) (b := 512) Y m (by norm_num) h0 hstep

end Blocks

/-! ## A [256, 196, O] array and its flattening -/

section Flat

variable {O : ℕ}

/-- The largest absolute value of a [256, 196, O] array is that of its flattening to 50176 rows: every index is
    `(b, s, o)` and sits at row `196·b + s`, column `o`; every row `r` is `196·(r / 196) + r % 196`. -/
theorem sup_absE_idx3_eq_supAbs (G : (⟨3, ![256, 196, O]⟩ : Shape).Idx → EReal) :
    (Finset.univ : Finset ((⟨3, ![256, 196, O]⟩ : Shape).Idx)).sup (fun i => absE (G i))
      = supAbs (fun (r : Fin 50176) (o : Fin O) => G (ix3 (rowB r) (rowS r) o)) := by
  unfold supAbs
  apply le_antisymm
  · refine Finset.sup_le fun i _ => ?_
    obtain ⟨b, s, o, rfl⟩ : ∃ (b : Fin 256) (s : Fin 196) (o : Fin O), i = ix3 b s o :=
      ⟨i 0, i 1, i 2, eq_ix3 i⟩
    have h : absE (G (ix3 (rowB (flatRow b s)) (rowS (flatRow b s)) o))
        ≤ Finset.univ.sup fun p : Fin 50176 × Fin O => absE (G (ix3 (rowB p.1) (rowS p.1) p.2)) :=
      Finset.le_sup (f := fun p : Fin 50176 × Fin O => absE (G (ix3 (rowB p.1) (rowS p.1) p.2)))
        (Finset.mem_univ (flatRow b s, o))
    rw [rowB_flatRow, rowS_flatRow] at h
    exact h
  · refine Finset.sup_le fun p _ => ?_
    exact Finset.le_sup (f := fun i => absE (G i)) (Finset.mem_univ (ix3 (rowB p.1) (rowS p.1) p.2))

/-- The same for the maximum written as a fold of `max` from the pattern of -∞. -/
theorem fold_max_absE_idx3_eq_supAbs (G : (⟨3, ![256, 196, O]⟩ : Shape).Idx → EReal) :
    (Finset.univ : Finset ((⟨3, ![256, 196, O]⟩ : Shape).Idx)).fold max ninf32 (fun i => absE (G i))
      = supAbs (fun (r : Fin 50176) (o : Fin O) => G (ix3 (rowB r) (rowS r) o)) := by
  rw [fold_max_ninf_eq_sup]; exact sup_absE_idx3_eq_supAbs G

end Flat

end Cert.Spec

end
-- ==== Proof.Val0Max.lean ====
/-
  The running maximum of the first linear layer (the first pallas_call), as a value.

  Point t of the grid computes the block of h for rows 512·t … 512·t+511 and the largest absolute value of that
  block; the 1×1 running maximum is set to the block's own at point 0 and joined with it by max at every later
  point. The blocks are the rows of the array of h the region leaves, so after the last of the 98 points the
  running maximum is the largest absolute value over all 50176 rows of that array; and only that last point
  writes the 1×1 window back, so that is what its array ends holding.
-/
import proofs.«110018_j17901423689856_1_alg».proof.Proof.KI.R0Defs
import proofs.«110018_j17901423689856_1_alg».proof.Proof.Val0
import proofs.«110018_j17901423689856_1_alg».proof.Proof.Val0Tile
import proofs.«110018_j17901423689856_1_alg».proof.Proof.SpecIdxLemmas
import Idealize.ShloMosaic.Lib.ValueIdx
import Idealize.ShloMosaic.Lib.Pipeline.Value
import Mathlib.Data.Finset.Lattice.Fold

set_option maxRecDepth 16384

noncomputable section

namespace Cert.KernelIdeal.Val0Max

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Frm

-- the TensorCore's buffer contents when the region is entered
variable (V : (c : Dev nD) → (b : Ref sig .tc) → Buf (Elt Ideal) ((c : Thread nD τ).loc b))

/-- The grid has 98 points. -/
theorem N0_eq : cfg0.N = 98 := N_0

/-! ## The running maximum, point by point -/

/-- The block maximum at point `t` is the supremum of the absolute values over the block of h at `t`. -/
theorem tmax0_apply (c : Dev nD) (t : Fin cfg0.N) :
    tmax0 V c t (ix2 0 0) = Finset.univ.sup fun p : Fin 512 × Fin 1536 => Spec.absE (hblk0 V c t (ix2 p.1 p.2)) := by
  unfold tmax0 hblk0
  exact Val0Tile.pay2_apply_prod (iblk0 V c 0 t) (iblk0 V c 1 t) (iblk0 V c 2 t) (iblk0 V c 3 t) (iblk0 V c 4 t)

/-- At a later point the running maximum is the one before joined with the point's block maximum. -/
theorem acc0_succ_apply (c : Dev nD) (n : ℕ) (h : n + 1 < cfg0.N) :
    acc0 V c (n + 1) h (ix2 0 0)
      = max (acc0 V c n (Nat.lt_of_succ_lt h) (ix2 0 0)) (tmax0 V c ⟨n + 1, h⟩ (ix2 0 0)) := by
  rw [acc0]
  unfold tmax0
  exact Val0Tile.pay3_apply (iblk0 V c 0 ⟨n + 1, h⟩) (iblk0 V c 1 ⟨n + 1, h⟩) (iblk0 V c 2 ⟨n + 1, h⟩)
    (iblk0 V c 3 ⟨n + 1, h⟩) (iblk0 V c 4 ⟨n + 1, h⟩) (acc0 V c n (Nat.lt_of_succ_lt h))

/-! ## After the last point: the largest absolute value over all rows -/

/-- The array of h the region leaves, by row and channel. -/
abbrev hrows0 (c : Dev nD) (r : Fin 50176) (o : Fin 1536) : EReal :=
  ((dat0 V c).arrAt 5 cfg0.N : S50176x1536.Idx → EReal) (ix2 r o)

/-- Row q of block k of the 50176 rows of that array is row q of the block of h stored at point k. -/
theorem hrows0_blockRow (c : Dev nD) (k : Fin 98) (q : Fin 512) (o : Fin 1536) :
    hrows0 V c (Spec.blockRow k q) o = hblk0 V c ⟨k.val, by rw [N0_eq]; exact k.isLt⟩ (ix2 q o) := by
  have e : Spec.blockRow k q = Val0.rowOf ⟨k.val, by rw [N0_eq]; exact k.isLt⟩ q := Fin.ext rfl
  show ((dat0 V c).arrAt 5 cfg0.N : S50176x1536.Idx → EReal) (ix2 (Spec.blockRow k q) o) = _
  rw [e]
  exact Val0.arr5_block V c ⟨k.val, by rw [N0_eq]; exact k.isLt⟩ q o

/-- The largest absolute value over block k of the rows is the block maximum of point k. -/
theorem blockSupAbs_hrows0 (c : Dev nD) (k : Fin 98) :
    Spec.blockSupAbs (hrows0 V c) k = tmax0 V c ⟨k.val, by rw [N0_eq]; exact k.isLt⟩ (ix2 0 0) := by
  rw [tmax0_apply]
  unfold Spec.blockSupAbs
  exact Finset.sup_congr rfl fun p _ => congrArg Spec.absE (hrows0_blockRow V c k p.1 p.2)

/-- After the last point the running maximum is the largest absolute value over all 50176 rows of h. -/
theorem region0_acc (c : Dev nD) :
    acc0 V c 97 (by rw [N0_eq]; norm_num) (ix2 0 0) = Spec.supAbs (hrows0 V c) := by
  have hN : cfg0.N = 98 := N0_eq
  let m : ℕ → EReal := fun n => if h : n < cfg0.N then acc0 V c n h (ix2 0 0) else 0
  have h0 : m 0 = Spec.blockSupAbs (hrows0 V c) ⟨0, by norm_num⟩ := by
    rw [blockSupAbs_hrows0]
    show (if h : 0 < cfg0.N then acc0 V c 0 h (ix2 0 0) else 0) = _
    rw [dif_pos (by rw [hN]; norm_num), acc0]
  have hstep : ∀ (k : ℕ) (hk : k + 1 < 98), m (k + 1) = max (m k) (Spec.blockSupAbs (hrows0 V c) ⟨k + 1, hk⟩) := by
    intro k hk
    have h1 : k + 1 < cfg0.N := by rw [hN]; exact hk
    show (if h : k + 1 < cfg0.N then acc0 V c (k + 1) h (ix2 0 0) else 0)
      = max (if h : k < cfg0.N then acc0 V c k h (ix2 0 0) else 0) _
    rw [dif_pos h1, dif_pos (Nat.lt_of_succ_lt h1), blockSupAbs_hrows0, acc0_succ_apply]
  have hm : m 97 = Spec.supAbs (hrows0 V c) := Spec.supAbs_blocks (hrows0 V c) m h0 hstep
  rw [← hm]
  show _ = (if h : 97 < cfg0.N then acc0 V c 97 h (ix2 0 0) else 0)
  rw [dif_pos (by rw [hN]; norm_num)]

/-! ## The 1×1 window's array after the region -/

/-- The 1×1 window's index map is constant: its one block is its whole array. -/
theorem idx_facts0_6 : ∀ t : Fin cfg0.N, win0_6.index t (0 : Fin 2) = 0 ∧ win0_6.index t (1 : Fin 2) = 0 :=
  (by decide +kernel : ∀ t : Fin grid0.N, _)

/-- The last point. -/
abbrev last0 : Fin cfg0.N := ⟨97, by rw [N0_eq]; norm_num⟩

/-- The running maximum after the last point, as the 1×1 array's contents. -/
abbrev accLast0 (c : Dev nD) : S1x1.Idx → EReal := acc0 V c 97 (by rw [N0_eq]; norm_num)

/-- The one write-back, at the last point, writes the running maximum after the last point. -/
theorem flushed0_6_eq (c : Dev nD) (t : Fin cfg0.N) (hf : (cfg0.win 6).flush t = true) :
    (dat0 V c).flushed 6 t = ((cfg0.win 6).blk t).view.read (Elt Ideal) (accLast0 V c) := by
  have hN : cfg0.N = 98 := N0_eq
  have h97 : t.val = 97 := by have := (flush0_6 t).mp hf; have := t.isLt; omega
  obtain rfl : t = last0 := Fin.ext h97
  show (cfg0.win 6).cut (grid0.coords last0) ((dat0 V c).after 6 last0) = _
  rw [after0_6]
  obtain ⟨e0, e1⟩ := idx_facts0_6 last0
  refine funext fun (j : S1x1.Idx) => ?_
  show accLast0 V c j = accLast0 V c (((cfg0.win 6).blk last0).view.emb j)
  refine congrArg (accLast0 V c) (funext fun a => Fin.ext ?_)
  match a with
  | ⟨0, _⟩ => show (j 0).val = win0_6.index last0 (0 : Fin 2) * 1 + 1 * (j 0).val; omega
  | ⟨1, _⟩ => show (j 1).val = win0_6.index last0 (1 : Fin 2) * 1 + 1 * (j 1).val; omega

/-- An index of the 1×1 array is in point `t`'s block iff each coordinate is in the block's range on its axis. -/
theorem mem_blk0_6 (t : Fin cfg0.N) (i : S1x1.Idx) :
    i ∈ ((cfg0.win 6).blk t).view.set ↔ ∀ a : Fin 2, win0_6.index t a * S1x1.size a ≤ (i a).val ∧ (i a).val < win0_6.index t a * S1x1.size a + S1x1.size a := by
  show i ∈ ((View.whole main_v21_1).slice (win0_6.rect t)).set ↔ _
  rw [View.set_slice_whole, Rect.mem_set_unit]
  exact Iff.rfl

/-- The last point's block is the whole 1×1 array. -/
theorem covered0_6 (i : S1x1.Idx) :
    ∃ t : Fin cfg0.N, (cfg0.win 6).flush t = true ∧ i ∈ ((cfg0.win 6).blk t).view.set := by
  have hi0 : (i 0).val < 1 := idx2_lt0 i
  have hi1 : (i 1).val < 1 := idx2_lt1 i
  obtain ⟨e0, e1⟩ := idx_facts0_6 last0
  refine ⟨last0, (flush0_6 last0).mpr (by decide), ?_⟩
  rw [mem_blk0_6]
  intro a
  match a with
  | ⟨0, _⟩ => show win0_6.index last0 (0 : Fin 2) * 1 ≤ (i 0).val ∧ (i 0).val < win0_6.index last0 (0 : Fin 2) * 1 + 1; omega
  | ⟨1, _⟩ => show win0_6.index last0 (1 : Fin 2) * 1 ≤ (i 1).val ∧ (i 1).val < win0_6.index last0 (1 : Fin 2) * 1 + 1; omega

/-- The 1×1 array after the region holds the running maximum after the last point. -/
theorem region0_arr6_eq (c : Dev nD) : (dat0 V c).arrAt 6 cfg0.N = accLast0 V c :=
  (dat0 V c).arrAt_eq_of_cover 6 (accLast0 V c) (fun t hf => flushed0_6_eq V c t hf) covered0_6

/-- Its one entry. -/
theorem region0_arr6 (c : Dev nD) :
    ((dat0 V c).arrAt 6 cfg0.N : S1x1.Idx → EReal) (ix2 0 0)
      = acc0 V c 97 (by rw [N0_eq]; norm_num) (ix2 0 0) :=
  congrFun (region0_arr6_eq V c) (ix2 0 0)

/-- So the 1×1 array after the region holds the largest absolute value of the array of h the region leaves. -/
theorem region0_max (c : Dev nD) :
    ((dat0 V c).arrAt 6 cfg0.N : S1x1.Idx → EReal) (ix2 0 0)
      = Finset.univ.sup fun p : Fin 50176 × Fin 1536 =>
          Spec.absE (((dat0 V c).arrAt 5 cfg0.N : S50176x1536.Idx → EReal) (ix2 p.1 p.2)) :=
  (region0_arr6 V c).trans (region0_acc V c)

end Cert.KernelIdeal.Val0Max

end
-- ==== Proof.Val1.lean ====
/-
  The second linear layer (the second pallas_call) as a function of the arrays it is entered with.

  Point t of the grid reads rows 512·t … 512·t + 511 of the hidden activations h, and the whole of the 1×1
  activation scale s, the integer weights W, the bias row b and the scale row σ. The block it stores has entry
  (p, q) = ((Σ_k clip(round(h(512·t + p, k) / s)) · W(q, k)) + b(q)) · σ(q): the matrix product read at an index is
  the sum over the contracted axis, the row broadcasts read the row, the 1×1 broadcast reads its one entry, and
  format changes are the identity on the extended reals. The 98 row blocks tile the 50176 rows, so after the region
  the output array holds, at (r, o), ((Σ_k quant(h(r, k), s) · W(o, k)) + b(o)) · σ(o); read block by block, row
  512·t + p of the array is row p of the block point t stored.
-/
import proofs.«110018_j17901423689856_1_alg».proof.Proof.KI.R1Defs
import proofs.«110018_j17901423689856_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val1

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Frm

variable (V : (c : Dev nD) → (b : Ref sig .tc) → Buf (Elt Ideal) ((c : Thread nD τ).loc b))

/-! ## The arrays the region is entered with, at their literal types -/

/-- The hidden activations h. -/
abbrev hArr (c : Dev nD) : Vec Ideal S50176x1536 .f32 := V c main_v21_0
/-- The 1×1 activation scale. -/
abbrev sArr (c : Dev nD) : Vec Ideal S1x1 .f32 := V c main_v23
/-- The integer weights. -/
abbrev wArr (c : Dev nD) : Vec Ideal S384x1536 .bf16 := V c main_v34
/-- The integer bias row. -/
abbrev bArr (c : Dev nD) : Vec Ideal S1x384 .f32 := V c main_v42
/-- The output scale row. -/
abbrev scArr (c : Dev nD) : Vec Ideal S1x384 .f32 := V c main_v37

/-- The printed index maps over the grid: the row-blocked windows sit at block (t, 0), the others at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0 :=
  (by decide +kernel : ∀ t : Fin grid1.N, _)

/-- The block of h at point t holds rows 512·t … 512·t + 511. -/
theorem hblk_apply (c : Dev nD) (t : Fin cfg1.N) (p : Fin 512) (k : Fin 1536) (r : Fin 50176)
    (hr : r.val = 512 * t.val + p.val) :
    (iblk1 V c 0 t : Vec Ideal S512x1536 .f32) (ix2 p k) = hArr V c (ix2 r k) := by
  obtain ⟨e0, e1, -⟩ := idx_facts1 t
  unfold iblk1
  rw [View.read_apply]
  show V c main_v21_0 _ = V c main_v21_0 _
  congr 1
  funext a
  apply Fin.ext
  match a with
  | ⟨0, _⟩ => show win1_0.index t 0 * 512 + 1 * p.val = r.val; rw [e0, hr]; omega
  | ⟨1, _⟩ => show win1_0.index t 1 * 1536 + 1 * k.val = k.val; rw [e1]; omega

/-! ## The matmul of the body read at an index -/

theorem lhs_mm_0 (i : S512x384.Idx) (q : dot_S512x1536_S384x1536_S512x384_1_1_0_0_n_n.contr.Idx) :
    (dot_S512x1536_S384x1536_S512x384_1_1_0_0_n_n.lhsIdx i q 0).val = (i 0).val := by
  unfold DotDims.lhsIdx
  rw [dif_neg (show ¬(0 : Fin S512x1536.rank) ∈ dot_S512x1536_S384x1536_S512x384_1_1_0_0_n_n.lhsBatch by decide), dif_pos (show (0 : Fin S512x1536.rank) ∈ dot_S512x1536_S384x1536_S512x384_1_1_0_0_n_n.lhsNonContracting by decide)]
  rfl
theorem lhs_mm_1 (i : S512x384.Idx) (q : dot_S512x1536_S384x1536_S512x384_1_1_0_0_n_n.contr.Idx) :
    (dot_S512x1536_S384x1536_S512x384_1_1_0_0_n_n.lhsIdx i q 1).val = (q ⟨0, by decide⟩).val :=
  dot_S512x1536_S384x1536_S512x384_1_1_0_0_n_n.lhsIdx_val_of_single rfl i q
theorem rhs_mm_0 (i : S512x384.Idx) (q : dot_S512x1536_S384x1536_S512x384_1_1_0_0_n_n.contr.Idx) :
    (dot_S512x1536_S384x1536_S512x384_1_1_0_0_n_n.rhsIdx i q 0).val = (i 1).val := by
  unfold DotDims.rhsIdx
  rw [dif_neg (show ¬(0 : Fin S384x1536.rank) ∈ dot_S512x1536_S384x1536_S512x384_1_1_0_0_n_n.rhsBatch by decide), dif_pos (show (0 : Fin S384x1536.rank) ∈ dot_S512x1536_S384x1536_S512x384_1_1_0_0_n_n.rhsNonContracting by decide)]
  rfl
theorem rhs_mm_1 (i : S512x384.Idx) (q : dot_S512x1536_S384x1536_S512x384_1_1_0_0_n_n.contr.Idx) :
    (dot_S512x1536_S384x1536_S512x384_1_1_0_0_n_n.rhsIdx i q 1).val = (q ⟨0, by decide⟩).val :=
  dot_S512x1536_S384x1536_S512x384_1_1_0_0_n_n.rhsIdx_val_of_single rfl i q

/-- The product of a [512, 1536] block with the transpose of a [384, 1536] matrix, into the zero block:
    entry (p, q) is the sum over k of the left operand at (p, k) times the right operand at (q, k). -/
theorem mm_apply (lhs : FVec Ideal S512x1536 .bf16) (rhs : FVec Ideal S384x1536 .bf16) (p : Fin 512) (q : Fin 384) :
    matmul dot_S512x1536_S384x1536_S512x384_1_1_0_0_n_n none lhs rhs (constant (F := Ideal) S512x384 .f32 0x00000000#32) (ix2 p q)
      = ∑ k : Fin 1536, lhs (ix2 p k) * rhs (ix2 q k) := by
  simp only [matmul]
  rw [Ideal.matmul_constant_zero_apply, ← Equiv.sum_comp (contrEquiv1 dot_S512x1536_S384x1536_S512x384_1_1_0_0_n_n 1536 rfl rfl).symm]
  refine Finset.sum_congr rfl fun k _ => ?_
  have hk := contrEquiv1_symm_val dot_S512x1536_S384x1536_S512x384_1_1_0_0_n_n 1536 rfl rfl k
  have el : dot_S512x1536_S384x1536_S512x384_1_1_0_0_n_n.lhsIdx (ix2 p q) ((contrEquiv1 dot_S512x1536_S384x1536_S512x384_1_1_0_0_n_n 1536 rfl rfl).symm k) = ix2 p k := funext fun a => Fin.ext (by
    match a with
    | ⟨0, _⟩ => exact lhs_mm_0 _ _
    | ⟨1, _⟩ => exact (lhs_mm_1 _ _).trans hk)
  have er : dot_S512x1536_S384x1536_S512x384_1_1_0_0_n_n.rhsIdx (ix2 p q) ((contrEquiv1 dot_S512x1536_S384x1536_S512x384_1_1_0_0_n_n 1536 rfl rfl).symm k) = ix2 q k := funext fun a => Fin.ext (by
    match a with
    | ⟨0, _⟩ => exact rhs_mm_0 _ _
    | ⟨1, _⟩ => exact (rhs_mm_1 _ _).trans hk)
  rw [el, er]

/-! ## The body's arithmetic at an index -/

/-- A 1×1 array broadcast to [512, 1536] reads its one entry everywhere. -/
theorem bcast11_apply (v : FVec Ideal S1x1 .f32) (h : S1x1.Broadcasts S512x1536) (p : Fin 512) (k : Fin 1536) :
    broadcastTo S512x1536 v h (ix2 p k) = v (ix2 (0 : Fin 1) (0 : Fin 1)) := by
  refine broadcastTo_apply v h (ix2 p k) (ix2 (0 : Fin 1) (0 : Fin 1)) fun ax => ?_
  match ax with
  | ⟨0, _⟩ => rfl
  | ⟨1, _⟩ => rfl

/-- The block of y the body stores, entry (p, q): the row p of the block of h quantized at the scale, times the integer
    weights' row q, plus the bias, times the output scale. -/
theorem pay1_apply (v0 : Vec Ideal S512x1536 .f32) (v2 : Vec Ideal S1x1 .f32) (v12 : Vec Ideal S384x1536 .bf16)
    (v15 : Vec Ideal S1x384 .f32) (v19 : Vec Ideal S1x384 .f32) (p : Fin 512) (q : Fin 384) :
    (k1_pay1 v0 v2 v12 v15 v19 : FVec Ideal S512x384 .f32) (ix2 p q)
      = ((∑ k : Fin 1536, Spec.quant (v0 (ix2 p k)) (v2 (ix2 (0 : Fin 1) (0 : Fin 1))) * v12 (ix2 q k)) + v15 (ix2 (0 : Fin 1) q)) * v19 (ix2 (0 : Fin 1) q) := by
  unfold k1_pay1
  simp only [shapeCast_self]
  rw [mulf_apply, addf_apply, mm_apply, broadcastTo_1b_ab_apply, broadcastTo_1b_ab_apply]
  refine congrArg (fun z => (z + v15 (ix2 (0 : Fin 1) q)) * v19 (ix2 (0 : Fin 1) q)) (Finset.sum_congr rfl fun k _ => ?_)
  rw [truncf_apply, minimumf_apply, maximumf_apply, broadcast_apply, broadcast_apply]
  show min _ (max _ (Ideal.liftRound Ideal.roundHalfEven (Ideal.div (v0 (ix2 p k)) (broadcastTo S512x1536 v2 broadcasts_S1x1_S512x1536 (ix2 p k))))) * _ = _
  rw [bcast11_apply]
  rfl

/-! ## The whole-array windows: every point reads the array itself -/

/-- The grid has 98 points. -/
theorem N1_eq : cfg1.N = 98 := by decide

theorem sblk_apply (c : Dev nD) (t : Fin cfg1.N) :
    (iblk1 V c 1 t : Vec Ideal S1x1 .f32) (ix2 (0 : Fin 1) (0 : Fin 1)) = sArr V c (ix2 (0 : Fin 1) (0 : Fin 1)) := by
  obtain ⟨-, -, e0, e1, -⟩ := idx_facts1 t
  unfold iblk1
  rw [View.read_apply]
  show V c main_v23 _ = V c main_v23 _
  congr 1
  funext a
  apply Fin.ext
  match a with
  | ⟨0, _⟩ => show win1_1.index t 0 * 1 + 1 * 0 = 0; rw [e0]
  | ⟨1, _⟩ => show win1_1.index t 1 * 1 + 1 * 0 = 0; rw [e1]

theorem wblk_apply (c : Dev nD) (t : Fin cfg1.N) (q : Fin 384) (k : Fin 1536) :
    (iblk1 V c 2 t : Vec Ideal S384x1536 .bf16) (ix2 q k) = wArr V c (ix2 q k) := by
  obtain ⟨-, -, -, -, e0, e1, -⟩ := idx_facts1 t
  unfold iblk1
  rw [View.read_apply]
  show V c main_v34 _ = V c main_v34 _
  congr 1
  funext a
  apply Fin.ext
  match a with
  | ⟨0, _⟩ => show win1_2.index t 0 * 384 + 1 * q.val = q.val; rw [e0]; omega
  | ⟨1, _⟩ => show win1_2.index t 1 * 1536 + 1 * k.val = k.val; rw [e1]; omega

theorem bblk_apply (c : Dev nD) (t : Fin cfg1.N) (q : Fin 384) :
    (iblk1 V c 3 t : Vec Ideal S1x384 .f32) (ix2 (0 : Fin 1) q) = bArr V c (ix2 (0 : Fin 1) q) := by
  obtain ⟨-, -, -, -, -, -, e0, e1, -⟩ := idx_facts1 t
  unfold iblk1
  rw [View.read_apply]
  show V c main_v42 _ = V c main_v42 _
  congr 1
  funext a
  apply Fin.ext
  match a with
  | ⟨0, _⟩ => show win1_3.index t 0 * 1 + 1 * 0 = 0; rw [e0]
  | ⟨1, _⟩ => show win1_3.index t 1 * 384 + 1 * q.val = q.val; rw [e1]; omega

theorem scblk_apply (c : Dev nD) (t : Fin cfg1.N) (q : Fin 384) :
    (iblk1 V c 4 t : Vec Ideal S1x384 .f32) (ix2 (0 : Fin 1) q) = scArr V c (ix2 (0 : Fin 1) q) := by
  obtain ⟨-, -, -, -, -, -, -, -, e0, e1, -⟩ := idx_facts1 t
  unfold iblk1
  rw [View.read_apply]
  show V c main_v37 _ = V c main_v37 _
  congr 1
  funext a
  apply Fin.ext
  match a with
  | ⟨0, _⟩ => show win1_4.index t 0 * 1 + 1 * 0 = 0; rw [e0]
  | ⟨1, _⟩ => show win1_4.index t 1 * 384 + 1 * q.val = q.val; rw [e1]; omega

/-! ## The second linear layer, entry by entry -/

/-- Entry (r, o) of y: row r of h quantized at the scale, times row o of the integer weights, plus the bias,
    times the output scale. -/
def yF (c : Dev nD) (r : Fin 50176) (o : Fin 384) : EReal :=
  ((∑ k : Fin 1536, Spec.quant (hArr V c (ix2 r k)) (sArr V c (ix2 (0 : Fin 1) (0 : Fin 1))) * wArr V c (ix2 o k))
      + bArr V c (ix2 (0 : Fin 1) o)) * scArr V c (ix2 (0 : Fin 1) o)

/-- y as an array. -/
def yG (c : Dev nD) : S50176x384.Idx → EReal :=
  fun i => yF V c ⟨(i 0).val, idx2_lt0 i⟩ ⟨(i 1).val, idx2_lt1 i⟩

/-- The block of y the body stores at point t is rows 512·t … 512·t + 511 of y. -/
theorem yblk_apply (c : Dev nD) (t : Fin cfg1.N) (p : Fin 512) (q : Fin 384) (r : Fin 50176)
    (hr : r.val = 512 * t.val + p.val) :
    (yblk1 V c t : Vec Ideal S512x384 .f32) (ix2 p q) = yF V c r q := by
  unfold yblk1
  refine (pay1_apply (iblk1 V c 0 t) (iblk1 V c 1 t) (iblk1 V c 2 t) (iblk1 V c 3 t) (iblk1 V c 4 t) p q).trans ?_
  unfold yF
  rw [sblk_apply, bblk_apply, scblk_apply]
  refine congrArg (fun z => (z + bArr V c (ix2 (0 : Fin 1) q)) * scArr V c (ix2 (0 : Fin 1) q)) (Finset.sum_congr rfl fun k _ => ?_)
  rw [hblk_apply V c t p k r hr, wblk_apply]

/-! ## From the blocks to the array -/

/-- What point t writes back is block t of y. -/
theorem flushed5_eq (c : Dev nD) (t : Fin cfg1.N) :
    (dat1 V c).flushed 5 t = ((cfg1.win 5).blk t).view.read (Elt Ideal) (yG V c) := by
  obtain ⟨-, -, -, -, -, -, -, -, -, -, e0, e1, -⟩ := idx_facts1 t
  have ht : t.val < 98 := Nat.lt_of_lt_of_eq t.isLt N1_eq
  funext j
  have hp : (j 0).val < 512 := (j 0).isLt
  have hq : (j 1).val < 384 := (j 1).isLt
  show (cfg1.win 5).cut (grid1.coords t) ((dat1 V c).after 5 t) j = _
  rw [after1_5, View.read_apply]
  have ej : (cfg1.win 5).xinj (grid1.coords t) j = ix2 (⟨(j 0).val, hp⟩ : Fin 512) (⟨(j 1).val, hq⟩ : Fin 384) :=
    funext fun a => Fin.ext (by
      match a with
      | ⟨0, _⟩ => rfl
      | ⟨1, _⟩ => rfl)
  show yblk1 V c t ((cfg1.win 5).xinj (grid1.coords t) j) = yG V c (((cfg1.win 5).blk t).view.emb j)
  refine (congrArg (yblk1 V c t) ej).trans ?_
  refine (yblk_apply V c t ⟨(j 0).val, hp⟩ ⟨(j 1).val, hq⟩ ⟨512 * t.val + (j 0).val, by omega⟩ rfl).trans ?_
  unfold yG
  congr 1 <;> apply Fin.ext
  · show 512 * t.val + (j 0).val = win1_5.index t 0 * 512 + 1 * (j 0).val
    rw [e0]; omega
  · show (j 1).val = win1_5.index t 1 * 384 + 1 * (j 1).val
    rw [e1]; omega

/-- An index of the array is in point t's block iff each coordinate is in the block's range on its axis. -/
theorem mem_blk5 (t : Fin cfg1.N) (i : S50176x384.Idx) :
    i ∈ ((cfg1.win 5).blk t).view.set ↔ ∀ a : Fin 2, win1_5.index t a * S512x384.size a ≤ (i a).val ∧ (i a).val < win1_5.index t a * S512x384.size a + S512x384.size a := by
  show i ∈ ((View.whole main_v43_0).slice (win1_5.rect t)).set ↔ _
  rw [View.set_slice_whole, Rect.mem_set_unit]
  exact Iff.rfl

/-- The 98 row blocks tile the array: row r lies in the block of point r / 512. -/
theorem cover5 (i : S50176x384.Idx) :
    ∃ t : Fin cfg1.N, (cfg1.win 5).flush t = true ∧ i ∈ ((cfg1.win 5).blk t).view.set := by
  have hi0 : (i 0).val < 50176 := (i 0).isLt
  have hi1 : (i 1).val < 384 := (i 1).isLt
  have ht : (i 0).val / 512 < cfg1.N := by rw [N1_eq]; omega
  obtain ⟨-, -, -, -, -, -, -, -, -, -, e0, e1, -⟩ := idx_facts1 ⟨(i 0).val / 512, ht⟩
  refine ⟨⟨(i 0).val / 512, ht⟩, flush1_5 _, ?_⟩
  rw [mem_blk5]
  intro a
  match a with
  | ⟨0, _⟩ =>
    show win1_5.index ⟨(i 0).val / 512, ht⟩ (0 : Fin 2) * 512 ≤ (i 0).val ∧ (i 0).val < win1_5.index ⟨(i 0).val / 512, ht⟩ (0 : Fin 2) * 512 + 512
    rw [e0]; show (i 0).val / 512 * 512 ≤ (i 0).val ∧ (i 0).val < (i 0).val / 512 * 512 + 512; omega
  | ⟨1, _⟩ =>
    show win1_5.index ⟨(i 0).val / 512, ht⟩ (1 : Fin 2) * 384 ≤ (i 1).val ∧ (i 1).val < win1_5.index ⟨(i 0).val / 512, ht⟩ (1 : Fin 2) * 384 + 384
    rw [e1]; omega

/-- The array of y after the region: y. -/
theorem final5 (c : Dev nD) : (dat1 V c).arrAt 5 cfg1.N = yG V c :=
  (dat1 V c).arrAt_eq_of_cover 5 (yG V c) (fun t _ => flushed5_eq V c t) cover5

/-- The second linear layer's output array after the region, entry (r, o): row r of the hidden activations
    quantized at the activation scale, times row o of the integer weights, plus the integer bias, times the output scale. -/
theorem region1_y (c : Dev nD) (r : Fin 50176) (o : Fin 384) :
    ((dat1 V c).arrAt 5 cfg1.N : S50176x384.Idx → EReal) (ix2 r o)
      = ((∑ k : Fin 1536, Spec.quant ((V c main_v21_0 : S50176x1536.Idx → EReal) (ix2 r k)) ((V c main_v23 : S1x1.Idx → EReal) (ix2 (0 : Fin 1) (0 : Fin 1)))
            * (V c main_v34 : S384x1536.Idx → EReal) (ix2 o k))
          + (V c main_v42 : S1x384.Idx → EReal) (ix2 (0 : Fin 1) o)) * (V c main_v37 : S1x384.Idx → EReal) (ix2 (0 : Fin 1) o) := by
  rw [final5]
  rfl

/-- The same array read block by block: row 512·t + p is row p of the block point t stored. -/
theorem arr5_block (c : Dev nD) (t : Fin cfg1.N) (p : Fin 512) (q : Fin 384) :
    ((dat1 V c).arrAt 5 cfg1.N : S50176x384.Idx → EReal)
        (ix2 (⟨t.val * 512 + p.val, by have ht : t.val < 98 := Nat.lt_of_lt_of_eq t.isLt N1_eq; have := p.isLt; omega⟩ : Fin 50176) q)
      = (yblk1 V c t : Vec Ideal S512x384 .f32) (ix2 p q) := by
  rw [final5]
  exact (yblk_apply V c t p q _ (by show t.val * 512 + p.val = 512 * t.val + p.val; omega)).symm

end Cert.KernelIdeal.Val1

end
-- ==== Proof.Val1Max.lean ====
/-
  The running maximum of |y| of the second linear layer (the second pallas_call), read off the region.

  The body takes the largest absolute value of the block of y it stores — the maximum along the columns, then along
  the rows, each a fold of max from -∞, which is a supremum — and keeps it in a 1×1 window: the first point stores
  its block's value, every later point joins its block's value onto what the window held. By induction over the
  points the window holds, after point n, the largest |y| over the rows below 512·(n + 1). The window is written
  back at the last point only, and that point's block is the whole 1×1 array, so after the region the array holds
  the largest absolute value of y, which is what the output array holds after the region.
-/
import proofs.«110018_j17901423689856_1_alg».proof.Proof.Val1
import proofs.«110018_j17901423689856_1_alg».proof.Proof.SpecIdxLemmas
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val1Max

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Frm Cert.KernelIdeal.Val1

variable (V : (c : Dev nD) → (b : Ref sig .tc) → Buf (Elt Ideal) ((c : Thread nD τ).loc b))

/-! ## The block's largest absolute value -/

/-- The maximum along the columns of a [512, 384] block, row p: the supremum over the columns. -/
theorem rowmax_apply (src : FVec Ideal S512x384 .f32) (hφ : FKind.Formats .f32)
    (hacc : (0xFF800000#32 : BitVec 32) = FKind.maximumf.neutral .f32 hφ) (p : Fin 512) :
    multiReduction .maximumf [1] S512 src 0xFF800000#32 reduces_S512x384_S512 hφ hacc (ix1 p)
      = Finset.univ.sup fun q : Fin 384 => src (ix2 p q) := by
  refine (Ideal.multiReduction_maximumf_single src _ reduces_S512x384_S512 hφ hacc (ix1 p)).trans ?_
  refine (Spec.fold_max_ninf_eq_sup _ _).trans ?_
  exact Finset.sup_congr rfl fun q _ => congrArg src (funext fun a => Fin.ext (by
    match a with
    | ⟨0, _⟩ => rfl
    | ⟨1, _⟩ => rfl))

/-- The maximum along the rows of a [512, 1] column: the supremum over the rows. -/
theorem colmax_apply (src : FVec Ideal S512x1 .f32) (hφ : FKind.Formats .f32)
    (hacc : (0xFF800000#32 : BitVec 32) = FKind.maximumf.neutral .f32 hφ) (u : Fin 1) :
    multiReduction .maximumf [0] S1 src 0xFF800000#32 reduces_S512x1_S1 hφ hacc (ix1 u)
      = Finset.univ.sup fun p : Fin 512 => src (ix2 p (0 : Fin 1)) := by
  refine (Ideal.multiReduction_maximumf_single src _ reduces_S512x1_S1 hφ hacc (ix1 u)).trans ?_
  refine (Spec.fold_max_ninf_eq_sup _ _).trans ?_
  exact Finset.sup_congr rfl fun p _ => congrArg src (funext fun a => Fin.ext (by
    match a with
    | ⟨0, _⟩ => rfl
    | ⟨1, _⟩ => show (u : ℕ) = 0; omega))

/-- A [512] vector viewed as a [512, 1] column reads, at (p, u), the vector at p. -/
theorem cast_col_apply (x : FVec Ideal S512 .f32) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    omega)

/-- The largest absolute value of the block of y, as the body computes it: over the rows, of the largest over the
    columns. -/
theorem pay2_apply (v0 : Vec Ideal S512x1536 .f32) (v2 : Vec Ideal S1x1 .f32) (v12 : Vec Ideal S384x1536 .bf16)
    (v15 : Vec Ideal S1x384 .f32) (v19 : Vec Ideal S1x384 .f32) :
    (k1_pay2 v0 v2 v12 v15 v19 : FVec Ideal S1x1 .f32) (ix2 (0 : Fin 1) (0 : Fin 1))
      = Finset.univ.sup fun p : Fin 512 × Fin 384 =>
          Spec.absE ((k1_pay1 v0 v2 v12 v15 v19 : FVec Ideal S512x384 .f32) (ix2 p.1 p.2)) := by
  rw [← Finset.univ_product_univ, Finset.sup_product_left]
  unfold k1_pay2
  refine (shapeCast_a_1a_apply _ _ _ _).trans ?_
  refine (colmax_apply _ _ _ _).trans ?_
  refine Finset.sup_congr rfl fun p _ => ?_
  refine (cast_col_apply _ _ p 0).trans ?_
  refine (rowmax_apply _ _ _ p).trans ?_
  rfl

/-- A later point joins the block's largest absolute value onto what the 1×1 window held. -/
theorem pay3_apply (v0 : Vec Ideal S512x1536 .f32) (v2 : Vec Ideal S1x1 .f32) (v12 : Vec Ideal S384x1536 .bf16)
    (v15 : Vec Ideal S1x384 .f32) (v19 : Vec Ideal S1x384 .f32) (v35 : Vec Ideal S1x1 .f32) :
    (k1_pay3 v0 v2 v12 v15 v19 v35 : FVec Ideal S1x1 .f32) (ix2 (0 : Fin 1) (0 : Fin 1))
      = max (v35 (ix2 (0 : Fin 1) (0 : Fin 1))) ((k1_pay2 v0 v2 v12 v15 v19 : FVec Ideal S1x1 .f32) (ix2 (0 : Fin 1) (0 : Fin 1))) := by
  unfold k1_pay3
  simp only [shapeCast_self]
  rfl

/-! ## The running maximum, point by point -/

/-- The block's largest absolute value at point t is that of rows 512·t … 512·t + 511 of y. -/
theorem tmax_eq_block (c : Dev nD) (t : Fin cfg1.N) (ht : t.val < 98) :
    (tmax1 V c t : Vec Ideal S1x1 .f32) (ix2 (0 : Fin 1) (0 : Fin 1)) = Spec.blockSupAbs (yF V c) ⟨t.val, ht⟩ := by
  unfold tmax1
  refine (pay2_apply (iblk1 V c 0 t) (iblk1 V c 1 t) (iblk1 V c 2 t) (iblk1 V c 3 t) (iblk1 V c 4 t)).trans ?_
  unfold Spec.blockSupAbs
  refine Finset.sup_congr rfl fun p _ => congrArg Spec.absE ?_
  exact yblk_apply V c t p.1 p.2 (Spec.blockRow ⟨t.val, ht⟩ p.1) (by show t.val * 512 + p.1.val = 512 * t.val + p.1.val; omega)

/-- The running maximum after point n, at its one entry (outside the grid: -∞). -/
def accAt (c : Dev nD) (n : ℕ) : EReal :=
  if h : n < 98 then (acc1 V c n (Nat.lt_of_lt_of_eq h N1_eq.symm) : Vec Ideal S1x1 .f32) (ix2 (0 : Fin 1) (0 : Fin 1)) else ⊥

/-- The first point sets it to its block's largest absolute value. -/
theorem accAt_zero (c : Dev nD) : accAt V c 0 = Spec.blockSupAbs (yF V c) ⟨0, by norm_num⟩ := by
  unfold accAt
  rw [dif_pos (by norm_num : (0 : ℕ) < 98)]
  exact tmax_eq_block V c ⟨0, _⟩ (by norm_num)

/-- Every later point joins its block's largest absolute value. -/
theorem accAt_succ (c : Dev nD) (k : ℕ) (hk : k + 1 < 98) :
    accAt V c (k + 1) = max (accAt V c k) (Spec.blockSupAbs (yF V c) ⟨k + 1, hk⟩) := by
  unfold accAt
  rw [dif_pos hk, dif_pos (Nat.lt_of_succ_lt hk)]
  have h' : k + 1 < cfg1.N := Nat.lt_of_lt_of_eq hk N1_eq.symm
  show (k1_pay3 (iblk1 V c 0 ⟨k + 1, h'⟩) (iblk1 V c 1 ⟨k + 1, h'⟩) (iblk1 V c 2 ⟨k + 1, h'⟩) (iblk1 V c 3 ⟨k + 1, h'⟩)
      (iblk1 V c 4 ⟨k + 1, h'⟩) (acc1 V c k (Nat.lt_of_succ_lt h')) : FVec Ideal S1x1 .f32) (ix2 (0 : Fin 1) (0 : Fin 1)) = _
  refine (pay3_apply (iblk1 V c 0 ⟨k + 1, h'⟩) (iblk1 V c 1 ⟨k + 1, h'⟩) (iblk1 V c 2 ⟨k + 1, h'⟩) (iblk1 V c 3 ⟨k + 1, h'⟩)
      (iblk1 V c 4 ⟨k + 1, h'⟩) (acc1 V c k (Nat.lt_of_succ_lt h'))).trans ?_
  exact congrArg (max _) (tmax_eq_block V c ⟨k + 1, h'⟩ hk)

/-- After the last point the running maximum is the largest absolute value of y. -/
theorem accAt_last (c : Dev nD) : accAt V c 97 = Spec.supAbs (yF V c) :=
  Spec.supAbs_blocks (yF V c) (accAt V c) (accAt_zero V c) (accAt_succ V c)

/-! ## The 1×1 window's array after the region -/

/-- The running maximum does not depend on how its point is written. -/
theorem acc1_congr (c : Dev nD) (n m : ℕ) (hn : n < cfg1.N) (hm : m < cfg1.N) (e : n = m) :
    acc1 V c n hn = acc1 V c m hm := by
  subst e; rfl

/-- The 1×1 array the last point writes back. -/
def maxArr (c : Dev nD) : S1x1.Idx → EReal :=
  (acc1 V c 97 (Nat.lt_of_lt_of_eq (by norm_num : (97 : ℕ) < 98) N1_eq.symm) : Vec Ideal S1x1 .f32)

/-- The one write-back, at the last point, writes the running maximum after that point. -/
theorem flushed6_eq (c : Dev nD) (t : Fin cfg1.N) (hf : (cfg1.win 6).flush t = true) :
    (dat1 V c).flushed 6 t = ((cfg1.win 6).blk t).view.read (Elt Ideal) (maxArr V c) := by
  obtain ⟨-, -, -, -, -, -, -, -, -, -, -, -, e0, e1⟩ := idx_facts1 t
  have ht : t.val < 98 := Nat.lt_of_lt_of_eq t.isLt N1_eq
  have h97 : t.val = 97 := by have := (flush1_6 t).mp hf; omega
  funext j
  have h0 : (j 0).val < 1 := (j 0).isLt
  have h1 : (j 1).val < 1 := (j 1).isLt
  show (cfg1.win 6).cut (grid1.coords t) ((dat1 V c).after 6 t) j = _
  rw [after1_6, View.read_apply, acc1_congr V c t.val 97 t.isLt (Nat.lt_of_lt_of_eq (by norm_num : (97 : ℕ) < 98) N1_eq.symm) h97]
  show maxArr V c ((cfg1.win 6).xinj (grid1.coords t) j) = maxArr V c (((cfg1.win 6).blk t).view.emb j)
  refine congrArg (maxArr V c) (funext fun a => Fin.ext ?_)
  match a with
  | ⟨0, _⟩ => show (j 0).val = win1_6.index t 0 * 1 + 1 * (j 0).val; rw [e0]; omega
  | ⟨1, _⟩ => show (j 1).val = win1_6.index t 1 * 1 + 1 * (j 1).val; rw [e1]; omega

/-- An index of the 1×1 array is in point t's block iff each coordinate is in the block's range on its axis. -/
theorem mem_blk6 (t : Fin cfg1.N) (i : S1x1.Idx) :
    i ∈ ((cfg1.win 6).blk t).view.set ↔ ∀ a : Fin 2, win1_6.index t a * S1x1.size a ≤ (i a).val ∧ (i a).val < win1_6.index t a * S1x1.size a + S1x1.size a := by
  show i ∈ ((View.whole main_v43_1).slice (win1_6.rect t)).set ↔ _
  rw [View.set_slice_whole, Rect.mem_set_unit]
  exact Iff.rfl

/-- The last point's block is the whole 1×1 array. -/
theorem cover6 (i : S1x1.Idx) :
    ∃ t : Fin cfg1.N, (cfg1.win 6).flush t = true ∧ i ∈ ((cfg1.win 6).blk t).view.set := by
  have hi0 : (i 0).val < 1 := (i 0).isLt
  have hi1 : (i 1).val < 1 := (i 1).isLt
  have ht : 97 < cfg1.N := Nat.lt_of_lt_of_eq (by norm_num : (97 : ℕ) < 98) N1_eq.symm
  obtain ⟨-, -, -, -, -, -, -, -, -, -, -, -, e0, e1⟩ := idx_facts1 ⟨97, ht⟩
  refine ⟨⟨97, ht⟩, (flush1_6 _).mpr rfl, ?_⟩
  rw [mem_blk6]
  intro a
  match a with
  | ⟨0, _⟩ =>
    show win1_6.index ⟨97, ht⟩ (0 : Fin 2) * 1 ≤ (i 0).val ∧ (i 0).val < win1_6.index ⟨97, ht⟩ (0 : Fin 2) * 1 + 1
    rw [e0]; omega
  | ⟨1, _⟩ =>
    show win1_6.index ⟨97, ht⟩ (1 : Fin 2) * 1 ≤ (i 1).val ∧ (i 1).val < win1_6.index ⟨97, ht⟩ (1 : Fin 2) * 1 + 1
    rw [e1]; omega

/-- The 1×1 array after the region: the running maximum after the last point. -/
theorem final6 (c : Dev nD) : (dat1 V c).arrAt 6 cfg1.N = maxArr V c :=
  (dat1 V c).arrAt_eq_of_cover 6 (maxArr V c) (flushed6_eq V c) cover6

/-- The 1×1 array after the region holds the largest absolute value of y. -/
theorem region1_max_spec (c : Dev nD) :
    ((dat1 V c).arrAt 6 cfg1.N : S1x1.Idx → EReal) (ix2 (0 : Fin 1) (0 : Fin 1)) = Spec.supAbs (yF V c) := by
  rw [final6]
  refine Eq.trans ?_ (accAt_last V c)
  unfold accAt maxArr
  rw [dif_pos (by norm_num : (97 : ℕ) < 98)]

/-- The 1×1 array after the region holds the largest absolute value of the output array after the region. -/
theorem region1_max (c : Dev nD) :
    ((dat1 V c).arrAt 6 cfg1.N : S1x1.Idx → EReal) (ix2 (0 : Fin 1) (0 : Fin 1))
      = Finset.univ.sup fun p : Fin 50176 × Fin 384 =>
          Spec.absE (((dat1 V c).arrAt 5 cfg1.N : S50176x384.Idx → EReal) (ix2 p.1 p.2)) := by
  rw [region1_max_spec, final5]
  rfl

end Cert.KernelIdeal.Val1Max

end
-- ==== Proof.Val2.lean ====
/-
  The final requantization (the third pallas_call), as a value: what the region leaves in its output array,
  index by index, as a function of the arrays it is entered with.

  Point t of the grid reads rows 512·t … 512·t+511 of y and the 1×1 scale s, and writes back the same rows of
  clip(round(y / s)) · s. Each entry of a written block depends only on the same entry of y and on s, so the
  98 blocks are the restrictions of ONE whole-array function, and since they tile the 50176 rows the output
  array ends holding that function everywhere.
-/
import proofs.«110018_j17901423689856_1_alg».proof.Proof.KI.R2Defs
import proofs.«110018_j17901423689856_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Frm

/-! ## The body's arithmetic at one entry -/

/-- The 1×1 scale, cast to its own shape and broadcast over the block, reads its one entry everywhere. -/
theorem scale_bcast2_apply (s : Vec Ideal S1x1 .f32) (p : Fin 512) (q : Fin 384) :
    broadcastTo S512x384 (shapeCast S1x1 s shapeCasts_S1x1_S1x1) broadcasts_S1x1_S512x384 (ix2 p q) = s (ix2 0 0) := by
  refine (broadcastTo_apply _ _ (ix2 p q) (ix2 0 0) (fun a => ?_)).trans (congrFun (shapeCast_self s _) _)
  match a with
  | ⟨0, _⟩ => rfl
  | ⟨1, _⟩ => rfl

/-- Entry (p, q) of the block the body stores: the entry of y quantized at the scale, times the scale. -/
theorem pay2r_apply (x : Vec Ideal S512x384 .f32) (s s' : Vec Ideal S1x1 .f32) (p : Fin 512) (q : Fin 384) :
    k2_pay1 x s s' (ix2 p q) = Spec.quant (x (ix2 p q)) (s (ix2 0 0)) * s' (ix2 0 0) := by
  have hx : shapeCast S512x384 x shapeCasts_S512x384_S512x384 (ix2 p q) = x (ix2 p q) :=
    congrFun (shapeCast_self x _) _
  show Spec.quant (shapeCast S512x384 x shapeCasts_S512x384_S512x384 (ix2 p q))
        (broadcastTo S512x384 (shapeCast S1x1 s shapeCasts_S1x1_S1x1) broadcasts_S1x1_S512x384 (ix2 p q))
      * broadcastTo S512x384 (shapeCast S1x1 s' shapeCasts_S1x1_S1x1) broadcasts_S1x1_S512x384 (ix2 p q) = _
  rw [hx, scale_bcast2_apply s p q, scale_bcast2_apply s' p q]

/-! ## The arrays the region is entered with, and its blocks -/

-- the TensorCore's buffer contents when the region is entered
variable (V : (c : Dev nD) → (b : Ref sig .tc) → Buf (Elt Ideal) ((c : Thread nD τ).loc b))

/-- The array y the region requantizes, as it finds it. -/
abbrev yarr2 (c : Dev nD) : S50176x384.Idx → EReal := V c main_v43_0
/-- The 1×1 array holding the scale s, as the region finds it. -/
abbrev sarr2 (c : Dev nD) : S1x1.Idx → EReal := V c main_v45
/-- The row block of y at point `t`. -/
abbrev yblk2 (c : Dev nD) (t : Fin cfg2.N) : Vec Ideal S512x384 .f32 := iblk2 V c 0 t
/-- The scale's block at point `t`. -/
abbrev sblk2 (c : Dev nD) (t : Fin cfg2.N) : Vec Ideal S1x1 .f32 := iblk2 V c 1 t

/-- What the output array ends holding: every entry of y quantized at the scale, times the scale. -/
abbrev requant (c : Dev nD) : S50176x384.Idx → EReal :=
  fun i => Spec.quant (yarr2 V c i) (sarr2 V c (ix2 0 0)) * sarr2 V c (ix2 0 0)

/-- The windows' index maps over the grid: the row-blocked windows sit at block row `t`, block column 0; the scale's
    window is always its whole 1×1 array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, q) of the row block of y at point `t` is entry (512·t + p, q) of y. -/
theorem yblk2_apply (c : Dev nD) (t : Fin cfg2.N) (p : Fin 512) (q : Fin 384) (k : S50176x384.Idx)
    (hk0 : (k 0).val = 512 * t.val + p.val) (hk1 : (k 1).val = q.val) :
    yblk2 V c t (ix2 p q) = yarr2 V c k := by
  obtain ⟨e0, e1, -⟩ := idx_facts2 t
  show V c main_v43_0 (((cfg2.win 0).blk t).view.emb (ix2 p q)) = V c main_v43_0 k
  refine congrArg (V c main_v43_0) (funext fun a => Fin.ext ?_)
  match a with
  | ⟨0, _⟩ => show win2_0.index t (0 : Fin 2) * 512 + 1 * p.val = (k 0).val; omega
  | ⟨1, _⟩ => show win2_0.index t (1 : Fin 2) * 384 + 1 * q.val = (k 1).val; omega

/-- The scale's block at every point is the scale's array. -/
theorem sblk2_apply (c : Dev nD) (t : Fin cfg2.N) :
    sblk2 V c t (ix2 0 0) = sarr2 V c (ix2 0 0) := by
  obtain ⟨-, -, e2, e3, -⟩ := idx_facts2 t
  show V c main_v45 (((cfg2.win 1).blk t).view.emb (ix2 0 0)) = V c main_v45 (ix2 0 0)
  refine congrArg (V c main_v45) (funext fun a => Fin.ext ?_)
  match a with
  | ⟨0, _⟩ => show win2_1.index t (0 : Fin 2) * 1 + 1 * 0 = 0; omega
  | ⟨1, _⟩ => show win2_1.index t (1 : Fin 2) * 1 + 1 * 0 = 0; omega

/-! ## From blocks to the array -/

/-- What point `t` writes back is block `t` of `requant`: rows 512·t … 512·t+511 of it. -/
theorem flushed2_eq (c : Dev nD) (t : Fin cfg2.N) :
    (dat2 V c).flushed 2 t = ((cfg2.win 2).blk t).view.read (Elt Ideal) (requant V c) := by
  show (cfg2.win 2).cut (grid2.coords t) ((dat2 V c).after 2 t) = _
  rw [after2_2]
  obtain ⟨-, -, -, -, e4, e5⟩ := idx_facts2 t
  refine funext fun (j : S512x384.Idx) => ?_
  obtain ⟨p, q, rfl⟩ : ∃ (p : Fin 512) (q : Fin 384), j = ix2 p q := ⟨j 0, j 1, eq_ix2 j⟩
  show k2_pay1 (yblk2 V c t) (sblk2 V c t) (sblk2 V c t) (ix2 p q)
      = requant V c (((cfg2.win 2).blk t).view.emb (ix2 p q))
  refine (pay2r_apply (yblk2 V c t) (sblk2 V c t) (sblk2 V c t) p q).trans ?_
  have hy : yblk2 V c t (ix2 p q) = yarr2 V c (((cfg2.win 2).blk t).view.emb (ix2 p q)) := by
    refine yblk2_apply V c t p q _ ?_ ?_
    · show win2_2.index t (0 : Fin 2) * 512 + 1 * p.val = 512 * t.val + p.val; omega
    · show win2_2.index t (1 : Fin 2) * 384 + 1 * q.val = q.val; omega
  rw [hy, sblk2_apply V c t]

/-- An index of the output array is in point `t`'s block iff each coordinate is in the block's range on its axis. -/
theorem mem_blk2 (t : Fin cfg2.N) (i : S50176x384.Idx) :
    i ∈ ((cfg2.win 2).blk t).view.set ↔ ∀ a : Fin 2, win2_2.index t a * S512x384.size a ≤ (i a).val ∧ (i a).val < win2_2.index t a * S512x384.size a + S512x384.size a := by
  show i ∈ ((View.whole main_v46).slice (win2_2.rect t)).set ↔ _
  rw [View.set_slice_whole, Rect.mem_set_unit]
  exact Iff.rfl

/-- Row r lies in the block of point r / 512: the 98 blocks tile the 50176 rows. -/
theorem covered2 (i : S50176x384.Idx) :
    ∃ t : Fin cfg2.N, (cfg2.win 2).flush t = true ∧ i ∈ ((cfg2.win 2).blk t).view.set := by
  have hi0 : (i 0).val < 50176 := idx2_lt0 i
  have hi1 : (i 1).val < 384 := idx2_lt1 i
  let t : Fin cfg2.N := ⟨(i 0).val / 512, by show (i 0).val / 512 < 98; omega⟩
  have ht : t.val = (i 0).val / 512 := rfl
  obtain ⟨-, -, -, -, e4, e5⟩ := idx_facts2 t
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 384 ≤ (i 1).val ∧ (i 1).val < win2_2.index t (1 : Fin 2) * 384 + 384; omega

/-- The output array after the region: `requant` of the arrays the region was entered with. -/
theorem region2_final (c : Dev nD) : (dat2 V c).arrAt 2 cfg2.N = requant V c :=
  (dat2 V c).arrAt_eq_of_cover 2 (requant V c) (fun t _ => flushed2_eq V c t) covered2

/-- The output array after the region, entry by entry. -/
theorem region2_out (c : Dev nD) (r : Fin 50176) (o : Fin 384) :
    ((dat2 V c).arrAt 2 cfg2.N : S50176x384.Idx → EReal) (ix2 r o)
      = Spec.quant (V c main_v43_0 (ix2 r o)) (V c main_v45 (ix2 0 0)) * V c main_v45 (ix2 0 0) :=
  congrFun (region2_final V c) (ix2 r o)

end Cert.KernelIdeal.Val

end
-- ==== Proof.HostA.lean ====
/-
  What the first kernel call's five operand arrays hold, index by index.

  Before the first call the program computes, from the first layer's weights W (one row per output channel), its bias b
  and the activation scale a: the row scales wsf o = (max_k |W o k|) / 127 (a reduction of the absolute values over the
  second axis from -∞, which is the supremum over the row, divided by a broadcast 127); the integer weights
  wint o k = clip(round(W o k / wsf o)) (the quotient by the row scale broadcast along the row, rounded to nearest even,
  clamped between the broadcast constants -128 and 127, then a format change that is the identity on extended reals);
  the output scales wscale o = wsf o · a as one row; the integer bias bint o = round(b o / (wsf o · a)) as one row;
  and the activations flattened from [256, 196, 384] to [50176, 384] in row-major order (row r = 196·b + s).

  Each array is read stretch by stretch: a stretch's result at an index is its operations read at that index over the
  contents the stretch before left, and a reference a stretch does not write keeps its contents.
-/
import proofs.«110018_j17901423689856_1_alg».proof.Proof.Gen.KernelIdeal.Regions
import proofs.«110018_j17901423689856_1_alg».proof.Proof.SpecIdx
import proofs.«110018_j17901423689856_1_alg».proof.Proof.SpecLemmas
import Idealize.ShloMosaic.Lib.StableHlo.Run
import Idealize.ShloMosaic.Lib.Pipeline.Value
import Idealize.ShloMosaic.Lib.ValueIdx
import Idealize.ShloMosaic.PureOps.Reduce
import Idealize.ShloMosaic.PureOps.Ideal.Laws

noncomputable section

namespace Cert.KernelIdeal.HostA

open Cert.KernelIdeal Cert.KernelIdeal.Gen Idealize.ShloMosaic Idealize.ShloMosaic.TcCoe Idealize.ShloMosaic.ValueIdx Cert.Spec
open Idealize.ShloMosaic.StableHlo

variable (m : (ℓ : Loc nD τ sig) → Buf (Elt Ideal) ℓ) (c : Dev nD)

/-- The contents types of the arrays read here. -/
abbrev TW : Type := (⟨S1536x384, .f32⟩ : BufTy).Contents (Elt Ideal)
abbrev TWb : Type := (⟨S1536x384, .bf16⟩ : BufTy).Contents (Elt Ideal)
abbrev TV : Type := (⟨S1536, .f32⟩ : BufTy).Contents (Elt Ideal)
abbrev TR : Type := (⟨S1x1536, .f32⟩ : BufTy).Contents (Elt Ideal)
abbrev TS : Type := (⟨S_, .f32⟩ : BufTy).Contents (Elt Ideal)
abbrev T1 : Type := (⟨S1, .f32⟩ : BufTy).Contents (Elt Ideal)

/-! ## Operations read at an index (over variables) -/

/-- The reduction over axis 1 of the absolute values, from -∞: the row's largest absolute value. -/
theorem rowMax_apply (x1 : TW) (o : Fin 1536) :
    (Host.reduce (s := S1536x384) (t := S1536) (FloatOps.maximumf (F := Ideal) (φ := .f32)) (Host.absf (F := Ideal) (s := S1536x384) (φ := .f32) x1) (constant (F := Ideal) S_ .f32 0xFF800000#32)
        reducesTo_S1536x384_S1536_d1 h_S_) (ix1 o)
      = Finset.univ.sup fun k : Fin 384 => absE (matOf x1 o k) := by
  have hR : S1536x384.Reduces [1] S1536 := by decide
  have hl : ∀ k : Fin 384, hR.lift (ix1 o) k = ix2 o k := fun k => by
    funext a; match a with | ⟨0, _⟩ => rfl | ⟨1, _⟩ => rfl
  rw [Host.reduce_eq_fold_single _ _ _ reducesTo_S1536x384_S1536_d1 hR h_S_ (ix1 o)]
  refine (fold_max_ninf_eq_sup (ι := Fin (S1536x384.size 1)) Finset.univ _).trans ?_
  exact Finset.sup_congr rfl (fun k _ => congrArg (fun i => absE (x1 i)) (hl k))

/-- The row scale: the row's largest absolute value over 127. -/
theorem rowScale_apply (x1 : TW) (o : Fin 1536) :
    Host.divf (F := Ideal) (s := S1536) (φ := .f32) (Host.reduce (s := S1536x384) (t := S1536) (FloatOps.maximumf (F := Ideal) (φ := .f32)) (Host.absf (F := Ideal) (s := S1536x384) (φ := .f32) x1) (constant (F := Ideal) S_ .f32 0xFF800000#32)
        reducesTo_S1536x384_S1536_d1 h_S_)
      (broadcastInDim S1536 ![] bcast_S_S1536 (constant (F := Ideal) S_ .f32 0x42FE0000#32)) (ix1 o)
      = wsf (matOf x1) o := by
  show Ideal.div ((Host.reduce (s := S1536x384) (t := S1536) (FloatOps.maximumf (F := Ideal) (φ := .f32)) (Host.absf (F := Ideal) (s := S1536x384) (φ := .f32) x1) (constant (F := Ideal) S_ .f32 0xFF800000#32)
        reducesTo_S1536x384_S1536_d1 h_S_) (ix1 o)) c127 = _
  rw [rowMax_apply]
  rfl

/-- A vector broadcast along the rows of a matrix reads the row's entry. -/
theorem bcastRows_apply (v : TV) (o : Fin 1536) (k : Fin 384) :
    broadcastInDim S1536x384 ![0, 1] bcast_S1536x1_S1536x384_0_1
      (broadcastInDim S1536x1 ![0] bcast_S1536_S1536x1_0 v) (ix2 o k) = v (ix1 o) := by
  rw [broadcastInDim_apply _ bcast_S1536x1_S1536x384_0_1 _ (ix2 o k) (ix2 o (0 : Fin 1))
        (fun a => match a with | ⟨0, _⟩ => rfl | ⟨1, _⟩ => rfl),
    broadcastInDim_apply _ bcast_S1536_S1536x1_0 v (ix2 o (0 : Fin 1)) (ix1 o)
        (fun a => match a with | ⟨0, _⟩ => rfl)]

/-- A scalar broadcast to a matrix reads the scalar. -/
theorem bcastMat_apply (y : TS) (i : S1536x384.Idx) :
    broadcastInDim S1536x384 ![] bcast_S_S1536x384 y i = y ix0 :=
  broadcastInDim_apply _ bcast_S_S1536x384 y i ix0 (fun a => a.elim0)

/-- A scalar broadcast to a vector reads the scalar. -/
theorem bcastVec_apply (y : TS) (i : S1536.Idx) :
    broadcastInDim S1536 ![] bcast_S_S1536 y i = y ix0 :=
  broadcastInDim_apply _ bcast_S_S1536 y i ix0 (fun a => a.elim0)

/-- A vector reshaped to one row reads the vector. -/
theorem rowOf_apply (v : TV) (o : Fin 1536) :
    shapeCast S1x1536 v shapeCasts_S1536_S1x1536 (ix2 (0 : Fin 1) o) = v (ix1 o) :=
  shapeCast_apply v shapeCasts_S1536_S1x1536 (ix2 (0 : Fin 1) o) (ix1 o) (by
    rw [Shape.rowMajor_val_one, Shape.rowMajor_val_two]
    show o.val = 0 * 1536 + o.val
    omega)

/-- A one-element vector reshaped to a scalar reads the element. -/
theorem scalarOf_apply (v : T1) :
    shapeCast S_ v shapeCasts_S1_S_ ix0 = v (ix1 (0 : Fin 1)) :=
  shapeCast_apply v shapeCasts_S1_S_ ix0 (ix1 (0 : Fin 1)) (by
    rw [Shape.rowMajor_val_one]
    have h := (S_.rowMajor ix0).isLt
    show 0 = (S_.rowMajor ix0).val
    have e : S_.numel = 1 := rfl
    omega)

/-- A one-element vector reshaped to a 1×1 matrix reads the element. -/
theorem oneByOne_apply (v : T1) :
    shapeCast S1x1 v shapeCasts_S1_S1x1 (ix2 (0 : Fin 1) (0 : Fin 1)) = v (ix1 (0 : Fin 1)) :=
  shapeCast_apply v shapeCasts_S1_S1x1 (ix2 (0 : Fin 1) (0 : Fin 1)) (ix1 (0 : Fin 1)) (by
    rw [Shape.rowMajor_val_one, Shape.rowMajor_val_two]
    rfl)

/-- The activations reshaped to rows read the batch and sequence coordinates of the row. -/
theorem flat_apply (x0 : (⟨S256x196x384, .f32⟩ : BufTy).Contents (Elt Ideal)) (r : Fin 50176) (k : Fin 384) :
    shapeCast S50176x384 x0 shapeCasts_S256x196x384_S50176x384 (ix2 r k) = flatX x0 r k :=
  shapeCast_apply x0 shapeCasts_S256x196x384_S50176x384 (ix2 r k) (ix3 (rowB r) (rowS r) k) (by
    rw [Shape.rowMajor_val_three, Shape.rowMajor_val_two]
    show ((r.val / 196) * 196 + r.val % 196) * 384 + k.val = r.val * 384 + k.val
    have := Nat.div_add_mod r.val 196
    omega)

/-- A matrix over a vector broadcast along its rows reads the entry over the row's entry. -/
theorem quotRows_apply (x1 : TW) (v : TV) (o : Fin 1536) (k : Fin 384) :
    Host.divf (F := Ideal) (s := S1536x384) (φ := .f32) x1
      (broadcastInDim S1536x384 ![0, 1] bcast_S1536x1_S1536x384_0_1
        (broadcastInDim S1536x1 ![0] bcast_S1536_S1536x1_0 v)) (ix2 o k) = Ideal.div (x1 (ix2 o k)) (v (ix1 o)) := by
  show Ideal.div (x1 (ix2 o k)) (broadcastInDim S1536x384 ![0, 1] bcast_S1536x1_S1536x384_0_1
        (broadcastInDim S1536x1 ![0] bcast_S1536_S1536x1_0 v) (ix2 o k)) = _
  rw [bcastRows_apply]

/-- A clamp between two broadcast scalars reads the clamp of the entry. -/
theorem clamp_apply (lo hi : TS) (y : TW) (i : S1536x384.Idx) :
    minimumf (F := Ideal) (s := S1536x384) (φ := .f32) (broadcastInDim S1536x384 ![] bcast_S_S1536x384 hi)
      (maximumf (broadcastInDim S1536x384 ![] bcast_S_S1536x384 lo) y) i = min (hi ix0) (max (lo ix0) (y i)) := by
  show min (broadcastInDim S1536x384 ![] bcast_S_S1536x384 hi i) (max (broadcastInDim S1536x384 ![] bcast_S_S1536x384 lo i) (y i)) = _
  rw [bcastMat_apply, bcastMat_apply]

/-- A vector times a broadcast scalar reads the entry times the scalar. -/
theorem scaleTimes_apply (v : TV) (a : TS) (i : S1536.Idx) :
    mulf (F := Ideal) (s := S1536) (φ := .f32) v (broadcastInDim S1536 ![] bcast_S_S1536 a) i = v i * a ix0 := by
  show v i * broadcastInDim S1536 ![] bcast_S_S1536 a i = _
  rw [bcastVec_apply]

/-- A vector over (a vector times a broadcast scalar) reads entry by entry. -/
theorem biasQuot_apply (b v : TV) (a : TS) (i : S1536.Idx) :
    Host.divf (F := Ideal) (s := S1536) (φ := .f32) b (mulf v (broadcastInDim S1536 ![] bcast_S_S1536 a)) i
      = Ideal.div (b i) (v i * a ix0) := by
  show Ideal.div (b i) (mulf (F := Ideal) (s := S1536) (φ := .f32) v (broadcastInDim S1536 ![] bcast_S_S1536 a) i) = _
  rw [scaleTimes_apply]

/-! ## The valuations before the first call, read at an index -/

/-- %0: the activations flattened to rows. -/
theorem V1_v0 (r : Fin 50176) (k : Fin 384) :
    V1 m c main_v0 (ix2 r k) = flatX (m ((c : Thread nD τ).loc main_arg0)) r k := by
  show StableHlo.after hostOps0 _ (Proc.devRef .tc main_v0) (ix2 r k) = _
  after_results
  exact flat_apply _ r k

/-- %1: the activation scale as a 1×1 array. -/
theorem V1_v1 : V1 m c main_v1 (ix2 (0 : Fin 1) (0 : Fin 1)) = vecOf (m ((c : Thread nD τ).loc main_arg5)) 0 := by
  show StableHlo.after hostOps0 _ (Proc.devRef .tc main_v1) (ix2 (0 : Fin 1) (0 : Fin 1)) = _
  after_results
  exact oneByOne_apply _

/-- %2: the activation scale as a scalar. -/
theorem V1_v2 : V1 m c main_v2 ix0 = vecOf (m ((c : Thread nD τ).loc main_arg5)) 0 := by
  show StableHlo.after hostOps0 _ (Proc.devRef .tc main_v2) ix0 = _
  after_results
  exact scalarOf_apply _

/-- %6: the row scales of the first layer's weights. -/
theorem V1_v6 (o : Fin 1536) :
    V1 m c main_v6 (ix1 o) = wsf (matOf (m ((c : Thread nD τ).loc main_arg1))) o := by
  show StableHlo.after hostOps0 _ (Proc.devRef .tc main_v6) (ix1 o) = _
  after_results
  exact rowScale_apply _ o

/-- %9: the weights over their row scales. -/
theorem V1_v9 (o : Fin 1536) (k : Fin 384) :
    V1 m c main_v9 (ix2 o k)
      = Ideal.div (matOf (m ((c : Thread nD τ).loc main_arg1)) o k) (wsf (matOf (m ((c : Thread nD τ).loc main_arg1))) o) := by
  show StableHlo.after hostOps0 _ (Proc.devRef .tc main_v9) (ix2 o k) = _
  after_results
  exact (quotRows_apply _ _ o k).trans (congrArg (Ideal.div _) (rowScale_apply _ o))

/-- %10: the rounded quotients. -/
theorem V2_v10 (o : Fin 1536) (k : Fin 384) :
    V2 m c main_v10 (ix2 o k) = rne (Ideal.div ((matOf (m ((c : Thread nD τ).loc main_arg1))) o k) (wsf (matOf (m ((c : Thread nD τ).loc main_arg1))) o)) := by
  have h9 := V1_v9 m c o k
  show StableHlo.after hostOps0_1 (V1 m c) (Proc.devRef .tc main_v10) (ix2 o k) = _
  generalize V1 m c = W at h9 ⊢
  after_results
  simp only [TRef.ofBuf, TRef.toBuf, cast_eq]
  show rne (W (Proc.devRef .tc main_v9) (ix2 o k)) = _
  rw [h9]

theorem V3_v10 (o : Fin 1536) (k : Fin 384) :
    V3 m c main_v10 (ix2 o k) = rne (Ideal.div ((matOf (m ((c : Thread nD τ).loc main_arg1))) o k) (wsf (matOf (m ((c : Thread nD τ).loc main_arg1))) o)) :=
  (congrFun (V3_of m c main_v10 (by decide)) _).trans (V2_v10 m c o k)

/-- The clamp's lower bound. -/
theorem V3_cst1 : V3 m c main_cst_1 ix0 = cm128 := by
  show StableHlo.after hostOps0_2 (V2 m c) (Proc.devRef .tc main_cst_1) ix0 = _
  generalize V2 m c = W
  after_results
  rfl

/-- The clamp's upper bound. -/
theorem V3_cst2 : V3 m c main_cst_2 ix0 = c127 := by
  show StableHlo.after hostOps0_2 (V2 m c) (Proc.devRef .tc main_cst_2) ix0 = _
  generalize V2 m c = W
  after_results
  rfl

/-- %11: the rounded quotients clamped: the integer weights. -/
theorem V4_v11 (o : Fin 1536) (k : Fin 384) :
    V4 m c main_v11 (ix2 o k) = wint (matOf (m ((c : Thread nD τ).loc main_arg1))) o k := by
  have h10 := V3_v10 m c o k
  have hc1 := V3_cst1 m c
  have hc2 := V3_cst2 m c
  show StableHlo.after hostOps0_3 (V3 m c) (Proc.devRef .tc main_v11) (ix2 o k) = _
  generalize V3 m c = W at h10 hc1 hc2 ⊢
  after_results
  simp only [TRef.ofBuf, TRef.toBuf, cast_eq, id]
  exact (clamp_apply _ _ _ _).trans (by rw [h10, hc1, hc2]; rfl)

/-- The row scales, the activation scale and the bias reach the fifth stretch as the first left them. -/
theorem V4_v6 (o : Fin 1536) : V4 m c main_v6 (ix1 o) = wsf (matOf (m ((c : Thread nD τ).loc main_arg1))) o :=
  (congrFun ((V4_of m c main_v6 (by decide)).trans ((V3_of m c main_v6 (by decide)).trans (V2_of m c main_v6 (by decide)))) _).trans
    (V1_v6 m c o)
theorem V4_v2 : V4 m c main_v2 ix0 = (vecOf (m ((c : Thread nD τ).loc main_arg5)) 0) :=
  (congrFun ((V4_of m c main_v2 (by decide)).trans ((V3_of m c main_v2 (by decide)).trans (V2_of m c main_v2 (by decide)))) _).trans
    (V1_v2 m c)
theorem V4_arg2 : V4 m c main_arg2 = m ((c : Thread nD τ).loc main_arg2) :=
  (V4_of m c main_arg2 (by decide)).trans ((V3_of m c main_arg2 (by decide)).trans ((V2_of m c main_arg2 (by decide)).trans
    (V1_of m c main_arg2 (by decide))))

/-- %12: the integer weights, the format change the identity. -/
theorem V5_v12 (o : Fin 1536) (k : Fin 384) :
    V5 m c main_v12 (ix2 o k) = wint (matOf (m ((c : Thread nD τ).loc main_arg1))) o k := by
  have h11 := V4_v11 m c o k
  show StableHlo.after hostOps0_4 (V4 m c) (Proc.devRef .tc main_v12) (ix2 o k) = _
  generalize V4 m c = W at h11 ⊢
  after_results
  exact h11

/-- %15: the output scales as one row. -/
theorem V5_v15 (o : Fin 1536) :
    V5 m c main_v15 (ix2 (0 : Fin 1) o) = wscale (matOf (m ((c : Thread nD τ).loc main_arg1))) (vecOf (m ((c : Thread nD τ).loc main_arg5)) 0) o := by
  have h6 := V4_v6 m c o
  have h2 := V4_v2 m c
  show StableHlo.after hostOps0_4 (V4 m c) (Proc.devRef .tc main_v15) (ix2 (0 : Fin 1) o) = _
  generalize V4 m c = W at h6 h2 ⊢
  after_results
  exact (rowOf_apply _ o).trans ((scaleTimes_apply _ _ _).trans (by rw [h6, h2]; rfl))

/-- %18: the bias over the output scales. -/
theorem V5_v18 (o : Fin 1536) :
    V5 m c main_v18 (ix1 o) = Ideal.div ((vecOf (m ((c : Thread nD τ).loc main_arg2))) o) (wsf (matOf (m ((c : Thread nD τ).loc main_arg1))) o * (vecOf (m ((c : Thread nD τ).loc main_arg5)) 0)) := by
  have h6 := V4_v6 m c o
  have h2 := V4_v2 m c
  have hb := V4_arg2 m c
  show StableHlo.after hostOps0_4 (V4 m c) (Proc.devRef .tc main_v18) (ix1 o) = _
  generalize V4 m c = W at h6 h2 hb ⊢
  after_results
  exact (biasQuot_apply _ _ _ _).trans (by rw [h6, h2, hb]; rfl)

/-- %19: the rounded bias quotients: the integer bias. -/
theorem V6_v19 (o : Fin 1536) :
    V6 m c main_v19 (ix1 o) = bint (matOf (m ((c : Thread nD τ).loc main_arg1))) (vecOf (m ((c : Thread nD τ).loc main_arg2))) (vecOf (m ((c : Thread nD τ).loc main_arg5)) 0) o := by
  have h18 := V5_v18 m c o
  show StableHlo.after hostOps0_5 (V5 m c) (Proc.devRef .tc main_v19) (ix1 o) = _
  generalize V5 m c = W at h18 ⊢
  after_results
  simp only [TRef.ofBuf, TRef.toBuf, cast_eq]
  show rne (W (Proc.devRef .tc main_v18) (ix1 o)) = _
  rw [h18]
  rfl

/-! ## What the first call's five operand arrays hold -/

/-- %0, the first operand: the activations flattened to rows. -/
theorem V7_v0 (r : Fin 50176) (k : Fin 384) :
    V7 m c main_v0 (ix2 r k) = flatX (m ((c : Thread nD τ).loc main_arg0)) r k :=
  (congrFun ((V7_of m c main_v0 (by decide)).trans ((V6_of m c main_v0 (by decide)).trans ((V5_of m c main_v0 (by decide)).trans
    ((V4_of m c main_v0 (by decide)).trans ((V3_of m c main_v0 (by decide)).trans (V2_of m c main_v0 (by decide))))))) _).trans
    (V1_v0 m c r k)

/-- %1, the second operand: the activation scale. -/
theorem V7_v1 : V7 m c main_v1 (ix2 (0 : Fin 1) (0 : Fin 1)) = (vecOf (m ((c : Thread nD τ).loc main_arg5)) 0) :=
  (congrFun ((V7_of m c main_v1 (by decide)).trans ((V6_of m c main_v1 (by decide)).trans ((V5_of m c main_v1 (by decide)).trans
    ((V4_of m c main_v1 (by decide)).trans ((V3_of m c main_v1 (by decide)).trans (V2_of m c main_v1 (by decide))))))) _).trans
    (V1_v1 m c)

/-- %12, the third operand: the integer weights. -/
theorem V7_v12 (o : Fin 1536) (k : Fin 384) :
    V7 m c main_v12 (ix2 o k) = wint (matOf (m ((c : Thread nD τ).loc main_arg1))) o k :=
  (congrFun ((V7_of m c main_v12 (by decide)).trans (V6_of m c main_v12 (by decide))) _).trans (V5_v12 m c o k)

/-- %20, the fourth operand: the integer bias as one row. -/
theorem V7_v20 (o : Fin 1536) :
    V7 m c main_v20 (ix2 (0 : Fin 1) o) = bint (matOf (m ((c : Thread nD τ).loc main_arg1))) (vecOf (m ((c : Thread nD τ).loc main_arg2))) (vecOf (m ((c : Thread nD τ).loc main_arg5)) 0) o := by
  have h19 := V6_v19 m c o
  show StableHlo.after hostOps0_6 (V6 m c) (Proc.devRef .tc main_v20) (ix2 (0 : Fin 1) o) = _
  generalize V6 m c = W at h19 ⊢
  after_results
  exact (rowOf_apply _ o).trans h19

/-- %15, the fifth operand: the output scales as one row. -/
theorem V7_v15 (o : Fin 1536) :
    V7 m c main_v15 (ix2 (0 : Fin 1) o) = wscale (matOf (m ((c : Thread nD τ).loc main_arg1))) (vecOf (m ((c : Thread nD τ).loc main_arg5)) 0) o :=
  (congrFun ((V7_of m c main_v15 (by decide)).trans (V6_of m c main_v15 (by decide))) _).trans (V5_v15 m c o)

end Cert.KernelIdeal.HostA

end
-- ==== Proof.HostB.lean ====
/-
  The kernel program's host operations between its first and its second call, read at an index.

  The first call leaves the hidden activations and, as a 1×1 array, their largest absolute value M. Before the second
  call the program computes, from M and the second layer's weights W and bias b:
    the activation scale      s = M / 127                                   (a 1×1 array, and again as a scalar),
    the row scales            wsf o = (max_k |W o k|) / 127,
    the integer weights       wint o k = clip(round(W o k / wsf o)),
    the output scales         wscale o = wsf o · s                          (a 1×384 row),
    the integer bias          bint o = round(b o / (wsf o · s))            (a 1×384 row).
  Each is first written as the operations' term over the arrays the operations find (argument arrays are never
  written; the first call's results are the unknowns it leaves), then read entry by entry: a quotient, a product,
  a rounding, a clamp act entry by entry; a broadcast reads its operand at the kept coordinates; a reshape reads
  the entry with the same row-major position; the reduction over a row is a fold of max from -∞, which is the
  row's supremum.
-/
import proofs.«110018_j17901423689856_1_alg».proof.Proof.Gen.KernelIdeal.Regions
import proofs.«110018_j17901423689856_1_alg».proof.Proof.SpecIdx
import proofs.«110018_j17901423689856_1_alg».proof.Proof.SpecLemmas
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

set_option maxRecDepth 16384

noncomputable section

namespace Cert.KernelIdeal.HostB

open Idealize.ShloMosaic Idealize.ShloMosaic.TcCoe Idealize.SL.Sem Idealize.ShloMosaic.StableHlo
open Cert.KernelIdeal Cert.KernelIdeal.Gen Idealize.ShloMosaic.ValueIdx Cert.Spec

variable (m : (ℓ : Loc nD τ sig) → Buf (Elt Ideal) ℓ) (outs : Outs (F := Ideal)) (c : Dev nD)

/-! ## What the stretches between the first and the second call find

No operation before the second call writes an argument array, and the first call leaves its two results
(the hidden activations and their largest absolute value) at the unknowns. -/

/-- The second layer's weights are still the launch contents after the first call. -/
theorem V8_arg3 : V8 m outs c main_arg3 = m ((c : Thread nD τ).loc main_arg3) :=
  (V8_of m outs c main_arg3 (by decide)).trans <| (V7_of m c main_arg3 (by decide)).trans <| (V6_of m c main_arg3 (by decide)).trans <|
  (V5_of m c main_arg3 (by decide)).trans <| (V4_of m c main_arg3 (by decide)).trans <| (V3_of m c main_arg3 (by decide)).trans <|
  (V2_of m c main_arg3 (by decide)).trans <| (V1_of m c main_arg3 (by decide)).trans rfl

/-- The second layer's bias is still the launch contents when the bias is quantized. -/
theorem V12_arg4 : V12 m outs c main_arg4 = m ((c : Thread nD τ).loc main_arg4) :=
  (V12_of m outs c main_arg4 (by decide)).trans <| (V11_of m outs c main_arg4 (by decide)).trans <|
  (V10_of m outs c main_arg4 (by decide)).trans <| (V9_of m outs c main_arg4 (by decide)).trans <|
  (V8_of m outs c main_arg4 (by decide)).trans <| (V7_of m c main_arg4 (by decide)).trans <| (V6_of m c main_arg4 (by decide)).trans <|
  (V5_of m c main_arg4 (by decide)).trans <| (V4_of m c main_arg4 (by decide)).trans <| (V3_of m c main_arg4 (by decide)).trans <|
  (V2_of m c main_arg4 (by decide)).trans <| (V1_of m c main_arg4 (by decide)).trans rfl

/-- The first call's second result, the largest absolute value, is the unknown it was left at. -/
theorem V8_v21_1 : V8 m outs c main_v21_1 = outs 8 main_v21_1 c := by
  show Function.update _ _ _ _ = _
  exact Function.update_self _ _ _

/-- The first call's first result, the hidden activations, is the unknown it was left at. -/
theorem V8_v21_0 : V8 m outs c main_v21_0 = outs 8 main_v21_0 c := by
  show Function.update (Function.update _ _ _) _ _ _ = _
  rw [Function.update_of_ne (StableHlo.devRef_ne_of_ne (by decide) : (Proc.devRef .tc main_v21_0 : DevRef τ sig) ≠ Proc.devRef .tc main_v21_1)]
  exact Function.update_self _ _ _

/-- No host operation between the two calls writes the hidden activations. -/
theorem V15_v21_0 : V15 m outs c main_v21_0 = outs 8 main_v21_0 c :=
  (V15_of m outs c main_v21_0 (by decide)).trans <| (V14_of m outs c main_v21_0 (by decide)).trans <|
  (V13_of m outs c main_v21_0 (by decide)).trans <| (V12_of m outs c main_v21_0 (by decide)).trans <|
  (V11_of m outs c main_v21_0 (by decide)).trans <| (V10_of m outs c main_v21_0 (by decide)).trans <|
  (V9_of m outs c main_v21_0 (by decide)).trans (V8_v21_0 m outs c)

/-! ## The stretches' results as arrays

Each result of a stretch is its operations' term over the contents the stretch found. -/

/-- 127 as a scalar array. -/
abbrev k127 : FVec Ideal S_ .f32 := constant (F := Ideal) S_ .f32 0x42FE0000#32
/-- -128 as a scalar array. -/
abbrev km128 : FVec Ideal S_ .f32 := constant (F := Ideal) S_ .f32 0xC3000000#32
/-- -∞ as a scalar array. -/
abbrev kninf : FVec Ideal S_ .f32 := constant (F := Ideal) S_ .f32 0xFF800000#32

/-- The row scales of a weight matrix as the host computes them: each row's largest absolute value over 127. -/
def wsfArr (W : FVec Ideal S384x1536 .f32) : FVec Ideal S384 .f32 :=
  Host.divf (Host.reduce FloatOps.maximumf (Host.absf W) kninf reducesTo_S384x1536_S384_d1 h_S_) (broadcastInDim S384 ![] bcast_S_S384 k127)

/-- The integer weights as the host computes them: each entry over its row's scale, rounded, clamped into [-128, 127]. -/
def wintArr (W : FVec Ideal S384x1536 .f32) : FVec Ideal S384x1536 .f32 :=
  minimumf (broadcastInDim S384x1536 ![] bcast_S_S384x1536 k127)
    (maximumf (broadcastInDim S384x1536 ![] bcast_S_S384x1536 km128)
      (Host.roundeven (Host.divf W (broadcastInDim S384x1536 ![0, 1] bcast_S384x1_S384x1536_0_1
        (broadcastInDim S384x1 ![0] bcast_S384_S384x1_0 (wsfArr W))))))

/-- The output scales as the host computes them: the row scales times the activation scale. -/
def wscaleArr (W : FVec Ideal S384x1536 .f32) (a : FVec Ideal S_ .f32) : FVec Ideal S384 .f32 :=
  mulf (wsfArr W) (broadcastInDim S384 ![] bcast_S_S384 a)

/-- The activation scale: the first call's largest absolute value over 127, a 1×1 array. -/
theorem V9_v23_arr : @Eq (FVec Ideal S1x1 .f32) (V9 m outs c main_v23)
    (Host.divf (V8 m outs c main_v21_1) (broadcastInDim S1x1 ![] bcast_S_S1x1 k127)) := by
  show StableHlo.after hostOps1 _ (Proc.devRef .tc main_v23) = _
  after_results

/-- The activation scale as a scalar array. -/
theorem V9_v24_arr : @Eq (FVec Ideal S_ .f32) (V9 m outs c main_v24)
    (shapeCast S_ (V9 m outs c main_v23 : FVec Ideal S1x1 .f32) shapeCasts_S1x1_S_) := by
  rw [V9_v23_arr]
  show StableHlo.after hostOps1 _ (Proc.devRef .tc main_v24) = _
  after_results
  rfl

/-- The row scales of the second layer's weights. -/
theorem V9_v28_arr : @Eq (FVec Ideal S384 .f32) (V9 m outs c main_v28) (wsfArr (V8 m outs c main_arg3)) := by
  show StableHlo.after hostOps1 _ (Proc.devRef .tc main_v28) = _
  after_results
  rfl

/-- The weights over their row scales. -/
theorem V9_v31_arr : @Eq (FVec Ideal S384x1536 .f32) (V9 m outs c main_v31) (Host.divf (V8 m outs c main_arg3)
    (broadcastInDim S384x1536 ![0, 1] bcast_S384x1_S384x1536_0_1 (broadcastInDim S384x1 ![0] bcast_S384_S384x1_0 (wsfArr (V8 m outs c main_arg3))))) := by
  show StableHlo.after hostOps1 _ (Proc.devRef .tc main_v31) = _
  after_results
  rfl

/-- … rounded. -/
theorem V10_v32_arr : @Eq (FVec Ideal S384x1536 .f32) (V10 m outs c main_v32) (Host.roundeven (V9 m outs c main_v31)) := by
  show StableHlo.after hostOps1_1 _ (Proc.devRef .tc main_v32) = _
  after_results
  rfl

/-- The clamp's lower bound. -/
theorem V11_cst_6_arr : @Eq (FVec Ideal S_ .f32) (V11 m outs c main_cst_6) km128 := by
  show StableHlo.after hostOps1_2 _ (Proc.devRef .tc main_cst_6) = _
  after_results

/-- The clamp's upper bound. -/
theorem V11_cst_7_arr : @Eq (FVec Ideal S_ .f32) (V11 m outs c main_cst_7) k127 := by
  show StableHlo.after hostOps1_2 _ (Proc.devRef .tc main_cst_7) = _
  after_results

/-- … clamped. -/
theorem V12_v33_arr : @Eq (FVec Ideal S384x1536 .f32) (V12 m outs c main_v33)
    (minimumf (broadcastInDim S384x1536 ![] bcast_S_S384x1536 (V11 m outs c main_cst_7))
      (maximumf (broadcastInDim S384x1536 ![] bcast_S_S384x1536 (V11 m outs c main_cst_6)) (V11 m outs c main_v32))) := by
  show StableHlo.after hostOps1_3 _ (Proc.devRef .tc main_v33) = _
  after_results
  rfl

/-- The integer weights: the clamped values in the narrower float format, which holds the same numbers. -/
theorem V13_v34_arr : @Eq (FVec Ideal S384x1536 .bf16) (V13 m outs c main_v34) (truncf .bf16 (V12 m outs c main_v33 : FVec Ideal S384x1536 .f32) bitsLt_bf16_f32) := by
  show StableHlo.after hostOps1_4 _ (Proc.devRef .tc main_v34) = _
  after_results <;> rfl

/-- The output scales as a 1×384 row. -/
theorem V13_v37_arr : @Eq (FVec Ideal S1x384 .f32) (V13 m outs c main_v37)
    (shapeCast S1x384 (mulf (V12 m outs c main_v28 : FVec Ideal S384 .f32) (broadcastInDim S384 ![] bcast_S_S384 (V12 m outs c main_v24))) shapeCasts_S384_S1x384) := by
  show StableHlo.after hostOps1_4 _ (Proc.devRef .tc main_v37) = _
  after_results <;> rfl

/-- The bias over the output scales. -/
theorem V13_v40_arr : @Eq (FVec Ideal S384 .f32) (V13 m outs c main_v40)
    (Host.divf (V12 m outs c main_arg4) (mulf (V12 m outs c main_v28 : FVec Ideal S384 .f32) (broadcastInDim S384 ![] bcast_S_S384 (V12 m outs c main_v24)))) := by
  show StableHlo.after hostOps1_4 _ (Proc.devRef .tc main_v40) = _
  after_results <;> rfl

/-- … rounded: the integer bias. -/
theorem V14_v41_arr : @Eq (FVec Ideal S384 .f32) (V14 m outs c main_v41) (Host.roundeven (V13 m outs c main_v40)) := by
  show StableHlo.after hostOps1_5 _ (Proc.devRef .tc main_v41) = _
  after_results <;> rfl

/-- The integer bias as a 1×384 row. -/
theorem V15_v42_arr : @Eq (FVec Ideal S1x384 .f32) (V15 m outs c main_v42)
    (shapeCast S1x384 (V14 m outs c main_v41 : FVec Ideal S384 .f32) shapeCasts_S384_S1x384) := by
  show StableHlo.after hostOps1_6 _ (Proc.devRef .tc main_v42) = _
  after_results <;> rfl

/-! ## The arrays read at an index -/

/-- A quotient of arrays is the quotient entry by entry. -/
theorem hdivf_apply {s : Shape} (A B : FVec Ideal s .f32) (i : s.Idx) : Host.divf A B i = Ideal.div (A i) (B i) := rfl
/-- Rounding an array rounds each entry to the nearest integer, ties to even. -/
theorem hround_apply {s : Shape} (A : FVec Ideal s .f32) (i : s.Idx) : Host.roundeven A i = rne (A i) := rfl
/-- The absolute value of an array entry by entry. -/
theorem habs_apply {s : Shape} (A : FVec Ideal s .f32) (i : s.Idx) : Host.absf A i = absE (A i) := rfl

/-- A row's scale: the supremum of the row's absolute values, over 127. The reduction over the columns is a fold of
    max from -∞ over the row's entries, and such a fold is the supremum. -/
theorem wsfArr_apply (W : FVec Ideal S384x1536 .f32) (o : Fin 384) : wsfArr W (ix1 o) = wsf (matOf W) o := by
  have h : S384x1536.Reduces [1] S384 := by decide
  have hl : ∀ k : Fin (S384x1536.size 1), h.lift (ix1 o) k = ix2 o (k : Fin 1536) := by
    intro k; funext a; apply Fin.ext; rw [Shape.Reduces.lift_val]
    match a with
    | ⟨0, _⟩ => rfl
    | ⟨1, _⟩ => rfl
  rw [wsfArr, hdivf_apply,
    Host.reduce_eq_fold_single FloatOps.maximumf (Host.absf W) kninf reducesTo_S384x1536_S384_d1 h h_S_ (ix1 o),
    broadcastInDim_apply _ bcast_S_S384 k127 (ix1 o) ix0 (fun a => a.elim0)]
  show Ideal.div ((Finset.univ : Finset (Fin (S384x1536.size 1))).fold max ninf32 (fun k => absE (W (h.lift (ix1 o) k)))) c127 = _
  rw [fold_max_ninf_eq_sup]
  simp only [hl]
  rfl

/-- The integer weights entry by entry: the entry over its row's scale, rounded and clamped. -/
theorem wintArr_apply (W : FVec Ideal S384x1536 .f32) (o : Fin 384) (k : Fin 1536) : wintArr W (ix2 o k) = wint (matOf W) o k := by
  rw [wintArr, minimumf_apply, maximumf_apply, hround_apply, hdivf_apply,
    broadcastInDim_apply _ bcast_S_S384x1536 k127 (ix2 o k) ix0 (fun a => a.elim0),
    broadcastInDim_apply _ bcast_S_S384x1536 km128 (ix2 o k) ix0 (fun a => a.elim0),
    broadcastInDim_apply _ bcast_S384x1_S384x1536_0_1 _ (ix2 o k) (ix2 o (0 : Fin 1)) (fun a => match a with
      | ⟨0, _⟩ => by show o.val = if (384 : Nat) = 1 then 0 else o.val; rw [if_neg (by decide)]
      | ⟨1, _⟩ => by show 0 = if (1 : Nat) = 1 then 0 else k.val; rw [if_pos rfl]),
    broadcastInDim_apply _ bcast_S384_S384x1_0 _ (ix2 o (0 : Fin 1)) (ix1 o) (fun a => match a with
      | ⟨0, _⟩ => by show o.val = if (384 : Nat) = 1 then 0 else o.val; rw [if_neg (by decide)]),
    wsfArr_apply]
  rfl

/-! ## The five arrays the second call reads -/

/-- The activation scale is the first call's largest absolute value over 127. -/
theorem V15_v23 : (V15 m outs c main_v23 : FVec Ideal S1x1 .f32) (ix2 0 0)
    = Ideal.div ((outs 8 main_v21_1 c : FVec Ideal S1x1 .f32) (ix2 0 0)) c127 := by
  have e : V15 m outs c main_v23 = V9 m outs c main_v23 :=
    (V15_of m outs c main_v23 (by decide)).trans <| (V14_of m outs c main_v23 (by decide)).trans <|
    (V13_of m outs c main_v23 (by decide)).trans <| (V12_of m outs c main_v23 (by decide)).trans <|
    (V11_of m outs c main_v23 (by decide)).trans (V10_of m outs c main_v23 (by decide))
  rw [e, V9_v23_arr, V8_v21_1, hdivf_apply, broadcastInDim_apply _ bcast_S_S1x1 k127 (ix2 0 0) ix0 (fun a => a.elim0)]
  rfl

/-- The scalar the scales are multiplied by is the activation scale's one entry. -/
theorem V12_v24_apply : (V12 m outs c main_v24 : FVec Ideal S_ .f32) ix0 = (V15 m outs c main_v23 : FVec Ideal S1x1 .f32) (ix2 0 0) := by
  have e24 : V12 m outs c main_v24 = V9 m outs c main_v24 :=
    (V12_of m outs c main_v24 (by decide)).trans <| (V11_of m outs c main_v24 (by decide)).trans (V10_of m outs c main_v24 (by decide))
  have e23 : V15 m outs c main_v23 = V9 m outs c main_v23 :=
    (V15_of m outs c main_v23 (by decide)).trans <| (V14_of m outs c main_v23 (by decide)).trans <|
    (V13_of m outs c main_v23 (by decide)).trans <| (V12_of m outs c main_v23 (by decide)).trans <|
    (V11_of m outs c main_v23 (by decide)).trans (V10_of m outs c main_v23 (by decide))
  rw [e24, e23, V9_v24_arr]
  refine shapeCast_apply _ shapeCasts_S1x1_S_ ix0 (ix2 0 0) ?_
  have h1 := (S1x1.rowMajor (ix2 (0 : Fin 1) (0 : Fin 1))).isLt
  have h2 := (S_.rowMajor ix0).isLt
  have n1 : S1x1.numel = 1 := by decide
  have n2 : S_.numel = 1 := by decide
  omega

/-- The row scales the later operations read are those of the second layer's weights at launch. -/
theorem V12_v28_arr : @Eq (FVec Ideal S384 .f32) (V12 m outs c main_v28) (wsfArr (m ((c : Thread nD τ).loc main_arg3))) := by
  have e : V12 m outs c main_v28 = V9 m outs c main_v28 :=
    (V12_of m outs c main_v28 (by decide)).trans <| (V11_of m outs c main_v28 (by decide)).trans (V10_of m outs c main_v28 (by decide))
  rw [e, V9_v28_arr, V8_arg3]

/-- The integer weights. -/
theorem V15_v34 (o : Fin 384) (k : Fin 1536) : (V15 m outs c main_v34 : FVec Ideal S384x1536 .bf16) (ix2 o k)
    = wint (matOf (m ((c : Thread nD τ).loc main_arg3) : FVec Ideal S384x1536 .f32)) o k := by
  have e34 : V15 m outs c main_v34 = V13 m outs c main_v34 :=
    (V15_of m outs c main_v34 (by decide)).trans (V14_of m outs c main_v34 (by decide))
  have e32 : V11 m outs c main_v32 = V10 m outs c main_v32 := V11_of m outs c main_v32 (by decide)
  have e33 : @Eq (FVec Ideal S384x1536 .f32) (V12 m outs c main_v33) (wintArr (m ((c : Thread nD τ).loc main_arg3))) := by
    rw [V12_v33_arr, V11_cst_7_arr, V11_cst_6_arr, e32, V10_v32_arr, V9_v31_arr, V8_arg3]; rfl
  rw [e34, V13_v34_arr, truncf_apply, e33, wintArr_apply]

/-- The output scales: the row scales times the activation scale. -/
theorem V15_v37 (o : Fin 384) : (V15 m outs c main_v37 : FVec Ideal S1x384 .f32) (ix2 0 o)
    = wscale (matOf (m ((c : Thread nD τ).loc main_arg3) : FVec Ideal S384x1536 .f32))
        ((V15 m outs c main_v23 : FVec Ideal S1x1 .f32) (ix2 0 0)) o := by
  have e37 : V15 m outs c main_v37 = V13 m outs c main_v37 :=
    (V15_of m outs c main_v37 (by decide)).trans (V14_of m outs c main_v37 (by decide))
  rw [e37, V13_v37_arr, shapeCast_a_1a_apply _ shapeCasts_S384_S1x384 (0 : Fin 1) o, mulf_apply,
    broadcastInDim_apply _ bcast_S_S384 _ (ix1 o) ix0 (fun a => a.elim0), V12_v28_arr, wsfArr_apply, V12_v24_apply]
  rfl

/-- The integer bias: the bias over the output scale, rounded. -/
theorem V15_v42 (o : Fin 384) : (V15 m outs c main_v42 : FVec Ideal S1x384 .f32) (ix2 0 o)
    = bint (matOf (m ((c : Thread nD τ).loc main_arg3) : FVec Ideal S384x1536 .f32))
        (vecOf (m ((c : Thread nD τ).loc main_arg4) : FVec Ideal S384 .f32))
        ((V15 m outs c main_v23 : FVec Ideal S1x1 .f32) (ix2 0 0)) o := by
  rw [V15_v42_arr, shapeCast_a_1a_apply _ shapeCasts_S384_S1x384 (0 : Fin 1) o, V14_v41_arr, hround_apply, V13_v40_arr,
    hdivf_apply, mulf_apply, broadcastInDim_apply _ bcast_S_S384 _ (ix1 o) ix0 (fun a => a.elim0), V12_v28_arr, wsfArr_apply,
    V12_v24_apply, V12_arg4]
  rfl

end Cert.KernelIdeal.HostB

end
-- ==== Proof.HostC.lean ====
/-
  The kernel program's last host operations, read at an index.

  After the second pallas_call the host divides its 1×1 running maximum of |y| by 127: that quotient is the scale s
  the third pallas_call requantizes with. After the third pallas_call the host only changes shapes: the [50176, 384]
  result is read as [256, 196, 384] (row 196·b + s of the flat array is entry (b, s) of the result) and the 1×1 scale as
  a scalar. Neither stretch writes the arrays the pallas_calls leave, so those are read as the calls left them.
-/
import proofs.«110018_j17901423689856_1_alg».proof.Proof.Gen.KernelIdeal.Regions
import proofs.«110018_j17901423689856_1_alg».proof.Proof.SpecIdx
import proofs.«110018_j17901423689856_1_alg».proof.Proof.SpecLemmas
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.HostC

open Idealize.ShloMosaic Idealize.ShloMosaic.TcCoe Idealize.SL.Sem Idealize.ShloMosaic.StableHlo
open Idealize.ShloMosaic.ValueIdx
open Cert.KernelIdeal Cert.KernelIdeal.Gen Cert.Spec

/-! ## The two stretches, over any contents they start from -/

/-- The stretch between the second and the third pallas_call leaves, as the scale array, the 1×1 maximum divided by
    the constant 127 broadcast to 1×1. -/
theorem after2_v45 (W : Valuation τ sig (Elt Ideal)) :
    (StableHlo.after hostOps2 W (Proc.devRef .tc main_v45) : S1x1.Idx → EReal)
      = Host.divf (W main_v43_1 : S1x1.Idx → EReal) (broadcastInDim S1x1 ![] bcast_S_S1x1 (constant (F := Ideal) S_ .f32 0x42FE0000#32)) := by
  after_results
  all_goals rfl

/-- The closing stretch leaves, as the result, the third pallas_call's output array under the change of shape
    [50176, 384] → [256, 196, 384], -/
theorem after3_v47 (W : Valuation τ sig (Elt Ideal)) :
    (StableHlo.after hostOps3 W (Proc.devRef .tc main_v47) : S256x196x384.Idx → EReal)
      = shapeCast S256x196x384 (W main_v46 : S50176x384.Idx → EReal) shapeCasts_S50176x384_S256x196x384 := by
  after_results
  all_goals rfl

/-- and, as the returned scale, the 1×1 scale array under the change of shape [1, 1] → []. -/
theorem after3_v48 (W : Valuation τ sig (Elt Ideal)) :
    (StableHlo.after hostOps3 W (Proc.devRef .tc main_v48) : S_.Idx → EReal)
      = shapeCast S_ (W main_v45 : S1x1.Idx → EReal) shapeCasts_S1x1_S_ := by
  after_results
  all_goals rfl

variable (m : (ℓ : Loc nD τ sig) → Buf (Elt Ideal) ℓ) (outs : Outs (F := Ideal)) (c : Dev nD)

/-! ## What the pallas_calls leave, read where they left it -/

/-- After the second pallas_call its two output arrays hold what it left: y, -/
theorem V16_v43_0 : V16 m outs c main_v43_0 = outs 16 main_v43_0 c := by
  show Function.update (Function.update (V15 m outs c) (Proc.devRef .tc main_v43_0) (outs 16 main_v43_0 c)) (Proc.devRef .tc main_v43_1) (outs 16 main_v43_1 c) (Proc.devRef .tc main_v43_0) = _
  rw [Function.update_of_ne (StableHlo.devRef_ne_of_ne (by decide)), Function.update_self]

/-- and the 1×1 maximum of |y|. -/
theorem V16_v43_1 : V16 m outs c main_v43_1 = outs 16 main_v43_1 c := by
  show Function.update (Function.update (V15 m outs c) (Proc.devRef .tc main_v43_0) (outs 16 main_v43_0 c)) (Proc.devRef .tc main_v43_1) (outs 16 main_v43_1 c) (Proc.devRef .tc main_v43_1) = _
  rw [Function.update_self]

/-- After the third pallas_call its output array holds what it left. -/
theorem V18_v46 : V18 m outs c main_v46 = outs 18 main_v46 c := by
  show Function.update (V17 m outs c) (Proc.devRef .tc main_v46) (outs 18 main_v46 c) (Proc.devRef .tc main_v46) = _
  rw [Function.update_self]

/-! ## The four reads -/

/-- The third pallas_call is entered with y as the second left it: the stretch between them does not write it. -/
theorem V17_v43_0 : V17 m outs c main_v43_0 = outs 16 main_v43_0 c :=
  (V17_of m outs c main_v43_0 (by decide)).trans (V16_v43_0 m outs c)

/-- The scale the third pallas_call is entered with: the maximum of |y| the second left, over 127. -/
theorem V17_v45 : V17 m outs c main_v45 (ix2 0 0) = Ideal.div (outs 16 main_v43_1 c (ix2 0 0)) c127 := by
  have e := after2_v45 (V16 m outs c)
  rw [V16_v43_1] at e
  refine (congrFun e (ix2 0 0)).trans ?_
  show Ideal.div (outs 16 main_v43_1 c (ix2 0 0)) (broadcastInDim S1x1 ![] bcast_S_S1x1 (constant (F := Ideal) S_ .f32 0x42FE0000#32) (ix2 0 0)) = _
  rw [broadcastInDim_apply _ bcast_S_S1x1 (constant (F := Ideal) S_ .f32 0x42FE0000#32) (ix2 0 0) ix0 (fun a => a.elim0)]
  rfl

/-- Entry (b, s, o) of the result is entry (196·b + s, o) of what the third pallas_call left: both have row-major
    position (196·b + s)·384 + o. -/
theorem V19_v47 (b : Fin 256) (s : Fin 196) (o : Fin 384) :
    V19 m outs c main_v47 (ix3 b s o) = outs 18 main_v46 c (ix2 (flatRow b s) o) := by
  have e := after3_v47 (V18 m outs c)
  rw [V18_v46] at e
  refine (congrFun e (ix3 b s o)).trans ?_
  refine shapeCast_apply _ shapeCasts_S50176x384_S256x196x384 (ix3 b s o) (ix2 (flatRow b s) o) ?_
  rw [Shape.rowMajor_val_two, Shape.rowMajor_val_three]
  rfl

/-- The returned scale is the one entry of the scale array the third pallas_call was entered with: the third
    pallas_call does not write it, and both shapes have the single row-major position 0. -/
theorem V19_v48 : V19 m outs c main_v48 ix0 = V17 m outs c main_v45 (ix2 0 0) := by
  have e := after3_v48 (V18 m outs c)
  rw [V18_of m outs c main_v45 (by decide)] at e
  refine (congrFun e ix0).trans ?_
  refine shapeCast_apply _ shapeCasts_S1x1_S_ ix0 (ix2 0 0) ?_
  have h1 : (S1x1.rowMajor (ix2 0 0)).val < 1 := (S1x1.rowMajor (ix2 0 0)).isLt
  have h2 : (S_.rowMajor ix0).val < 1 := (S_.rowMajor ix0).isLt
  omega

end Cert.KernelIdeal.HostC

end
-- ==== Proof.RefA.lean ====
/-
  The first half of the reference, index by index, as the functions of Spec.lean.

  Layer 1's row scale is the largest absolute value of a weight row over 127 (a reduction of max from -∞ over the
  row is the row's supremum); the integer weights, the integer bias and the output scale follow entry by entry, the
  clamp's bounds being the integers -128 and 127 read as reals. The contraction over the 384 input channels at
  (b, s, o) reads the activations at (b, s, k) and the integer weights at (o, k), so the hidden activations at
  (b, s, o) are hid at row 196·b + s and column o. Their largest absolute value, a reduction of max from -∞ over all
  three axes, is the supremum over every (b, s, o), which (b, s, o) ↦ (196·b + s, o) carries onto the supremum over
  rows and columns; over 127 it is the first activation scale.
-/
import proofs.«110018_j17901423689856_1_alg».proof.Proof.Gen.ReferenceIdeal.Read
import proofs.«110018_j17901423689856_1_alg».proof.Proof.SpecIdx
import proofs.«110018_j17901423689856_1_alg».proof.Proof.SpecLemmas
import Idealize.ShloMosaic.PureOps.Reduce
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx Cert.Spec

variable (x0 : (⟨S256x196x384, .f32⟩ : BufTy).Contents (Elt Ideal)) (x1 : (⟨S1536x384, .f32⟩ : BufTy).Contents (Elt Ideal))
  (x2 : (⟨S1536, .f32⟩ : BufTy).Contents (Elt Ideal)) (x5 : (⟨S1, .f32⟩ : BufTy).Contents (Elt Ideal))

/-- The integer -128, converted to a float, is the constant -128 of the clamp. -/
theorem lo_eq : (((4294967168#32 : BitVec 32).toInt : ℝ) : EReal) = cm128 := by
  rw [cm128_eq]
  have h : (4294967168#32 : BitVec 32).toInt = -128 := by decide
  rw [h]; norm_num

/-- The integer 127, converted to a float, is the constant 127 of the clamp. -/
theorem hi_eq : (((127#32 : BitVec 32).toInt : ℝ) : EReal) = c127 := by
  rw [c127_eq]
  have h : (127#32 : BitVec 32).toInt = 127 := by decide
  rw [h]; norm_num

/-- The reduction over the columns of |W| from -∞ is the largest absolute value of row o. -/
theorem rowmax (o : Fin 1536) :
    val_main_v1 (F := Ideal) x1 (ix1 o) = Finset.univ.sup fun k : Fin 384 => absE (matOf x1 o k) := by
  unfold val_main_v1
  have h : S1536x384.Reduces [1] S1536 := by decide
  rw [Host.reduce_eq_fold_single FloatOps.maximumf _ _ reducesTo_S1536x384_S1536_d1 h h_S_ (ix1 o)]
  have e : (val_main_v0 (F := Ideal) x1 ∘ h.lift (ix1 o)) = fun k : Fin 384 => absE (matOf x1 o k) := by
    funext k
    have hk : h.lift (ix1 o) k = ix2 o k :=
      funext fun a => Fin.ext (by match a with | ⟨0, _⟩ => rfl | ⟨1, _⟩ => rfl)
    show val_main_v0 (F := Ideal) x1 (h.lift (ix1 o) k) = _
    rw [hk]; rfl
  rw [e]
  exact fold_max_ninf_eq_sup Finset.univ _

/-- The scale of weight row o: its largest absolute value over 127. -/
theorem v3_eq (o : Fin 1536) : val_main_v3 (F := Ideal) x1 (ix1 o) = wsf (matOf x1) o := by
  rw [val_main_v3_apply, val_main_v2_apply, rowmax]; rfl

/-- The integer weights: the weights over their row's scale, rounded and clamped. -/
theorem v8_eq (o : Fin 1536) (k : Fin 384) : val_main_v8 (F := Ideal) x1 (ix2 o k) = wint (matOf x1) o k := by
  have e : idx_main_v4 (idx_main_v5 (ix2 o k)) = ix1 o :=
    funext fun a => Fin.ext (by match a with | ⟨0, _⟩ => rfl)
  rw [val_main_v8_apply, val_main_call1_v4_apply, val_main_call1_v3_apply, val_main_c_1_apply,
    val_main_call1_v2_apply, val_main_call1_v1_apply, val_main_call1_v0_apply, val_main_c_apply,
    val_main_v7_apply, val_main_v6_apply, val_main_v5_apply, val_main_v4_apply, e, v3_eq]
  show min (((127#32 : BitVec 32).toInt : ℝ) : EReal)
      (max (((4294967168#32 : BitVec 32).toInt : ℝ) : EReal) (rne (Ideal.div (x1 (ix2 o k)) (wsf (matOf x1) o)))) = _
  rw [hi_eq, lo_eq]; rfl

/-- The integer bias: the bias over the channel's output scale, rounded. -/
theorem v15_eq (o : Fin 1536) :
    val_main_v15 (F := Ideal) x1 x2 x5 (ix1 o) = bint (matOf x1) (vecOf x2) (vecOf x5 0) o := by
  have e : idx_main_v12 (ix1 o) = ix1 (0 : Fin 1) :=
    funext fun a => Fin.ext (by match a with | ⟨0, _⟩ => rfl)
  rw [val_main_v15_apply, val_main_v14_apply, val_main_v13_apply, val_main_v12_apply, e, v3_eq]; rfl

/-- The output scale of channel o: its row scale times the activation scale. -/
theorem v21_eq (o : Fin 1536) : val_main_v21 (F := Ideal) x1 x5 (ix1 o) = wscale (matOf x1) (vecOf x5 0) o := by
  have e : idx_main_v20 (ix1 o) = ix1 (0 : Fin 1) :=
    funext fun a => Fin.ext (by match a with | ⟨0, _⟩ => rfl)
  rw [val_main_v21_apply, val_main_v20_apply, e, v3_eq]; rfl

/-- The activations over the activation scale. -/
theorem v11_eq (b : Fin 256) (s : Fin 196) (k : Fin 384) :
    val_main_v11 (F := Ideal) x0 x5 (ix3 b s k) = Ideal.div (x0 (ix3 b s k)) (vecOf x5 0) := by
  have e : idx_main_v9 (idx_main_v10 (ix3 b s k)) = ix1 (0 : Fin 1) :=
    funext fun a => Fin.ext (by match a with | ⟨0, _⟩ => rfl)
  rw [val_main_v11_apply, val_main_v10_apply, val_main_v9_apply, e]; rfl

/-- The reference's hidden activations (after relu), index by index. -/
theorem ref_hid (b : Fin 256) (s : Fin 196) (o : Fin 1536) :
    val_main_v25 (F := Ideal) x0 x1 x2 x5 (ix3 b s o)
      = hid (flatX x0) (matOf x1) (vecOf x2) (vecOf x5 0) (flatRow b s) o := by
  have e1 : idx_main_v22 (idx_main_v23 (ix3 b s o)) = ix1 o :=
    funext fun a => Fin.ext (by match a with | ⟨0, _⟩ => rfl)
  have e2 : idx_main_v17 (idx_main_v18 (ix3 b s o)) = ix1 o :=
    funext fun a => Fin.ext (by match a with | ⟨0, _⟩ => rfl)
  have el : ∀ k : Fin 384, lidx_main_v16 (ix3 b s o) k = ix3 b s k := fun k =>
    funext fun a => Fin.ext (by match a with | ⟨0, _⟩ => rfl | ⟨1, _⟩ => rfl | ⟨2, _⟩ => rfl)
  have er : ∀ k : Fin 384, ridx_main_v16 (ix3 b s o) k = ix2 o k := fun k =>
    funext fun a => Fin.ext (by match a with | ⟨0, _⟩ => rfl | ⟨1, _⟩ => rfl)
  rw [val_main_v25_apply, val_main_v24_apply, val_main_v19_apply, val_main_v16_apply, val_main_v18_apply,
    val_main_v17_apply, e2, v15_eq, val_main_v23_apply, val_main_v22_apply, e1, v21_eq,
    val_main_call3_v0_apply, val_main_call3_cst_apply]
  simp only [el, er, v11_eq, v8_eq]
  unfold hid lin
  simp only [flatX, rowB_flatRow, rowS_flatRow]
  rfl

/-- Two families with the same values, each reached from the other by a map of indices, have one supremum. -/
private theorem sup_eq_sup_of_maps {α β : Type} [Fintype α] [Fintype β] (f : α → EReal) (g : β → EReal)
    (u : α → β) (v : β → α) (hu : ∀ a, f a = g (u a)) (hv : ∀ b, g b = f (v b)) :
    Finset.univ.sup f = Finset.univ.sup g := by
  apply le_antisymm
  · exact Finset.sup_le fun a _ => (hu a).le.trans (Finset.le_sup (Finset.mem_univ (u a)))
  · exact Finset.sup_le fun b _ => (hv b).le.trans (Finset.le_sup (Finset.mem_univ (v b)))

/-- |hid| at (b, s, o), as the reference computes it, is |hid| at row 196·b + s and column o. -/
theorem v26_eq (b : Fin 256) (s : Fin 196) (o : Fin 1536) :
    val_main_v26 (F := Ideal) x0 x1 x2 x5 (ix3 b s o)
      = absE (hid (flatX x0) (matOf x1) (vecOf x2) (vecOf x5 0) (flatRow b s) o) := by
  rw [val_main_v26_apply, ref_hid]; rfl

/-- The reduction of |hid| over all three axes from -∞ is the largest absolute value of the hidden
    activations: every index reduces to the one scalar index, a fold of max from -∞ is a supremum, and
    (b, s, o) ↦ (196·b + s, o) is a bijection between the two index sets. -/
theorem v27_eq :
    val_main_v27 (F := Ideal) x0 x1 x2 x5 ix0 = supAbs (hid (flatX x0) (matOf x1) (vecOf x2) (vecOf x5 0)) := by
  unfold val_main_v27
  rw [Host.reduce_eq_fold, Finset.filter_true_of_mem fun i _ => funext fun b => b.elim0]
  refine (fold_max_ninf_eq_sup Finset.univ _).trans ?_
  unfold supAbs
  refine sup_eq_sup_of_maps _ _
    (fun i : S256x196x1536.Idx => ((flatRow (i 0) (i 1), i 2) : Fin 50176 × Fin 1536))
    (fun p : Fin 50176 × Fin 1536 => (ix3 (rowB p.1) (rowS p.1) p.2 : S256x196x1536.Idx)) ?_ ?_
  · intro i
    obtain ⟨b, s, o, rfl⟩ : ∃ (b : Fin 256) (s : Fin 196) (o : Fin 1536), i = ix3 b s o :=
      ⟨i 0, i 1, i 2, eq_ix3 i⟩
    exact v26_eq x0 x1 x2 x5 b s o
  · intro p
    have h := v26_eq x0 x1 x2 x5 (rowB p.1) (rowS p.1) p.2
    rw [flatRow_rowB_rowS] at h
    exact h.symm

/-- The reference's first activation scale. -/
theorem ref_s1 :
    val_main_v28 (F := Ideal) x0 x1 x2 x5 ix0 = s1 (flatX x0) (matOf x1) (vecOf x2) (vecOf x5 0) := by
  rw [val_main_v28_apply, v27_eq]; rfl

end Cert.ReferenceIdeal.RefVal

end
-- ==== Proof.RefB.lean ====
/-
  The second half of the reference, index by index: the hidden activations requantized at their scale, the second
  layer's row scales, integer weights, integer bias and output scales, the contraction over the 1536 hidden channels,
  the largest absolute value of the result over 127, and the result requantized at that scale. Each stage is
  identified with the function of the specification it computes, over the flattened rows r = 196·b + s.
-/
import proofs.«110018_j17901423689856_1_alg».proof.Proof.RefA
import proofs.«110018_j17901423689856_1_alg».proof.Proof.SpecLemmas
import proofs.«110018_j17901423689856_1_alg».proof.Proof.SpecIdxLemmas
import Idealize.ShloMosaic.PureOps.Reduce
import Idealize.ShloMosaic.PureOps.Ideal.Laws
import Mathlib.Data.Finset.Lattice.Fold

noncomputable section

namespace Cert.ReferenceIdeal.RefVal

open Cert.ReferenceIdeal Cert.ReferenceIdeal.Gen Cert.ReferenceIdeal.Read Idealize.ShloMosaic Idealize.ShloMosaic.ValueIdx Cert.Spec

variable (x0 : (⟨S256x196x384, .f32⟩ : BufTy).Contents (Elt Ideal)) (x1 : (⟨S1536x384, .f32⟩ : BufTy).Contents (Elt Ideal))
  (x2 : (⟨S1536, .f32⟩ : BufTy).Contents (Elt Ideal)) (x3 : (⟨S384x1536, .f32⟩ : BufTy).Contents (Elt Ideal))
  (x4 : (⟨S384, .f32⟩ : BufTy).Contents (Elt Ideal)) (x5 : (⟨S1, .f32⟩ : BufTy).Contents (Elt Ideal))

/-! ## The clamp's bounds -/

/-- The integer -128 converted to a float is the pattern of -128. -/
theorem clipLo_eq : FloatOps.sitofp (F := Ideal) .f32 (4294967168#32 : BitVec 32) = cm128 := by
  show (((4294967168#32 : BitVec 32).toInt : ℝ) : EReal) = cm128
  rw [cm128_eq, show (4294967168#32 : BitVec 32).toInt = -128 by decide]
  norm_num

/-- The integer 127 converted to a float is the pattern of 127. -/
theorem clipHi_eq : FloatOps.sitofp (F := Ideal) .f32 (127#32 : BitVec 32) = c127 := by
  show (((127#32 : BitVec 32).toInt : ℝ) : EReal) = c127
  rw [c127_eq, show (127#32 : BitVec 32).toInt = 127 by decide]
  norm_num

/-! ## The second layer's row scales -/

/-- Reducing a [384, 1536] array over its second axis. -/
theorem red_w2 : S384x1536.Reduces [1] S384 := by decide

/-- Row o with column k inserted is the index (o, k). -/
theorem lift_w2 (o : Fin 384) (k : Fin 1536) : red_w2.lift (ix1 o) k = ix2 o k := by
  funext c
  apply Fin.ext
  match c with
  | ⟨0, _⟩ => rfl
  | ⟨1, _⟩ => rfl

/-- The largest absolute value of weight row o. -/
theorem ref_rowmax (o : Fin 384) :
    val_main_v36 (F := Ideal) x3 (ix1 o) = Finset.univ.sup fun k : Fin 1536 => absE (matOf x3 o k) := by
  unfold val_main_v36
  rw [Host.reduce_eq_fold_single FloatOps.maximumf _ _ reducesTo_S384x1536_S384_d1 red_w2 h_S_ (ix1 o)]
  have hf : (fun k : Fin 1536 => val_main_v35 (F := Ideal) x3 (red_w2.lift (ix1 o) k)) = fun k => absE (matOf x3 o k) := by
    funext k; rw [lift_w2]; rfl
  exact (congrArg (fun f : Fin 1536 → EReal => Finset.univ.fold max ninf32 f) hf).trans (fold_max_ninf_eq_sup _ _)

/-- The scale of weight row o. -/
theorem ref_wsf (o : Fin 384) : val_main_v38 (F := Ideal) x3 (ix1 o) = wsf (matOf x3) o := by
  rw [val_main_v38_apply, ref_rowmax, val_main_v37_apply]
  rfl

/-! ## The second layer's integer weights -/

/-- The integer weights of the second layer. -/
theorem ref_wint (o : Fin 384) (k : Fin 1536) : val_main_v43 (F := Ideal) x3 (ix2 o k) = wint (matOf x3) o k := by
  have e : idx_main_v39 (idx_main_v40 (ix2 o k)) = ix1 o :=
    funext fun a => Fin.ext (by match a with | ⟨0, _⟩ => rfl)
  rw [val_main_v43_apply, val_main_call7_v4_apply, val_main_call7_v3_apply, val_main_c_9_apply,
    val_main_call7_v2_apply, val_main_call7_v1_apply, val_main_call7_v0_apply, val_main_c_8_apply,
    val_main_v42_apply, val_main_v41_apply, val_main_v40_apply, val_main_v39_apply, e, ref_wsf, clipHi_eq, clipLo_eq]
  rfl

/-! ## The requantized hidden activations divided by their scale -/

/-- The second layer's input: the hidden activations quantized at their scale, times the scale, over the scale. -/
theorem ref_xq (b : Fin 256) (s : Fin 196) (k : Fin 1536) :
    val_main_v45 (F := Ideal) x0 x1 x2 x5 (ix3 b s k)
      = Ideal.div (quant (hid (flatX x0) (matOf x1) (vecOf x2) (vecOf x5 0) (flatRow b s) k)
            (s1 (flatX x0) (matOf x1) (vecOf x2) (vecOf x5 0)) * s1 (flatX x0) (matOf x1) (vecOf x2) (vecOf x5 0))
          (s1 (flatX x0) (matOf x1) (vecOf x2) (vecOf x5 0)) := by
  have e29 : idx_main_v29 (ix3 b s k) = ix0 := rfl
  have e33 : idx_main_v33 (ix3 b s k) = ix0 := rfl
  have e44 : idx_main_v44 (ix3 b s k) = ix0 := rfl
  rw [val_main_v45_apply, val_main_v44_apply, val_main_v34_apply, val_main_v33_apply, val_main_v32_apply,
    val_main_call5_v4_apply, val_main_call5_v3_apply, val_main_c_5_apply, val_main_call5_v2_apply,
    val_main_call5_v1_apply, val_main_call5_v0_apply, val_main_c_4_apply, val_main_v31_apply, val_main_v30_apply,
    val_main_v29_apply, e29, e33, e44, ref_hid, ref_s1, clipHi_eq, clipLo_eq]
  rfl

/-! ## The second layer's integer bias and output scales -/

/-- The integer bias of the second layer at the hidden activations' scale. -/
theorem ref_bint (o : Fin 384) :
    val_main_v49 (F := Ideal) x0 x1 x2 x3 x4 x5 (ix1 o)
      = bint (matOf x3) (vecOf x4) (s1 (flatX x0) (matOf x1) (vecOf x2) (vecOf x5 0)) o := by
  have e46 : idx_main_v46 (ix1 o) = ix0 := rfl
  rw [val_main_v49_apply, val_main_v48_apply, val_main_v47_apply, val_main_v46_apply, e46, ref_wsf, ref_s1]
  rfl

/-- The output scales of the second layer at the hidden activations' scale. -/
theorem ref_wscale (o : Fin 384) :
    val_main_v55 (F := Ideal) x0 x1 x2 x3 x5 (ix1 o)
      = wscale (matOf x3) (s1 (flatX x0) (matOf x1) (vecOf x2) (vecOf x5 0)) o := by
  have e54 : idx_main_v54 (ix1 o) = ix0 := rfl
  rw [val_main_v55_apply, val_main_v54_apply, e54, ref_wsf, ref_s1]
  rfl

/-! ## The second layer -/

/-- The second layer's result at row 196·b + s, channel o. -/
theorem ref_y (b : Fin 256) (s : Fin 196) (o : Fin 384) :
    val_main_v58 (F := Ideal) x0 x1 x2 x3 x4 x5 (ix3 b s o)
      = yR (flatX x0) (matOf x1) (vecOf x2) (matOf x3) (vecOf x4) (vecOf x5 0) (flatRow b s) o := by
  have el : ∀ k : Fin 1536, lidx_main_v50 (ix3 b s o) k = ix3 b s k := fun k =>
    funext fun a => Fin.ext (by match a with | ⟨0, _⟩ => rfl | ⟨1, _⟩ => rfl | ⟨2, _⟩ => rfl)
  have er : ∀ k : Fin 1536, ridx_main_v50 (ix3 b s o) k = ix2 o k := fun k =>
    funext fun a => Fin.ext (by match a with | ⟨0, _⟩ => rfl | ⟨1, _⟩ => rfl)
  have e52 : idx_main_v51 (idx_main_v52 (ix3 b s o)) = ix1 o :=
    funext fun a => Fin.ext (by match a with | ⟨0, _⟩ => rfl)
  have e57 : idx_main_v56 (idx_main_v57 (ix3 b s o)) = ix1 o :=
    funext fun a => Fin.ext (by match a with | ⟨0, _⟩ => rfl)
  rw [val_main_v58_apply, val_main_v57_apply, val_main_v56_apply, e57, ref_wscale, val_main_v53_apply,
    val_main_v52_apply, val_main_v51_apply, e52, ref_bint, val_main_v50_apply]
  simp only [el, er, ref_xq, ref_wint]
  rfl

/-! ## The result's scale -/

/-- The largest absolute value of the second layer's result: the maximum over all (b, s, o) is the maximum over
    all (r, o), since every row r is 196·b + s for its own b = r / 196 and s = r % 196. -/
theorem ref_ymax :
    val_main_v60 (F := Ideal) x0 x1 x2 x3 x4 x5 ix0
      = supAbs (yR (flatX x0) (matOf x1) (vecOf x2) (matOf x3) (vecOf x4) (vecOf x5 0)) := by
  have hY : (fun (r : Fin 50176) (o : Fin 384) =>
        val_main_v58 (F := Ideal) x0 x1 x2 x3 x4 x5 (ix3 (rowB r) (rowS r) o))
      = yR (flatX x0) (matOf x1) (vecOf x2) (matOf x3) (vecOf x4) (vecOf x5 0) := by
    funext r o; rw [ref_y, flatRow_rowB_rowS]
  have h59 : val_main_v59 (F := Ideal) x0 x1 x2 x3 x4 x5
      = fun i => absE (val_main_v58 (F := Ideal) x0 x1 x2 x3 x4 x5 i) := rfl
  unfold val_main_v60
  rw [Host.reduce_eq_fold, Finset.filter_true_of_mem fun i _ => funext fun a => a.elim0, h59]
  exact (fold_max_absE_idx3_eq_supAbs (val_main_v58 (F := Ideal) x0 x1 x2 x3 x4 x5)).trans (congrArg supAbs hY)

/-- The reference's second activation scale. -/
theorem ref_s2 :
    val_main_v61 (F := Ideal) x0 x1 x2 x3 x4 x5 ix0
      = sfOf (yR (flatX x0) (matOf x1) (vecOf x2) (matOf x3) (vecOf x4) (vecOf x5 0)) := by
  rw [val_main_v61_apply, ref_ymax, val_main_cst_11_apply]
  rfl

/-! ## The result requantized -/

/-- The reference's result at row 196·b + s, channel o. -/
theorem ref_out (b : Fin 256) (s : Fin 196) (o : Fin 384) :
    val_main_v67 (F := Ideal) x0 x1 x2 x3 x4 x5 (ix3 b s o)
      = outOf (yR (flatX x0) (matOf x1) (vecOf x2) (matOf x3) (vecOf x4) (vecOf x5 0)) (flatRow b s) o := by
  have e62 : idx_main_v62 (ix3 b s o) = ix0 := rfl
  have e66 : idx_main_v66 (ix3 b s o) = ix0 := rfl
  rw [val_main_v67_apply, val_main_v66_apply, val_main_v65_apply, val_main_call10_v4_apply,
    val_main_call10_v3_apply, val_main_c_13_apply, val_main_call10_v2_apply, val_main_call10_v1_apply,
    val_main_call10_v0_apply, val_main_c_12_apply, val_main_v64_apply, val_main_v63_apply, val_main_v62_apply,
    e62, e66, ref_y, ref_s2, clipHi_eq, clipLo_eq]
  rfl

end Cert.ReferenceIdeal.RefVal

end
-- ==== Proof.KChain.lean ====
/-
  The kernel's stages are the network of the specification.

  Given the hidden activations entry by entry (first layer on x / a, then relu), their largest absolute value M₁,
  the second layer entry by entry on the integers quantized at scale M₁ / 127, and its largest absolute value M₂:
  the hidden array is `hid`, M₁ / 127 is `s1`, the second array is `yK`, M₂ / 127 is its quantization scale and
  the requantized entries are `outOf yK`. Each is the definitions unfolded. Last, the result and its scale are the
  same arrays for `yR`, because `yK = yR`.
-/
import proofs.«110018_j17901423689856_1_alg».proof.Proof.SpecLemmas

noncomputable section

namespace Cert.Spec

open Idealize.ShloMosaic

section Chain

variable {X : Fin 50176 → Fin 384 → EReal} {A : EReal} {W1 : Fin 1536 → Fin 384 → EReal} {B1 : Fin 1536 → EReal}
  {W2 : Fin 384 → Fin 1536 → EReal} {B2 : Fin 384 → EReal}
  {Hk : Fin 50176 → Fin 1536 → EReal} {M1 : EReal} {Yk : Fin 50176 → Fin 384 → EReal} {M2 : EReal}

/-- The first stage is the hidden activations. -/
theorem kchain_hid
    (hH : ∀ r o, Hk r o
      = max (((∑ k : Fin 384, Ideal.div (X r k) A * wint W1 o k) + bint W1 B1 A o) * wscale W1 A o) zero32) :
    Hk = hid X W1 B1 A := by
  funext r o
  exact hH r o

/-- The first maximum over 127 is the hidden activations' scale. -/
theorem kchain_s1
    (hH : ∀ r o, Hk r o
      = max (((∑ k : Fin 384, Ideal.div (X r k) A * wint W1 o k) + bint W1 B1 A o) * wscale W1 A o) zero32)
    (hM1 : M1 = Finset.univ.sup fun p : Fin 50176 × Fin 1536 => absE (Hk p.1 p.2)) :
    Ideal.div M1 c127 = s1 X W1 B1 A := by
  unfold s1 sfOf supAbs
  rw [hM1, kchain_hid hH]

/-- The second stage is the second layer on the integers. -/
theorem kchain_y
    (hH : ∀ r o, Hk r o
      = max (((∑ k : Fin 384, Ideal.div (X r k) A * wint W1 o k) + bint W1 B1 A o) * wscale W1 A o) zero32)
    (hM1 : M1 = Finset.univ.sup fun p : Fin 50176 × Fin 1536 => absE (Hk p.1 p.2))
    (hY : ∀ r o, Yk r o
      = ((∑ k : Fin 1536, quant (Hk r k) (Ideal.div M1 c127) * wint W2 o k) + bint W2 B2 (Ideal.div M1 c127) o)
        * wscale W2 (Ideal.div M1 c127) o) :
    Yk = yK X W1 B1 W2 B2 A := by
  funext r o
  unfold yK lin
  rw [hY r o, kchain_s1 hH hM1, kchain_hid hH]

/-- The second maximum over 127 is the second array's quantization scale. -/
theorem kchain_s2
    (hH : ∀ r o, Hk r o
      = max (((∑ k : Fin 384, Ideal.div (X r k) A * wint W1 o k) + bint W1 B1 A o) * wscale W1 A o) zero32)
    (hM1 : M1 = Finset.univ.sup fun p : Fin 50176 × Fin 1536 => absE (Hk p.1 p.2))
    (hY : ∀ r o, Yk r o
      = ((∑ k : Fin 1536, quant (Hk r k) (Ideal.div M1 c127) * wint W2 o k) + bint W2 B2 (Ideal.div M1 c127) o)
        * wscale W2 (Ideal.div M1 c127) o)
    (hM2 : M2 = Finset.univ.sup fun p : Fin 50176 × Fin 384 => absE (Yk p.1 p.2)) :
    Ideal.div M2 c127 = sfOf (yK X W1 B1 W2 B2 A) := by
  unfold sfOf supAbs
  rw [hM2, kchain_y hH hM1 hY]

/-- The last stage is the second array requantized at its own scale. -/
theorem kchain_out
    (hH : ∀ r o, Hk r o
      = max (((∑ k : Fin 384, Ideal.div (X r k) A * wint W1 o k) + bint W1 B1 A o) * wscale W1 A o) zero32)
    (hM1 : M1 = Finset.univ.sup fun p : Fin 50176 × Fin 1536 => absE (Hk p.1 p.2))
    (hY : ∀ r o, Yk r o
      = ((∑ k : Fin 1536, quant (Hk r k) (Ideal.div M1 c127) * wint W2 o k) + bint W2 B2 (Ideal.div M1 c127) o)
        * wscale W2 (Ideal.div M1 c127) o)
    (hM2 : M2 = Finset.univ.sup fun p : Fin 50176 × Fin 384 => absE (Yk p.1 p.2))
    (r : Fin 50176) (o : Fin 384) :
    quant (Yk r o) (Ideal.div M2 c127) * Ideal.div M2 c127 = outOf (yK X W1 B1 W2 B2 A) r o := by
  unfold outOf
  rw [kchain_s2 hH hM1 hY hM2, kchain_y hH hM1 hY]

end Chain

section Close

variable (x : Fin 50176 → Fin 384 → EReal) (W1 : Fin 1536 → Fin 384 → EReal) (b1 : Fin 1536 → EReal)
  (W2 : Fin 384 → Fin 1536 → EReal) (b2 : Fin 384 → EReal) (a : EReal)

/-- The result is the same array on either reading of the second layer. -/
theorem outOf_yK_eq_outOf_yR : outOf (yK x W1 b1 W2 b2 a) = outOf (yR x W1 b1 W2 b2 a) := by
  rw [yK_eq_yR]

/-- The result's scale is the same on either reading of the second layer. -/
theorem sfOf_yK_eq_sfOf_yR : sfOf (yK x W1 b1 W2 b2 a) = sfOf (yR x W1 b1 W2 b2 a) := by
  rw [yK_eq_yR]

end Close

end Cert.Spec

end
-- ==== Proof.Assemble.lean ====
/-
  The claims. The kernel program's results, read off its run stage by stage — the host operations before each
  region, each region's output arrays — are the functions hid, yK, outOf and sfOf of Spec over the argument
  arrays; the reference's results are the same functions with yR in yK's place; and yK = yR: dividing the
  requantized activations by their scale again gives back the integers, unless the scale is zero, in which case
  both second layers multiply by a zero output scale.
-/
import proofs.«110018_j17901423689856_1_alg».proof.Defs
import proofs.«110018_j17901423689856_1_alg».proof.Proof.Gen.Kernel
import proofs.«110018_j17901423689856_1_alg».proof.Proof.Gen.KernelIdeal
import proofs.«110018_j17901423689856_1_alg».proof.Proof.Gen.ReferenceIdeal
import proofs.«110018_j17901423689856_1_alg».proof.Proof.Gen.Pre_finite_inputs
import proofs.«110018_j17901423689856_1_alg».proof.Proof.K.Run
import proofs.«110018_j17901423689856_1_alg».proof.Proof.KI.Run
import proofs.«110018_j17901423689856_1_alg».proof.Proof.Val0
import proofs.«110018_j17901423689856_1_alg».proof.Proof.Val0Max
import proofs.«110018_j17901423689856_1_alg».proof.Proof.Val1
import proofs.«110018_j17901423689856_1_alg».proof.Proof.Val1Max
import proofs.«110018_j17901423689856_1_alg».proof.Proof.Val2
import proofs.«110018_j17901423689856_1_alg».proof.Proof.HostA
import proofs.«110018_j17901423689856_1_alg».proof.Proof.HostB
import proofs.«110018_j17901423689856_1_alg».proof.Proof.HostC
import proofs.«110018_j17901423689856_1_alg».proof.Proof.RefB
import proofs.«110018_j17901423689856_1_alg».proof.Proof.KChain

set_option maxRecDepth 16384

noncomputable section

open Idealize.ShloMosaic Idealize.ShloMosaic.TcCoe Idealize.SL.Sem Idealize.ShloMosaic.ValueIdx

/-! ## The kernel program's results at `Ideal` -/

namespace Cert.KernelIdeal.KVal

open Cert.KernelIdeal Cert.KernelIdeal.Gen Cert.KernelIdeal.Frm Cert.Spec

variable (m : (ℓ : Loc nD τ sig) → Buf (Elt Ideal) ℓ) (c : Dev nD)

/-- The argument arrays by coordinates. -/
abbrev X : Fin 50176 → Fin 384 → EReal := flatX (m ((c : Thread nD τ).loc main_arg0))
abbrev W1 : Fin 1536 → Fin 384 → EReal := matOf (m ((c : Thread nD τ).loc main_arg1))
abbrev B1 : Fin 1536 → EReal := vecOf (m ((c : Thread nD τ).loc main_arg2))
abbrev W2 : Fin 384 → Fin 1536 → EReal := matOf (m ((c : Thread nD τ).loc main_arg3))
abbrev B2 : Fin 384 → EReal := vecOf (m ((c : Thread nD τ).loc main_arg4))
abbrev A : EReal := vecOf (m ((c : Thread nD τ).loc main_arg5)) 0

/-- The hidden activations the first region leaves, and their largest absolute value. -/
def Hk (r : Fin 50176) (o : Fin 1536) : EReal :=
  ((dat0 (atTc (V7 m)) c).arrAt 5 cfg0.N : S50176x1536.Idx → EReal) (ix2 r o)
def M1 : EReal := ((dat0 (atTc (V7 m)) c).arrAt 6 cfg0.N : S1x1.Idx → EReal) (ix2 0 0)
/-- The second layer's output the second region leaves, and its largest absolute value. -/
def Yk (r : Fin 50176) (o : Fin 384) : EReal :=
  ((dat1 (atTc (V15 m (outsK m))) c).arrAt 5 cfg1.N : S50176x384.Idx → EReal) (ix2 r o)
def M2 : EReal := ((dat1 (atTc (V15 m (outsK m))) c).arrAt 6 cfg1.N : S1x1.Idx → EReal) (ix2 0 0)

/-- The first region's rows: the first layer on x / a, then relu. -/
theorem hH (r : Fin 50176) (o : Fin 1536) :
    Hk m c r o = max (((∑ k : Fin 384, Ideal.div (X m c r k) (A m c) * wint (W1 m c) o k) + bint (W1 m c) (B1 m c) (A m c) o)
      * wscale (W1 m c) (A m c) o) zero32 := by
  unfold Hk
  rw [Val0.region0_h (atTc (V7 m)) c r o]
  simp only [atTc, HostA.V7_v0 m c, HostA.V7_v1 m c, HostA.V7_v12 m c, HostA.V7_v20 m c, HostA.V7_v15 m c]

theorem hM1 : M1 m c = Finset.univ.sup fun p : Fin 50176 × Fin 1536 => absE (Hk m c p.1 p.2) :=
  Val0Max.region0_max (atTc (V7 m)) c

/-- The scale the second region is entered with. -/
theorem s1K : V15 m (outsK m) c main_v23 (ix2 0 0) = Ideal.div (M1 m c) c127 := by
  rw [HostB.V15_v23 m (outsK m) c, outs8_v21_1 m c]; rfl

theorem hY (r : Fin 50176) (o : Fin 384) :
    Yk m c r o = ((∑ k : Fin 1536, quant (Hk m c r k) (Ideal.div (M1 m c) c127) * wint (W2 m c) o k)
        + bint (W2 m c) (B2 m c) (Ideal.div (M1 m c) c127) o) * wscale (W2 m c) (Ideal.div (M1 m c) c127) o := by
  unfold Yk
  rw [Val1.region1_y (atTc (V15 m (outsK m))) c r o]
  simp only [atTc, HostB.V15_v34 m (outsK m) c, HostB.V15_v42 m (outsK m) c, HostB.V15_v37 m (outsK m) c, s1K m c,
    HostB.V15_v21_0 m (outsK m) c, outs8_v21_0 m c]
  rfl

theorem hM2 : M2 m c = Finset.univ.sup fun p : Fin 50176 × Fin 384 => absE (Yk m c p.1 p.2) :=
  Val1Max.region1_max (atTc (V15 m (outsK m))) c

/-- The scale the third region is entered with. -/
theorem s2K : V17 m (outsK m) c main_v45 (ix2 0 0) = Ideal.div (M2 m c) c127 := by
  rw [HostC.V17_v45 m (outsK m) c, outs16_v43_1 m c]; rfl

/-- The kernel program's first result, index by index. -/
theorem out47 (b : Fin 256) (s : Fin 196) (o : Fin 384) :
    V19 m (outsK m) c main_v47 (ix3 b s o)
      = outOf (yK (X m c) (W1 m c) (B1 m c) (W2 m c) (B2 m c) (A m c)) (flatRow b s) o := by
  rw [HostC.V19_v47 m (outsK m) c b s o, outs18_v46 m c, Val.region2_out (atTc (V17 m (outsK m))) c (flatRow b s) o]
  simp only [atTc, s2K m c, HostC.V17_v43_0 m (outsK m) c, outs16_v43_0 m c]
  exact kchain_out (hH m c) (hM1 m c) (hY m c) (hM2 m c) (flatRow b s) o

/-- The kernel program's second result. -/
theorem out48 : V19 m (outsK m) c main_v48 ix0 = sfOf (yK (X m c) (W1 m c) (B1 m c) (W2 m c) (B2 m c) (A m c)) := by
  rw [HostC.V19_v48 m (outsK m) c, s2K m c]
  exact kchain_s2 (hH m c) (hM1 m c) (hY m c) (hM2 m c)

end Cert.KernelIdeal.KVal

/-! ## The claims -/

namespace Cert.Proof.Claims

open Cert.Spec

theorem frame_k : Cert.frame_Kernel := fun m ρ _ => Cert.Kernel.Frm.frame_all m ρ
theorem frame_ki : Cert.frame_KernelIdeal := fun m ρ _ => Cert.KernelIdeal.Frm.frame_all m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with `outOf y` and `sfOf y` of the argument arrays, the kernel with y = yK and the reference
    with y = yR, and yK = yR. -/
theorem algebraic : Cert.algebraic_KernelIdeal_ReferenceIdeal := by
  intro m ρ m' ρ' _ hagree
  refine ⟨fun c => Cert.KernelIdeal.Gen.V19 m (Cert.KernelIdeal.Frm.outsK m) c Cert.KernelIdeal.main_v47,
    fun c => Cert.KernelIdeal.Gen.V19 m (Cert.KernelIdeal.Frm.outsK m) c Cert.KernelIdeal.main_v48, ?_, ?_⟩
  · refine (θ_run Cert.KernelIdeal.defs _ _).mono (fun r h c => ?_) (Cert.KernelIdeal.Frm.run_all m ρ)
    exact ⟨h c _ (Cert.KernelIdeal.Frm.mem_uc Cert.KernelIdeal.main_v47 (by decide)),
      h c _ (Cert.KernelIdeal.Frm.mem_uc Cert.KernelIdeal.main_v48 (by decide)),
      (h c _ (Cert.KernelIdeal.Frm.mem_uc Cert.KernelIdeal.main_arg0 (by decide))).trans (Cert.KernelIdeal.Gen.V19_main_arg0 m _ c),
      (h c _ (Cert.KernelIdeal.Frm.mem_uc Cert.KernelIdeal.main_arg1 (by decide))).trans (Cert.KernelIdeal.Gen.V19_main_arg1 m _ c),
      (h c _ (Cert.KernelIdeal.Frm.mem_uc Cert.KernelIdeal.main_arg2 (by decide))).trans (Cert.KernelIdeal.Gen.V19_main_arg2 m _ c),
      (h c _ (Cert.KernelIdeal.Frm.mem_uc Cert.KernelIdeal.main_arg3 (by decide))).trans (Cert.KernelIdeal.Gen.V19_main_arg3 m _ c),
      (h c _ (Cert.KernelIdeal.Frm.mem_uc Cert.KernelIdeal.main_arg4 (by decide))).trans (Cert.KernelIdeal.Gen.V19_main_arg4 m _ c),
      (h c _ (Cert.KernelIdeal.Frm.mem_uc Cert.KernelIdeal.main_arg5 (by decide))).trans (Cert.KernelIdeal.Gen.V19_main_arg5 m _ c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v67_eq, (hagree c).1, (hagree c).2.1, (hagree c).2.2.1, (hagree c).2.2.2.1,
        (hagree c).2.2.2.2.1, (hagree c).2.2.2.2.2]
      funext i
      obtain ⟨b, s, o, rfl⟩ : ∃ (b : Fin 256) (s : Fin 196) (o : Fin 384), i = ix3 b s o := ⟨i 0, i 1, i 2, eq_ix3 i⟩
      rw [Cert.ReferenceIdeal.RefVal.ref_out]
      exact ((Cert.KernelIdeal.KVal.out47 m c b s o).trans (congrFun (congrFun (outOf_yK_eq_outOf_yR _ _ _ _ _ _) _) _)).symm
    · rw [Cert.ReferenceIdeal.Read.val_main_v61_eq, (hagree c).1, (hagree c).2.1, (hagree c).2.2.1, (hagree c).2.2.2.1,
        (hagree c).2.2.2.2.1, (hagree c).2.2.2.2.2]
      funext i
      obtain rfl : i = ix0 := funext fun a => a.elim0
      rw [Cert.ReferenceIdeal.RefVal.ref_s2]
      exact ((Cert.KernelIdeal.KVal.out48 m c).trans (sfOf_yK_eq_sfOf_yR _ _ _ _ _ _)).symm

end Cert.Proof.Claims

end
-- ==== Proof.lean ====
/-
  The certificate of the fused quantized MLP (three pallas_calls over 98 row blocks: a linear layer with relu
  and a running maximum, a second linear layer on the requantized activations with a running maximum, and the
  final requantization) against its plain reference.

  The two kernel programs, word-level and idealized, run to the end and leave their arguments unchanged: @main is a
  chain of host stretches and three kernel regions, each region's body proved at a generic grid point (the 1×1
  maximum window is set at the first point and joined with the block's maximum at every later one). At the ideal
  instance the kernel's results, read off that run, and the reference's, read off its own run, are the same
  functions of the argument arrays up to one law on the extended reals: (q · s) / s = q for the clipped integer q
  and a scale s that is neither zero nor, with q ≠ 0, infinite; where s = 0 both second layers multiply by the zero
  output scale. No rewrite of the idealization is in play, so the preservation claim is trivial.
-/
import proofs.«110018_j17901423689856_1_alg».proof.Defs
import proofs.«110018_j17901423689856_1_alg».proof.Proof.Gen.Kernel
import proofs.«110018_j17901423689856_1_alg».proof.Proof.Gen.Kernel.Skeleton
import proofs.«110018_j17901423689856_1_alg».proof.Proof.Gen.Kernel.Launch
import proofs.«110018_j17901423689856_1_alg».proof.Proof.Gen.Kernel.Regions
import proofs.«110018_j17901423689856_1_alg».proof.Proof.Gen.Kernel.Points
import proofs.«110018_j17901423689856_1_alg».proof.Proof.Gen.KernelIdeal
import proofs.«110018_j17901423689856_1_alg».proof.Proof.Gen.KernelIdeal.Skeleton
import proofs.«110018_j17901423689856_1_alg».proof.Proof.Gen.KernelIdeal.Launch
import proofs.«110018_j17901423689856_1_alg».proof.Proof.Gen.KernelIdeal.Regions
import proofs.«110018_j17901423689856_1_alg».proof.Proof.Gen.KernelIdeal.Points
import proofs.«110018_j17901423689856_1_alg».proof.Proof.Gen.ReferenceIdeal
import proofs.«110018_j17901423689856_1_alg».proof.Proof.Gen.Pre_finite_inputs
import proofs.«110018_j17901423689856_1_alg».proof.Proof.Assemble
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
